-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x1 : Shape := ⟨2, ![100000, 1]⟩
abbrev S2x1600000 : Shape := ⟨2, ![2, 1600000]⟩
abbrev S1600000x64 : Shape := ⟨2, ![1600000, 64]⟩
abbrev S1600000x3 : Shape := ⟨2, ![1600000, 3]⟩
abbrev S130x128 : Shape := ⟨2, ![130, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S32x1 : Shape := ⟨2, ![32, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S1600000x64 : S_.BroadcastsInDim S1600000x64 (![] : Fin 0 → Fin S1600000x64.rank)
  reducesTo_S1600000x64_S_d0_1 : S1600000x64.ReducesTo [0, 1] S_
  bcast_S_S1600000x3 : S_.BroadcastsInDim S1600000x3 (![] : Fin 0 → Fin S1600000x3.rank)
  reducesTo_S1600000x3_S_d0_1 : S1600000x3.ReducesTo [0, 1] S_
  bcast_S_S130x128 : S_.BroadcastsInDim S130x128 (![] : Fin 0 → Fin S130x128.rank)
  reducesTo_S130x128_S_d0_1 : S130x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S32x1 .f32) (main_arg16 : FVec F S1 .f32) (main_v63 : IVec S_ 1) (main_v67 : IVec S_ 1) : IVec S_ 1 :=
  let main_v68 : IVec S_ 1 := andi main_v63 main_v67
  let main_v69 : FVec F S32x1 .f32 := Host.absf main_arg15
  let main_cst_26 : FVec F S_ .f32 := constant S_ .f32 0x7F800000#32
  let main_v70 : FVec F S32x1 .f32 := broadcastInDim S32x1 ![] bcast_S_S32x1 main_cst_26
  let main_v71 : IVec S32x1 1 := cmpf .olt main_v69 main_v70
  let main_c_27 : IVec S_ 1 := constantI S_ 1 1#1
  let main_v72 : IVec S_ 1 := (fun x v => Host.reduce IntOp.andi x v reducesTo_S32x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg12 : FVec F S64 .f32) (main_arg13 : FVec F S64x32 .f32) (main_arg14 : FVec F S32 .f32) (main_arg15 : FVec F S32x1 .f32) (main_arg16 : FVec F S1 .f32) (main_v48 : IVec S_ 1) (main_v49 : FVec F S32x64 .f32) (main_v50 : FVec F S32x64 .f32) : IVec S_ 1 :=
  let main_v51 : IVec S32x64 1 := cmpf .olt main_v49 main_v50
  let main_c_19 : IVec S_ 1 := constantI S_ 1 1#1
  let main_v52 : IVec S_ 1 := (fun x v => Host.reduce IntOp.andi x v reducesTo_S32x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x32 .f32 := Host.absf main_arg13
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg15 main_arg16 main_v63 main_v67

def fn_part2 {F : FTy → Type} [FloatOps F] (main_arg8 : FVec F S64 .f32) (main_arg9 : FVec F S64x32 .f32) (main_arg10 : FVec F S32 .f32) (main_arg11 : FVec F S32x64 .f32) (main_arg12 : FVec F S64 .f32) (main_arg13 : FVec F S64x32 .f32) (main_arg14 : FVec F S32 .f32) (main_arg15 : FVec F S32x1 .f32) (main_arg16 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg9
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x64 .f32 := Host.absf main_arg11
  let main_cst_18 : FVec F S_ .f32 := constant S_ .f32 0x7F800000#32
  let main_v50 : FVec F S32x64 .f32 := broadcastInDim S32x64 ![] bcast_S_S32x64 main_cst_18
  fn_part3 (F := F) main_arg12 main_arg13 main_arg14 main_arg15 main_arg16 main_v48 main_v49 main_v50

def fn_part1 {F : FTy → Type} [FloatOps F] (main_arg5 : FVec F S130x128 .f32) (main_arg6 : FVec F S128 .f32) (main_arg7 : FVec F S128x64 .f32) (main_arg8 : FVec F S64 .f32) (main_arg9 : FVec F S64x32 .f32) (main_arg10 : FVec F S32 .f32) (main_arg11 : FVec F S32x64 .f32) (main_arg12 : FVec F S64 .f32) (main_arg13 : FVec F S64x32 .f32) (main_arg14 : FVec F S32 .f32) (main_arg15 : FVec F S32x1 .f32) (main_arg16 : FVec F S1 .f32) (main_v13 : IVec S_ 1) (main_v16 : IVec S1600000x3 1) : IVec S_ 1 :=
  let main_c_5 : IVec S_ 1 := constantI S_ 1 1#1
  let main_v17 : IVec S_ 1 := (fun x v => Host.reduce IntOp.andi x v reducesTo_S1600000x3_S_d0_1 h_S_) main_v16 main_c_5
  let main_v18 : IVec S_ 1 := andi main_v13 main_v17
  let main_v19 : FVec F S130x128 .f32 := Host.absf main_arg5
  let main_cst_6 : FVec F S_ .f32 := constant S_ .f32 0x7F800000#32
  let main_v20 : FVec F S130x128 .f32 := broadcastInDim S130x128 ![] bcast_S_S130x128 main_cst_6
  let main_v21 : IVec S130x128 1 := cmpf .olt main_v19 main_v20
  let main_c_7 : IVec S_ 1 := constantI S_ 1 1#1
  let main_v22 : IVec S_ 1 := (fun x v => Host.reduce IntOp.andi x v reducesTo_S130x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x64 .f32) (main_arg1 : FVec F S100000x1 .f32) (main_arg2 : IVec S2x1600000 32) (main_arg3 : FVec F S1600000x64 .f32) (main_arg4 : FVec F S1600000x3 .f32) (main_arg5 : FVec F S130x128 .f32) (main_arg6 : FVec F S128 .f32) (main_arg7 : FVec F S128x64 .f32) (main_arg8 : FVec F S64 .f32) (main_arg9 : FVec F S64x32 .f32) (main_arg10 : FVec F S32 .f32) (main_arg11 : FVec F S32x64 .f32) (main_arg12 : FVec F S64 .f32) (main_arg13 : FVec F S64x32 .f32) (main_arg14 : FVec F S32 .f32) (main_arg15 : FVec F S32x1 .f32) (main_arg16 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S1600000x64 .f32 := Host.absf main_arg3
  let main_cst_2 : FVec F S_ .f32 := constant S_ .f32 0x7F800000#32
  let main_v10 : FVec F S1600000x64 .f32 := broadcastInDim S1600000x64 ![] bcast_S_S1600000x64 main_cst_2
  let main_v11 : IVec S1600000x64 1 := cmpf .olt main_v9 main_v10
  let main_c_3 : IVec S_ 1 := constantI S_ 1 1#1
  let main_v12 : IVec S_ 1 := (fun x v => Host.reduce IntOp.andi x v reducesTo_S1600000x64_S_d0_1 h_S_) main_v11 main_c_3
  let main_v13 : IVec S_ 1 := andi main_v8 main_v12
  let main_v14 : FVec F S1600000x3 .f32 := Host.absf main_arg4
  let main_cst_4 : FVec F S_ .f32 := constant S_ .f32 0x7F800000#32
  let main_v15 : FVec F S1600000x3 .f32 := broadcastInDim S1600000x3 ![] bcast_S_S1600000x3 main_cst_4
  let main_v16 : IVec S1600000x3 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S100000x64 : Shape := ⟨2, ![100000, 64]⟩
abbrev S100000x1 : Shape := ⟨2, ![100000, 1]⟩
abbrev S2x1600000 : Shape := ⟨2, ![2, 1600000]⟩
abbrev S1600000x64 : Shape := ⟨2, ![1600000, 64]⟩
abbrev S1600000x3 : Shape := ⟨2, ![1600000, 3]⟩
abbrev S130x128 : Shape := ⟨2, ![130, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x1 : Shape := ⟨2, ![1, 1]⟩
abbrev S4000x64 : Shape := ⟨2, ![4000, 64]⟩
abbrev S4000x1 : Shape := ⟨2, ![4000, 1]⟩
abbrev S4000x3 : Shape := ⟨2, ![4000, 3]⟩
abbrev S4000 : Shape := ⟨1, ![4000]⟩
abbrev S100000x3 : Shape := ⟨2, ![100000, 3]⟩
abbrev S4000x130 : Shape := ⟨2, ![4000, 130]⟩
abbrev S4000x128 : Shape := ⟨2, ![4000, 128]⟩
abbrev S1x128 : Shape := ⟨2, ![1, 128]⟩
abbrev S1x64 : Shape := ⟨2, ![1, 64]⟩
abbrev S4000x32 : Shape := ⟨2, ![4000, 32]⟩
abbrev S1x32 : Shape := ⟨2, ![1, 32]⟩

abbrev nBuf : Space → Nat
  | .hbm => 84
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S100000x1, .f32⟩
  | .hbm, ⟨2, _⟩ => ⟨S2x1600000, .i32⟩
  | .hbm, ⟨3, _⟩ => ⟨S1600000x64, .f32⟩
  | .hbm, ⟨4, _⟩ => ⟨S1600000x3, .f32⟩
  | .hbm, ⟨5, _⟩ => ⟨S130x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x64, .f32⟩
  | .hbm, ⟨12, _⟩ => ⟨S64, .f32⟩
  | .hbm, ⟨13, _⟩ => ⟨S64x32, .f32⟩
  | .hbm, ⟨14, _⟩ => ⟨S32, .f32⟩
  | .hbm, ⟨15, _⟩ => ⟨S32x1, .f32⟩
  | .hbm, ⟨16, _⟩ => ⟨S1, .f32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1, .i32⟩
  | .hbm, ⟨28, _⟩ => ⟨S_, .i32⟩
  | .hbm, ⟨29, _⟩ => ⟨S1600000x1, .i32⟩
  | .hbm, ⟨30, _⟩ => ⟨S1600000x1, .i1⟩
  | .hbm, ⟨31, _⟩ => ⟨S1x1, .i32⟩
  | .hbm, ⟨32, _⟩ => ⟨S1600000x1, .i32⟩
  | .hbm, ⟨33, _⟩ => ⟨S1600000x1, .i1⟩
  | .hbm, ⟨34, _⟩ => ⟨S1600000x1, .i1⟩
  | .hbm, ⟨35, _⟩ => ⟨S_, .i1⟩
  | .hbm, ⟨36, _⟩ => ⟨S1600000, .i1⟩
  | .hbm, ⟨37, _⟩ => ⟨S1600000x64, .f32⟩
  | .hbm, ⟨38, _⟩ => ⟨S1600000x64, .i1⟩
  | .hbm, ⟨39, _⟩ => ⟨S_, .f32⟩
  | .hbm, ⟨40, _⟩ => ⟨S1600000x64, .f32⟩
  | .hbm, ⟨41, _⟩ => ⟨S1600000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1, .i32⟩
  | .hbm, ⟨51, _⟩ => ⟨S_, .i32⟩
  | .hbm, ⟨52, _⟩ => ⟨S1600000x1, .i32⟩
  | .hbm, ⟨53, _⟩ => ⟨S1600000x1, .i1⟩
  | .hbm, ⟨54, _⟩ => ⟨S1x1, .i32⟩
  | .hbm, ⟨55, _⟩ => ⟨S1600000x1, .i32⟩
  | .hbm, ⟨56, _⟩ => ⟨S1600000x1, .i1⟩
  | .hbm, ⟨57, _⟩ => ⟨S1600000x1, .i1⟩
  | .hbm, ⟨58, _⟩ => ⟨S_, .i1⟩
  | .hbm, ⟨59, _⟩ => ⟨S1600000, .i1⟩
  | .hbm, ⟨60, _⟩ => ⟨S1600000x1, .f32⟩
  | .hbm, ⟨61, _⟩ => ⟨S1600000x1, .i1⟩
  | .hbm, ⟨62, _⟩ => ⟨S_, .f32⟩
  | .hbm, ⟨63, _⟩ => ⟨S1600000x1, .f32⟩
  | .hbm, ⟨64, _⟩ => ⟨S1600000x1, .f32⟩
  | .hbm, ⟨65, _⟩ => ⟨S1600000x3, .f32⟩
  | .hbm, ⟨66, _⟩ => ⟨S1600000x3, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S100000x3, .f32⟩
  | .hbm, ⟨76, _⟩ => ⟨S1600000x1, .i32⟩
  | .hbm, ⟨77, _⟩ => ⟨S100000x3, .f32⟩
  | .hbm, ⟨78, _⟩ => ⟨S_, .f32⟩
  | .hbm, ⟨79, _⟩ => ⟨S100000x3, .f32⟩
  | .hbm, ⟨80, _⟩ => ⟨S1600000x1, .i32⟩
  | .hbm, ⟨81, _⟩ => ⟨S100000x3, .f32⟩
  | .hbm, ⟨82, _⟩ => ⟨S100000x64, .f32⟩
  | .hbm, ⟨83, _⟩ => ⟨S100000x1, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x1, .f32⟩
  | .local _ .vmem, ⟨5, _⟩ => ⟨S4000x1, .f32⟩
  | .local _ .vmem, ⟨6, _⟩ => ⟨S4000x3, .f32⟩
  | .local _ .vmem, ⟨7, _⟩ => ⟨S4000x3, .f32⟩
  | .local _ .vmem, ⟨8, _⟩ => ⟨S4000x3, .f32⟩
  | .local _ .vmem, ⟨9, _⟩ => ⟨S4000x3, .f32⟩
  | .local _ .vmem, ⟨10, _⟩ => ⟨S4000x3, .f32⟩
  | .local _ .vmem, ⟨11, _⟩ => ⟨S4000x3, .f32⟩
  | .local _ .vmem, ⟨12, _⟩ => ⟨S4000x64, .f32⟩
  | .local _ .vmem, ⟨13, _⟩ => ⟨S4000x64, .f32⟩
  | .local _ .vmem, ⟨14, _⟩ => ⟨S4000x3, .f32⟩
  | .local _ .vmem, ⟨15, _⟩ => ⟨S4000x3, .f32⟩
  | .local _ .vmem, ⟨16, _⟩ => ⟨S4000x64, .f32⟩
  | .local _ .vmem, ⟨17, _⟩ => ⟨S4000x64, .f32⟩
  | .local _ .vmem, ⟨18, _⟩ => ⟨S4000x3, .f32⟩
  | .local _ .vmem, ⟨19, _⟩ => ⟨S4000x3, .f32⟩
  | .local _ .vmem, ⟨20, _⟩ => ⟨S130x128, .f32⟩
  | .local _ .vmem, ⟨21, _⟩ => ⟨S128, .f32⟩
  | .local _ .vmem, ⟨22, _⟩ => ⟨S128x64, .f32⟩
  | .local _ .vmem, ⟨23, _⟩ => ⟨S64, .f32⟩
  | .local _ .vmem, ⟨24, _⟩ => ⟨S64x32, .f32⟩
  | .local _ .vmem, ⟨25, _⟩ => ⟨S32, .f32⟩
  | .local _ .vmem, ⟨26, _⟩ => ⟨S32x64, .f32⟩
  | .local _ .vmem, ⟨27, _⟩ => ⟨S64, .f32⟩
  | .local _ .vmem, ⟨28, _⟩ => ⟨S64x32, .f32⟩
  | .local _ .vmem, ⟨29, _⟩ => ⟨S32, .f32⟩
  | .local _ .vmem, ⟨30, _⟩ => ⟨S32x1, .f32⟩
  | .local _ .vmem, ⟨31, _⟩ => ⟨S1, .f32⟩
  | .local _ .vmem, ⟨32, _⟩ => ⟨S4000x64, .f32⟩
  | .local _ .vmem, ⟨33, _⟩ => ⟨S4000x64, .f32⟩
  | .local _ .vmem, ⟨34, _⟩ => ⟨S4000x1, .f32⟩
  | .local _ .vmem, ⟨35, _⟩ => ⟨S4000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v2 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v3 : Ref sig .tc := ⟨.hbm, 64, rfl⟩
abbrev main_v4_0 : Ref sig .tc := ⟨.hbm, 65, rfl⟩
abbrev main_v4_1 : Ref sig .tc := ⟨.hbm, 66, rfl⟩
abbrev main_cst : Ref sig .tc := ⟨.hbm, 67, rfl⟩
abbrev main_v5 : Ref sig .tc := ⟨.hbm, 68, rfl⟩
abbrev main_v6 : Ref sig .tc := ⟨.hbm, 69, rfl⟩
abbrev main_v7 : Ref sig .tc := ⟨.hbm, 70, rfl⟩
abbrev main_v8 : Ref sig .tc := ⟨.hbm, 71, rfl⟩
abbrev main_v9 : Ref sig .tc := ⟨.hbm, 72, rfl⟩
abbrev main_v10 : Ref sig .tc := ⟨.hbm, 73, rfl⟩
abbrev main_cst_0 : Ref sig .tc := ⟨.hbm, 74, rfl⟩
abbrev main_v11 : Ref sig .tc := ⟨.hbm, 75, rfl⟩
abbrev main_v12 : Ref sig .tc := ⟨.hbm, 76, rfl⟩
abbrev main_v13 : Ref sig .tc := ⟨.hbm, 77, rfl⟩
abbrev main_cst_1 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_v17_0 : Ref sig .tc := ⟨.hbm, 82, rfl⟩
abbrev main_v17_1 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg12_0 : Ref sig .tc := ⟨.vmem, 28, rfl⟩
abbrev cc1_stg13_0 : Ref sig .tc := ⟨.vmem, 29, rfl⟩
abbrev cc1_stg14_0 : Ref sig .tc := ⟨.vmem, 30, rfl⟩
abbrev cc1_stg15_0 : Ref sig .tc := ⟨.vmem, 31, rfl⟩
abbrev cc1_stg16_0 : Ref sig .tc := ⟨.vmem, 32, rfl⟩
abbrev cc1_stg16_1 : Ref sig .tc := ⟨.vmem, 33, rfl⟩
abbrev cc1_stg17_0 : Ref sig .tc := ⟨.vmem, 34, rfl⟩
abbrev cc1_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem13_0 : DmaSem sig := 29
abbrev cc1_sem14_0 : DmaSem sig := 30
abbrev cc1_sem15_0 : DmaSem sig := 31
abbrev cc1_sem16_0 : DmaSem sig := 32
abbrev cc1_sem16_1 : DmaSem sig := 33
abbrev cc1_sem17_0 : DmaSem sig := 34
abbrev cc1_sem17_1 : DmaSem sig := 35

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S130x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S32x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S64x32 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S32 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S32x1 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S4000x64 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S4000x1 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

class Facts₀ : Prop where
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x3_S4000x3_0_0 : ∀ a, (![0, 0] : Fin 2 → Nat) a + S4000x3.size a ≤ S4000x3.size a
  h_S4000x3 : 0 < S4000x3.numel
  reduces_S4000x64_S4000 : S4000x64.Reduces [1] S4000
  shapeCasts_S4000_S4000x1 : S4000.ShapeCasts S4000x1
  broadcasts_S4000x1_S4000x3 : S4000x1.Broadcasts S4000x3
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S_S100000x3 : S_.BroadcastsInDim S100000x3 (![] : Fin 0 → Fin S100000x3.rank)
  shapeCasts_S4000x3_S4000x3 : S4000x3.ShapeCasts S4000x3
  reduces_S4000x3_S4000 : S4000x3.Reduces [1] S4000
  concatenates_S4000x64_S4000x1_S4000x64_S4000x1_S4000x130_d1 : Shape.Concatenates [S4000x64, S4000x1, S4000x64, S4000x1] S4000x130 1
  bitsLt_bf16_f32 : FTy.bits .bf16 < FTy.bits .f32
  inb_S130x128_S130x128_0_0 : ∀ a, (![0, 0] : Fin 2 → Nat) a + S130x128.size a ≤ S130x128.size a
  h_S130x128 : 0 < S130x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S4000x32 : S1x32.Broadcasts S4000x32
  inb_S32x64_S32x64_0_0 : ∀ a, (![0, 0] : Fin 2 → Nat) a + S32x64.size a ≤ S32x64.size a
  h_S32x64 : 0 < S32x64.numel
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  gather_S100000x64_S1600000x1_S1600000x64_1_0_n_n_0_1_164_wf : GatherDims.WF S100000x64 S1600000x1 S1600000x64 [1] [0] [] [0] [] 1 ![1, 64]
  gather_S100000x1_S1600000x1_S1600000x1_1_0_n_n_0_1_11_wf : GatherDims.WF S100000x1 S1600000x1 S1600000x1 [1] [0] [] [0] [] 1 ![1, 1]
  scatter_S100000x64_S1600000x1_S1600000x64_1_0_0_1_wf : ScatterDims.WF S100000x64 S1600000x1 S1600000x64 [1] [0] [0] 1
  scatter_S100000x3_S1600000x1_S1600000x3_1_0_0_1_wf : ScatterDims.WF S100000x3 S1600000x1 S1600000x3 [1] [0] [0] 1
  dot_S4000x130_S130x128_S4000x128_1_0_0_1_n_n_wf : DotDims.WF S4000x130 S130x128 S4000x128 [1] [0] [0] [1] [] []
  dot_S4000x128_S128x64_S4000x64_1_0_0_1_n_n_wf : DotDims.WF S4000x128 S128x64 S4000x64 [1] [0] [0] [1] [] []
  dot_S4000x64_S64x32_S4000x32_1_0_0_1_n_n_wf : DotDims.WF S4000x64 S64x32 S4000x32 [1] [0] [0] [1] [] []
  dot_S4000x32_S32x64_S4000x64_1_0_0_1_n_n_wf : DotDims.WF S4000x32 S32x64 S4000x64 [1] [0] [0] [1] [] []
  dot_S4000x32_S32x1_S4000x1_1_0_0_1_n_n_wf : DotDims.WF S4000x32 S32x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1600000x64.size a
  hwx0_0 : ∀ i : grid0.Coords, EltTy.bits .f32 = 32 ∨ (Rect.block (s := S1600000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S1600000x64.size a
  hwx0_1 : ∀ i : grid0.Coords, EltTy.bits .f32 = 32 ∨ (Rect.block (s := S1600000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S1600000x1.size a
  hwx0_2 : ∀ i : grid0.Coords, EltTy.bits .f32 = 32 ∨ (Rect.block (s := S1600000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x3.size a ≤ S1600000x3.size a
  hwx0_3 : ∀ i : grid0.Coords, EltTy.bits .f32 = 32 ∨ (Rect.block (s := S1600000x3) S4000x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x3.size a ≤ S1600000x3.size a
  hwx0_4 : ∀ i : grid0.Coords, EltTy.bits .f32 = 32 ∨ (Rect.block (s := S1600000x3) S4000x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x3.size a ≤ S1600000x3.size a
  hwx0_5 : ∀ i : grid0.Coords, EltTy.bits .f32 = 32 ∨ (Rect.block (s := S1600000x3) S4000x3.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x3.size a ≤ S100000x3.size a
  hwx1_1 : ∀ i : grid1.Coords, EltTy.bits .f32 = 32 ∨ (Rect.block (s := S100000x3) S4000x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x3.size a ≤ S100000x3.size a
  hwx1_3 : ∀ i : grid1.Coords, EltTy.bits .f32 = 32 ∨ (Rect.block (s := S100000x3) S4000x3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S130x128.size a ≤ S130x128.size a
  hwx1_4 : ∀ i : grid1.Coords, EltTy.bits .f32 = 32 ∨ (Rect.block (s := S130x128) S130x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .f32 = 32 ∨ (Rect.block (s := S128x64) S128x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x32.size a ≤ S64x32.size a
  hwx1_8 : ∀ i : grid1.Coords, EltTy.bits .f32 = 32 ∨ (Rect.block (s := S64x32) S64x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S32.size a ≤ S32.size a
  hwx1_9 : ∀ i : grid1.Coords, EltTy.bits .f32 = 32 ∨ (Rect.block (s := S32) S32.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S32x64.size a ≤ S32x64.size a
  hwx1_10 : ∀ i : grid1.Coords, EltTy.bits .f32 = 32 ∨ (Rect.block (s := S32x64) S32x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64.size a ≤ S64.size a
  hwx1_11 : ∀ i : grid1.Coords, EltTy.bits .f32 = 32 ∨ (Rect.block (s := S64) S64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S64x32.size a ≤ S64x32.size a
  hwx1_12 : ∀ i : grid1.Coords, EltTy.bits .f32 = 32 ∨ (Rect.block (s := S64x32) S64x32.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S32.size a ≤ S32.size a
  hwx1_13 : ∀ i : grid1.Coords, EltTy.bits .f32 = 32 ∨ (Rect.block (s := S32) S32.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S32x1.size a ≤ S32x1.size a
  hwx1_14 : ∀ i : grid1.Coords, EltTy.bits .f32 = 32 ∨ (Rect.block (s := S32x1) S32x1.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1.size a ≤ S1.size a
  hwx1_15 : ∀ i : grid1.Coords, EltTy.bits .f32 = 32 ∨ (Rect.block (s := S1) S1.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S4000x64.size a ≤ S100000x64.size a
  hwx1_16 : ∀ i : grid1.Coords, EltTy.bits .f32 = 32 ∨ (Rect.block (s := S100000x64) S4000x64.size (cc1_transform_16 i) (hinb1_16 i)).WholeWords (EltTy.packing .f32)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S4000x1.size a ≤ S100000x1.size a
  hwx1_17 : ∀ i : grid1.Coords, EltTy.bits .f32 = 32 ∨ (Rect.block (s := S100000x1) S4000x1.size (cc1_transform_17 i) (hinb1_17 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf
def dot_S4000x130_S130x128_S4000x128_1_0_0_1_n_n : DotDims S4000x130 S130x128 S4000x128 where
  lhsContracting := [1]
  rhsContracting := [0]
  lhsNonContracting := [0]
  rhsNonContracting := [1]
  lhsBatch := []
  rhsBatch := []
  wf := dot_S4000x130_S130x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def dot_S4000x32_S32x64_S4000x64_1_0_0_1_n_n : DotDims S4000x32 S32x64 S4000x64 where
  lhsContracting := [1]
  rhsContracting := [0]
  lhsNonContracting := [0]
  rhsNonContracting := [1]
  lhsBatch := []
  rhsBatch := []
  wf := dot_S4000x32_S32x64_S4000x64_1_0_0_1_n_n_wf
def dot_S4000x32_S32x1_S4000x1_1_0_0_1_n_n : DotDims S4000x32 S32x1 S4000x1 where
  lhsContracting := [1]
  rhsContracting := [0]
  lhsNonContracting := [0]
  rhsNonContracting := [1]
  lhsBatch := []
  rhsBatch := []
  wf := dot_S4000x32_S32x1_S4000x1_1_0_0_1_n_n_wf

abbrev win0_0 : Pipeline.Window sig grid0 :=
  Pipeline.Window.ofSpec (Memref.whole main_arg3) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S4000x3.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S4000x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v8) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S4000x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S4000x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S130x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S64x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg10) S32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg11) S32x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg12) S64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg13) S64x32.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg14) S32.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg15) S32x1.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_arg16) S1.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v17_0) S4000x64.size cc1_transform_16 reads1_16 true false 2 stage1_16 sem1_16
    hrank1 hreads1_16 hinb1_16 nbuf1_16 (Memref.isWhole_whole _) hwx1_16 hstage1_16

abbrev win1_17 : Pipeline.Window sig grid1 :=
  Pipeline.Window.ofSpec (Memref.whole main_v17_1) S4000x1.size cc1_transform_17 reads1_17 true false 2 stage1_17 sem1_17
    hrank1 hreads1_17 hinb1_17 nbuf1_17 (Memref.isWhole_whole _) hwx1_17 hstage1_17

abbrev win1 : Fin 18 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | ⟨_ + 18, h⟩ => absurd h (Nat.not_lt.2 (Nat.le_add_left _ _))
abbrev spec1 : Fin 18 → Pipeline.WinSpec sig grid1.rank := fun w => (win1 w).toWinSpec

class Facts : Prop extends Facts₀ where

variable [Facts]
-- ==== ReferenceIdeal.lean ====
abbrev S100000x64 : Shape := ⟨2, ![100000, 64]⟩
abbrev S100000x1 : Shape := ⟨2, ![100000, 1]⟩
abbrev S2x1600000 : Shape := ⟨2, ![2, 1600000]⟩
abbrev S1600000x64 : Shape := ⟨2, ![1600000, 64]⟩
abbrev S1600000x3 : Shape := ⟨2, ![1600000, 3]⟩
abbrev S130x128 : Shape := ⟨2, ![130, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x3 : Shape := ⟨2, ![100000, 3]⟩
abbrev S100000 : Shape := ⟨1, ![100000]⟩
abbrev S100000x130 : Shape := ⟨2, ![100000, 130]⟩
abbrev S100000x128 : Shape := ⟨2, ![100000, 128]⟩
abbrev S1x128 : Shape := ⟨2, ![1, 128]⟩
abbrev S1x64 : Shape := ⟨2, ![1, 64]⟩
abbrev S100000x32 : Shape := ⟨2, ![100000, 32]⟩
abbrev S1x32 : Shape := ⟨2, ![1, 32]⟩
abbrev S1x1 : Shape := ⟨2, ![1, 1]⟩

abbrev nBuf : Space → Nat
  | .hbm => 169
  | .vmem => 0
  | .smem => 0
  | _ => 0

abbrev hbmTy0_0 (i : Nat) : BufTy := match i % 128 with
  | 0 => ⟨S100000x64, .f32⟩
  | 1 => ⟨S100000x1, .f32⟩
  | 2 => ⟨S2x1600000, .i32⟩
  | 3 => ⟨S1600000x64, .f32⟩
  | 4 => ⟨S1600000x3, .f32⟩
  | 5 => ⟨S130x128, .f32⟩
  | 6 => ⟨S128, .f32⟩
  | 7 => ⟨S128x64, .f32⟩
  | 8 => ⟨S64, .f32⟩
  | 9 => ⟨S64x32, .f32⟩
  | 10 => ⟨S32, .f32⟩
  | 11 => ⟨S32x64, .f32⟩
  | 12 => ⟨S64, .f32⟩
  | 13 => ⟨S64x32, .f32⟩
  | 14 => ⟨S32, .f32⟩
  | 15 => ⟨S32x1, .f32⟩
  | 16 => ⟨S1, .f32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S1600000x64, .f32⟩
  | 29 => ⟨S_, .f32⟩
  | 30 => ⟨S100000x64, .f32⟩
  | 31 => ⟨S1600000x1, .i32⟩
  | 32 => ⟨S100000x64, .f32⟩
  | 33 => ⟨S_, .f32⟩
  | 34 => ⟨S1600000, .f32⟩
  | 35 => ⟨S1600000x1, .f32⟩
  | 36 => ⟨S1600000x3, .f32⟩
  | 37 => ⟨S1600000x3, .f32⟩
  | 38 => ⟨S_, .f32⟩
  | 39 => ⟨S100000x3, .f32⟩
  | 40 => ⟨S1600000x1, .i32⟩
  | 41 => ⟨S100000x3, .f32⟩
  | 42 => ⟨S100000x3, .f32⟩
  | 43 => ⟨S_, .f32⟩
  | 44 => ⟨S100000, .f32⟩
  | 45 => ⟨S100000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x1, .f32⟩
  | 55 => ⟨S1600000x64, .f32⟩
  | 56 => ⟨S1600000x64, .f32⟩
  | 57 => ⟨S_, .f32⟩
  | 58 => ⟨S100000x64, .f32⟩
  | 59 => ⟨S1600000x1, .i32⟩
  | 60 => ⟨S100000x64, .f32⟩
  | 61 => ⟨S_, .f32⟩
  | 62 => ⟨S1600000, .f32⟩
  | 63 => ⟨S1600000x1, .f32⟩
  | 64 => ⟨S1600000x3, .f32⟩
  | 65 => ⟨S1600000x3, .f32⟩
  | 66 => ⟨S_, .f32⟩
  | 67 => ⟨S100000x3, .f32⟩
  | 68 => ⟨S1600000x1, .i32⟩
  | 69 => ⟨S100000x3, .f32⟩
  | 70 => ⟨S100000x3, .f32⟩
  | 71 => ⟨S_, .f32⟩
  | 72 => ⟨S100000, .f32⟩
  | 73 => ⟨S100000, .f32⟩
  | 74 => ⟨S100000x1, .f32⟩
  | 75 => ⟨S100000x1, .f32⟩
  | 76 => ⟨S100000x130, .f32⟩
  | 77 => ⟨S100000x128, .f32⟩
  | 78 => ⟨S1x128, .f32⟩
  | 79 => ⟨S100000x128, .f32⟩
  | 80 => ⟨S100000x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x128, .f32⟩
  | 98 => ⟨S100000x64, .f32⟩
  | 99 => ⟨S1x64, .f32⟩
  | 100 => ⟨S100000x64, .f32⟩
  | 101 => ⟨S100000x64, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S100000x64, .f32⟩
  | 108 => ⟨S_, .f32⟩
  | 109 => ⟨S100000x64, .f32⟩
  | 110 => ⟨S100000x64, .f32⟩
  | 111 => ⟨S100000x64, .f32⟩
  | 112 => ⟨S_, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S100000x64, .f32⟩
  | 119 => ⟨S100000x32, .f32⟩
  | 120 => ⟨S1x32, .f32⟩
  | 121 => ⟨S100000x32, .f32⟩
  | 122 => ⟨S100000x32, .f32⟩
  | 123 => ⟨S100000x32, .f32⟩
  | 124 => ⟨S100000x32, .f32⟩
  | 125 => ⟨S_, .f32⟩
  | 126 => ⟨S100000x32, .f32⟩
  | 127 => ⟨S100000x32, .f32⟩
  | _ => ⟨S100000x64, .f32⟩

abbrev hbmTy0_1 (i : Nat) : BufTy := match i % 128 with
  | 0 => ⟨S100000x32, .f32⟩
  | 1 => ⟨S_, .f32⟩
  | 2 => ⟨S100000x32, .f32⟩
  | 3 => ⟨S100000x32, .f32⟩
  | 4 => ⟨S100000x32, .f32⟩
  | 5 => ⟨S_, .f32⟩
  | 6 => ⟨S100000x32, .f32⟩
  | 7 => ⟨S100000x32, .f32⟩
  | 8 => ⟨S_, .f32⟩
  | 9 => ⟨S100000x32, .f32⟩
  | 10 => ⟨S100000x32, .f32⟩
  | 11 => ⟨S100000x32, .f32⟩
  | 12 => ⟨S100000x64, .f32⟩
  | 13 => ⟨S1x64, .f32⟩
  | 14 => ⟨S100000x64, .f32⟩
  | 15 => ⟨S100000x64, .f32⟩
  | 16 => ⟨S100000x32, .f32⟩
  | 17 => ⟨S1x32, .f32⟩
  | 18 => ⟨S100000x32, .f32⟩
  | 19 => ⟨S100000x32, .f32⟩
  | 20 => ⟨S100000x32, .f32⟩
  | 21 => ⟨S100000x32, .f32⟩
  | 22 => ⟨S_, .f32⟩
  | 23 => ⟨S100000x32, .f32⟩
  | 24 => ⟨S100000x32, .f32⟩
  | 25 => ⟨S100000x32, .f32⟩
  | 26 => ⟨S_, .f32⟩
  | 27 => ⟨S100000x32, .f32⟩
  | 28 => ⟨S100000x32, .f32⟩
  | 29 => ⟨S100000x32, .f32⟩
  | 30 => ⟨S_, .f32⟩
  | 31 => ⟨S100000x32, .f32⟩
  | 32 => ⟨S100000x32, .f32⟩
  | 33 => ⟨S_, .f32⟩
  | 34 => ⟨S100000x32, .f32⟩
  | 35 => ⟨S100000x32, .f32⟩
  | 36 => ⟨S100000x32, .f32⟩
  | 37 => ⟨S100000x1, .f32⟩
  | 38 => ⟨S1x1, .f32⟩
  | 39 => ⟨S100000x1, .f32⟩
  | 40 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_1 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_8 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_10 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_11 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_12 : Ref sig .tc := ⟨.hbm, 91, rfl⟩
abbrev main_v60 : Ref sig .tc := ⟨.hbm, 92, rfl⟩
abbrev main_v61 : Ref sig .tc := ⟨.hbm, 93, rfl⟩
abbrev main_cst_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_15 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_16 : Ref sig .tc := ⟨.hbm, 112, rfl⟩
abbrev main_v77 : Ref sig .tc := ⟨.hbm, 113, rfl⟩
abbrev main_v78 : Ref sig .tc := ⟨.hbm, 114, rfl⟩
abbrev main_cst_17 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_18 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_19 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_20 : Ref sig .tc := ⟨.hbm, 133, rfl⟩
abbrev main_v94 : Ref sig .tc := ⟨.hbm, 134, rfl⟩
abbrev main_v95 : Ref sig .tc := ⟨.hbm, 135, rfl⟩
abbrev main_cst_21 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_22 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_23 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_24 : Ref sig .tc := ⟨.hbm, 158, rfl⟩
abbrev main_v115 : Ref sig .tc := ⟨.hbm, 159, rfl⟩
abbrev main_v116 : Ref sig .tc := ⟨.hbm, 160, rfl⟩
abbrev main_cst_25 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  reducesTo_S1600000x64_S1600000_d1 : S1600000x64.ReducesTo [1] S1600000
  h_S_ : 0 < S_.numel
  bcast_S1600000x1_S1600000x3_0_1 : S1600000x1.BroadcastsInDim S1600000x3 (![0, 1] : Fin 2 → Fin S1600000x3.rank)
  bcast_S_S100000x3 : S_.BroadcastsInDim S100000x3 (![] : Fin 0 → Fin S100000x3.rank)
  reducesTo_S100000x3_S100000_d1 : S100000x3.ReducesTo [1] S100000
  bcast_S1600000x1_S1600000x64_0_1 : S1600000x1.BroadcastsInDim S1600000x64 (![0, 1] : Fin 2 → Fin S1600000x64.rank)
  bcast_S100000_S100000x1_0 : S100000.BroadcastsInDim S100000x1 (![0] : Fin 1 → Fin S100000x1.rank)
  concatenates_S100000x64_S100000x1_S100000x64_S100000x1_S100000x130_d1 : Shape.Concatenates [S100000x64, S100000x1, S100000x64, S100000x1] S100000x130 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x3_S1600000x1_S1600000x3_1_0_0_1_wf : ScatterDims.WF S100000x3 S1600000x1 S1600000x3 [1] [0] [0] 1
  gather_S100000x1_S1600000x1_S1600000x1_1_0_n_n_0_1_11_wf : GatherDims.WF S100000x1 S1600000x1 S1600000x1 [1] [0] [] [0] [] 1 ![1, 1]
  dot_S100000x130_S130x128_S100000x128_1_0_0_1_n_n_wf : DotDims.WF S100000x130 S130x128 S100000x128 [1] [0] [0] [1] [] []
  dot_S100000x128_S128x64_S100000x64_1_0_0_1_n_n_wf : DotDims.WF S100000x128 S128x64 S100000x64 [1] [0] [0] [1] [] []
  dot_S100000x64_S64x32_S100000x32_1_0_0_1_n_n_wf : DotDims.WF S100000x64 S64x32 S100000x32 [1] [0] [0] [1] [] []
  dot_S100000x32_S32x64_S100000x64_1_0_0_1_n_n_wf : DotDims.WF S100000x32 S32x64 S100000x64 [1] [0] [0] [1] [] []
  dot_S100000x32_S32x1_S100000x1_1_0_0_1_n_n_wf : DotDims.WF S100000x32 S32x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def dot_S100000x130_S130x128_S100000x128_1_0_0_1_n_n : DotDims S100000x130 S130x128 S100000x128 where
  lhsContracting := [1]
  rhsContracting := [0]
  lhsNonContracting := [0]
  rhsNonContracting := [1]
  lhsBatch := []
  rhsBatch := []
  wf := dot_S100000x130_S130x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KBody0.lean ====
/-
  The first kernel's body on one block of 4000 edges, read at an index.

  For edge p of the block and direction d the embedding output is r (p, d) · ∑ k, f (p, k) · g (p, k), with f the
  block of radial features and g the block of gathered embeddings; the charge output is r (p, d) · (q p · ∑ k, f (p, k))
  with q the gathered charge. Each is a lane sum over the 64 features, recast as a column and broadcast along the
  three directions.
-/
import proofs.«417935_j69415261438047_3_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Body

open Idealize.ShloMosaic Idealize.ShloMosaic.ValueIdx Cert.KernelIdeal Cert.KernelIdeal.Gen

/-- A vector recast as a column, at (p, 0): the vector at p. -/
theorem col_cast_apply {α : Type} {a : ℕ} (x : (⟨1, ![a]⟩ : Shape).Idx → α)
    (h : (⟨1, ![a]⟩ : Shape).ShapeCasts ⟨2, ![a, 1]⟩) (p : Fin a) (q : Fin 1) :
    shapeCast ⟨2, ![a, 1]⟩ x h (ix2 p q) = x (ix1 p) := by
  refine shapeCast_apply x h (ix2 p q) (ix1 p) ?_
  rw [Shape.rowMajor_val_two, Shape.rowMajor_val_one]
  have hq : q.val = 0 := by omega
  show p.val = p.val * 1 + q.val
  omega

/-- A column broadcast along b columns, at (p, d): the column at (p, 0). -/
theorem col_bcast_apply {α : Type} {a b : ℕ} (x : (⟨2, ![a, 1]⟩ : Shape).Idx → α)
    (h : (⟨2, ![a, 1]⟩ : Shape).Broadcasts ⟨2, ![a, b]⟩) (p : Fin a) (d : Fin b) :
    broadcastTo ⟨2, ![a, b]⟩ x h (ix2 p d) = x (ix2 p (0 : Fin 1)) := by
  refine broadcastTo_apply x h (ix2 p d) (ix2 p (0 : Fin 1)) fun ax => ?_
  match ax with
  | ⟨0, _⟩ =>
    show p.val = if a = 1 then 0 else p.val
    split
    · omega
    · rfl
  | ⟨1, _⟩ => rfl

/-- A lane sum over the 64 features of a block, at edge p. -/
theorem lane_sum64 (x : FVec Ideal S4000x64 .f32) (hφ : FKind.Formats .f32)
    (hacc : (0x00000000#32 : BitVec 32) = FKind.add.neutral .f32 hφ) (p : Fin 4000) :
    multiReduction .add [1] S4000 x 0x00000000#32 reduces_S4000x64_S4000 hφ hacc (ix1 p) = ∑ k : Fin 64, x (ix2 p k) :=
  (Ideal.multiReduction_add_single x _ reduces_S4000x64_S4000 hφ hacc (ix1 p)).trans
    (Finset.sum_congr rfl fun k _ => congrArg x (funext fun a => Fin.ext (by
      match a with
      | ⟨0, _⟩ => rfl
      | ⟨1, _⟩ => rfl)))

/-- The embedding output of the body at (p, d). -/
theorem edgeVecE_apply (x0 x1 : Vec Ideal S4000x64 .f32) (x3 : Vec Ideal S4000x3 .f32) (p : Fin 4000) (d : Fin 3) :
    k0_pay1 (F := Ideal) x0 x1 x3 (ix2 p d) = x3 (ix2 p d) * ∑ k : Fin 64, x0 (ix2 p k) * x1 (ix2 p k) := by
  unfold k0_pay1
  show x3 (ix2 p d) * broadcastTo S4000x3 _ _ (ix2 p d) = _
  rw [col_bcast_apply, col_cast_apply, shapeCast_self]
  exact congrArg (x3 (ix2 p d) * ·) (lane_sum64 _ _ _ p)

/-- The charge output of the body at (p, d). -/
theorem edgeVecC_apply (x0 : Vec Ideal S4000x64 .f32) (x2 : Vec Ideal S4000x1 .f32) (x3 : Vec Ideal S4000x3 .f32)
    (p : Fin 4000) (d : Fin 3) :
    k0_pay2 (F := Ideal) x0 x2 x3 (ix2 p d) = x3 (ix2 p d) * (x2 (ix2 p (0 : Fin 1)) * ∑ k : Fin 64, x0 (ix2 p k)) := by
  unfold k0_pay2
  show x3 (ix2 p d) * broadcastTo S4000x3 _ _ (ix2 p d) = _
  rw [col_bcast_apply]
  show x3 (ix2 p d) * (shapeCast S4000x1 x2 _ (ix2 p (0 : Fin 1)) * shapeCast S4000x1 _ _ (ix2 p (0 : Fin 1))) = _
  rw [col_cast_apply, shapeCast_self]
  exact congrArg (fun s => x3 (ix2 p d) * (x2 (ix2 p (0 : Fin 1)) * s)) (lane_sum64 _ _ _ p)

end Cert.KernelIdeal.Body

end
-- ==== Proof.Spec.lean ====
/-
  The arithmetic both programs apply to one atom's row, as functions on the extended reals.

  A dense layer sends a row x to (∑ k, x k · W (k, j)) + b j; the activation is the tanh form of GELU,
  x · (1/2 · (1 + tanh (c₁ · (x + c₂ · x³)))) with the two binary32 constants both programs carry; the message row of an
  atom is its 64 radial embedding features, the length of its accumulated embedding vector, its 64 radial charge
  features and the length of its accumulated charge vector, side by side (130 entries). The shared trunk is two
  activated dense layers (130 → 128 → 64); the embedding head is an activated dense layer and a plain one
  (64 → 32 → 64), the charge head likewise (64 → 32 → 1).
-/
import Idealize.ShloMosaic.PureOps.Ideal.Laws
import Idealize.ShloMosaic.Lib.ValueIdx

noncomputable section

namespace Cert.Spec

open Idealize.ShloMosaic Idealize.ShloMosaic.ValueIdx

/-- The tanh form of GELU at the ideal values, in the order of operations the kernel's body has. -/
def gelu (x : EReal) : EReal :=
  x * (Ideal.ofBits .f32 0x3F000000#32 * (Ideal.ofBits .f32 0x3F800000#32 +
    Ideal.tanh (Ideal.ofBits .f32 0x3F4C422A#32 * (x + Ideal.ofBits .f32 0x3D372713#32 * (x * (x * x))))))

/-- The same value with the cube taken as x² · x, the order the reference has. -/
theorem gelu_cube_comm (x : EReal) :
    x * (Ideal.ofBits .f32 0x3F000000#32 * (Ideal.ofBits .f32 0x3F800000#32 +
      Ideal.tanh (Ideal.ofBits .f32 0x3F4C422A#32 * (x + Ideal.ofBits .f32 0x3D372713#32 * (x * x * x))))) = gelu x := by
  unfold gelu; rw [mul_comm (x * x) x]

/-- One output of a dense layer on a row. -/
def dense {K N : Nat} (x : Fin K → EReal) (W : (⟨2, ![K, N]⟩ : Shape).Idx → EReal) (b : (⟨1, ![N]⟩ : Shape).Idx → EReal)
    (j : Fin N) : EReal :=
  (∑ k : Fin K, x k * W (ix2 k j)) + b (ix1 j)

/-- The Euclidean length of a 3-vector: the square root of the sum of its squares. -/
def vnorm (v : Fin 3 → EReal) : EReal := Ideal.sqrt (∑ d : Fin 3, v d * v d)

/-- An atom's message row: 64 radial embedding features, one length, 64 radial charge features, one length. -/
def msgRow (re : Fin 64 → EReal) (ve : EReal) (rc : Fin 64 → EReal) (vc : EReal) (k : Fin 130) : EReal :=
  if h : k.val < 64 then re ⟨k.val, h⟩
  else if k.val = 64 then ve
  else if h2 : k.val < 129 then rc ⟨k.val - 65, by omega⟩
  else vc

/-- The shared trunk: two activated dense layers. -/
def hidden (msg : Fin 130 → EReal) (W1 : (⟨2, ![130, 128]⟩ : Shape).Idx → EReal) (b1 : (⟨1, ![128]⟩ : Shape).Idx → EReal)
    (W2 : (⟨2, ![128, 64]⟩ : Shape).Idx → EReal) (b2 : (⟨1, ![64]⟩ : Shape).Idx → EReal) (j : Fin 64) : EReal :=
  gelu (dense (fun k => gelu (dense msg W1 b1 k)) W2 b2 j)

/-- The embedding head: an activated dense layer, then a plain one. -/
def headA (h : Fin 64 → EReal) (Wa1 : (⟨2, ![64, 32]⟩ : Shape).Idx → EReal) (ba1 : (⟨1, ![32]⟩ : Shape).Idx → EReal)
    (Wa2 : (⟨2, ![32, 64]⟩ : Shape).Idx → EReal) (ba2 : (⟨1, ![64]⟩ : Shape).Idx → EReal) (j : Fin 64) : EReal :=
  dense (fun k => gelu (dense h Wa1 ba1 k)) Wa2 ba2 j

/-- The charge head: an activated dense layer, then a plain one with a single output. -/
def headQ (h : Fin 64 → EReal) (Wq1 : (⟨2, ![64, 32]⟩ : Shape).Idx → EReal) (bq1 : (⟨1, ![32]⟩ : Shape).Idx → EReal)
    (Wq2 : (⟨2, ![32, 1]⟩ : Shape).Idx → EReal) (bq2 : (⟨1, ![1]⟩ : Shape).Idx → EReal) (j : Fin 1) : EReal :=
  dense (fun k => gelu (dense h Wq1 bq1 k)) Wq2 bq2 j

end Cert.Spec

end
-- ==== Proof.LibPlainDot.lean ====
/-
  Matrix products at the ideal values, read as plain sums over one contraction coordinate.

  A product whose dimension numbers are the library's `DotDims.plain M K N` (rows × contraction times contraction × columns, no batch
  axis) is, at the result index (r, c), the sum over k : Fin K of lhs (r, k) · rhs (k, c); one whose numbers are
  `DotDims.transposedRhs M K N` (the right operand contracted on its LAST axis) is the sum over k of lhs (r, k) · rhs (c, k).
  Stated for a kernel's `tpu.matmul` into the zero accumulator and for the host's `dot_general`, at every M, K, N: a printed
  record with these six lists is one of the two by `rfl` (the well-formedness field is a proposition).
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-! ## The operand indices of a plain product, axis by axis -/

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 (i : (⟨2, ![M, N]⟩ : Shape).Idx) (q : (DotDims.plain M K N).contr.Idx) :
    ((DotDims.plain M K N).lhsIdx i q 1).val = (q ⟨0, Nat.zero_lt_one⟩).val :=
  (DotDims.plain M K N).lhsIdx_val_of_single rfl i q
theorem plain_rhs_0 (i : (⟨2, ![M, N]⟩ : Shape).Idx) (q : (DotDims.plain M K N).contr.Idx) :
    ((DotDims.plain M K N).rhsIdx i q 0).val = (q ⟨0, Nat.zero_lt_one⟩).val :=
  (DotDims.plain M K N).rhsIdx_val_of_single rfl i q
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape of a plain product, re-indexed by the one contraction coordinate. -/
theorem plain_sum (lhs : (⟨2, ![M, K]⟩ : Shape).Idx → EReal) (rhs : (⟨2, ![K, N]⟩ : Shape).Idx → EReal)
    (i : (⟨2, ![M, N]⟩ : Shape).Idx) :
    (∑ q : (DotDims.plain M K N).contr.Idx, lhs ((DotDims.plain M K N).lhsIdx i q) * rhs ((DotDims.plain M K N).rhsIdx i q))
      = ∑ k : Fin K, lhs (ix2 (i 0) k) * rhs (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 M K N _ _
      | ⟨1, _⟩ => exact (plain_lhs_1 M K N _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 M K N _ _).trans hk
      | ⟨1, _⟩ => exact plain_rhs_1 M K N _ _)
  exact congrArg₂ (fun a b : EReal => a * b) (congrArg lhs el) (congrArg rhs er)

/-- A kernel's `tpu.matmul` with plain dimension numbers into the zero accumulator, at an index. -/
theorem matmul_plain_zero_apply {φ₁ φ₂ : FTy} (prec : Option ContractPrecision)
    (lhs : FVec Ideal ⟨2, ![M, K]⟩ φ₁) (rhs : FVec Ideal ⟨2, ![K, N]⟩ φ₂) (i : (⟨2, ![M, N]⟩ : Shape).Idx) :
    FloatOps.matmul (DotDims.plain M K N) prec lhs rhs (constant ⟨2, ![M, N]⟩ .f32 0x00000000#32) i
      = ∑ k : Fin K, lhs (ix2 (i 0) k) * rhs (ix2 k (i 1)) := by
  rw [Ideal.matmul_constant_zero_apply]
  exact plain_sum M K N lhs rhs i

/-- The host's `dot_general` with plain dimension numbers, at an index. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (i : (⟨2, ![M, N]⟩ : Shape).Idx) :
    FloatOps.dotGeneral (DotDims.plain M K N) prec sched lhs rhs i = ∑ k : Fin K, lhs (ix2 (i 0) k) * rhs (ix2 k (i 1)) := by
  rw [Ideal.dotGeneral_apply]
  exact plain_sum M K N lhs rhs i

/-- The two at explicit coordinates (r, c): the form a proof rewrites with, free of the index's dependent coordinate types. -/
theorem matmul_plain_zero_ix2 {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, (lhs (ix2 r k) : EReal) * (rhs (ix2 k c) : EReal) :=
  matmul_plain_zero_apply M K N prec lhs rhs (ix2 r c)
theorem dotGeneral_plain_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, (lhs (ix2 r k) : EReal) * (rhs (ix2 k c) : EReal) :=
  dotGeneral_plain_apply M K N prec sched lhs rhs (ix2 r c)

/-! ## The right operand contracted on its last axis -/

theorem transposedRhs_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
theorem transposedRhs_lhs_1 (i : (⟨2, ![M, N]⟩ : Shape).Idx) (q : (DotDims.transposedRhs M K N).contr.Idx) :
    ((DotDims.transposedRhs M K N).lhsIdx i q 1).val = (q ⟨0, Nat.zero_lt_one⟩).val :=
  (DotDims.transposedRhs M K N).lhsIdx_val_of_single rfl i q
theorem transposedRhs_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
theorem transposedRhs_rhs_1 (i : (⟨2, ![M, N]⟩ : Shape).Idx) (q : (DotDims.transposedRhs M K N).contr.Idx) :
    ((DotDims.transposedRhs M K N).rhsIdx i q 1).val = (q ⟨0, Nat.zero_lt_one⟩).val :=
  (DotDims.transposedRhs M K N).rhsIdx_val_of_single rfl i q

/-- The host's `dot_general` contracting both operands' last axes, at an index. -/
theorem dotGeneral_transposedRhs_apply {φ₁ φ₂ : FTy} (prec : Option ContractPrecision) (sched : HostSchedule)
    (lhs : FVec Ideal ⟨2, ![M, K]⟩ φ₁) (rhs : FVec Ideal ⟨2, ![N, K]⟩ φ₂) (i : (⟨2, ![M, N]⟩ : Shape).Idx) :
    FloatOps.dotGeneral (DotDims.transposedRhs M K N) prec sched lhs rhs i
      = ∑ k : Fin K, lhs (ix2 (i 0) k) * rhs (ix2 (i 1) k) := by
  rw [Ideal.dotGeneral_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k) = ix2 (i 0) k :=
    funext fun a => Fin.ext (by
      match a with
      | ⟨0, _⟩ => exact transposedRhs_lhs_0 M K N _ _
      | ⟨1, _⟩ => exact (transposedRhs_lhs_1 M K N _ _).trans hk)
  have er : (DotDims.transposedRhs M K N).rhsIdx i ((contrEquiv1 (DotDims.transposedRhs M K N) K rfl rfl).symm k) = ix2 (i 1) k :=
    funext fun a => Fin.ext (by
      match a with
      | ⟨0, _⟩ => exact transposedRhs_rhs_0 M K N _ _
      | ⟨1, _⟩ => exact (transposedRhs_rhs_1 M K N _ _).trans hk)
  exact congrArg₂ (fun a b : EReal => a * b) (congrArg lhs el) (congrArg rhs er)

theorem dotGeneral_transposedRhs_ix2 {φ₁ φ₂ : FTy} (prec : Option ContractPrecision) (sched : HostSchedule)
    (lhs : FVec Ideal ⟨2, ![M, K]⟩ φ₁) (rhs : FVec Ideal ⟨2, ![N, K]⟩ φ₂) (r : Fin M) (c : Fin N) :
    FloatOps.dotGeneral (DotDims.transposedRhs M K N) prec sched lhs rhs (ix2 r c)
      = ∑ k : Fin K, (lhs (ix2 r k) : EReal) * (rhs (ix2 c k) : EReal) :=
  dotGeneral_transposedRhs_apply M K N prec sched lhs rhs (ix2 r c)

end Cert.Lib.PlainDot

end
-- ==== Proof.KBody1.lean ====
/-
  The second kernel's body read at an index, at the ideal values.

  The body is a six-layer perceptron on a block of 4000 atoms. Each dense layer is a matrix product into the zero accumulator
  plus a bias row broadcast over the rows; read at (p, j) it is the sum over k of the row's entry k times the weight (k, j),
  plus the bias at j. Four of the layers are followed by the tanh form of GELU, which acts entry by entry. The first layer's
  operand is a concatenation along the columns of four pieces: 64 radial embedding features, the Euclidean length of the
  accumulated embedding vector (the square root of a lane sum of three squares), 64 radial charge features, and the length of
  the accumulated charge vector; read at (p, k) it is the message row of atom p. Narrowing to bf16 is the identity at the
  ideal values. So the trunk's output at (p, j) is the specification's hidden row of atom p at j, the embedding head's output
  is the specification's embedding head on that hidden row, and the charge head's output the charge head on it.
-/
import proofs.«417935_j69415261438047_3_alg».proof.Proof.Gen.KernelIdeal.Skeleton
import proofs.«417935_j69415261438047_3_alg».proof.Proof.Spec
import proofs.«417935_j69415261438047_3_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Body
open Idealize.ShloMosaic Idealize.ShloMosaic.ValueIdx Cert.KernelIdeal Cert.KernelIdeal.Gen

/-! ## General readings: a bias row over many rows, a column cast, a dense layer -/

/-- A bias `[N]` viewed `[1, N]` and broadcast over `M` rows reads, at `(p, j)`, the bias at `j`. -/
theorem biasRows_apply {α : Type} {M N : Nat} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (j : Fin N) :
    broadcastTo ⟨2, ![M, N]⟩ (shapeCast ⟨2, ![1, N]⟩ b h1) h2 (ix2 p j) = b (ix1 j) :=
  (broadcastTo_1b_ab_apply (shapeCast ⟨2, ![1, N]⟩ b h1) h2 p j).trans (shapeCast_a_1a_apply b h1 0 j)

/-- An `[a]` array cast to the column `[a, 1]` reads, at `(p, u)`, the operand at `p`. -/
theorem shapeCast_a_a1_apply {α : Type} {a : Nat} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A dense layer as the body writes it: the product into the zero accumulator plus the bias row broadcast over the rows. -/
def denseLayer {M K N : Nat} {φ₁ φ₂ : FTy} (x : FVec Ideal ⟨2, ![M, K]⟩ φ₁) (W : FVec Ideal ⟨2, ![K, N]⟩ φ₂)
    (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) : FVec Ideal ⟨2, ![M, N]⟩ .f32 :=
  addf (matmul (DotDims.plain M K N) none x W (constant (F := Ideal) ⟨2, ![M, N]⟩ .f32 0x00000000#32))
    (broadcastTo ⟨2, ![M, N]⟩ (shapeCast ⟨2, ![1, N]⟩ b h1) h2)

/-- At `(p, j)` it is the specification's dense layer on row `p`. -/
theorem denseLayer_apply {M K N : Nat} {φ₁ φ₂ : FTy} (x : FVec Ideal ⟨2, ![M, K]⟩ φ₁) (W : FVec Ideal ⟨2, ![K, N]⟩ φ₂)
    (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) (p : Fin M) (j : Fin N) :
    denseLayer x W b h1 h2 (ix2 p j) = Cert.Spec.dense (fun k => x (ix2 p k)) W b j :=
  congrArg₂ (fun s t : EReal => s + t) (Cert.Lib.PlainDot.matmul_plain_zero_ix2 M K N none x W p j) (biasRows_apply b h1 h2 p j)

/-! ## The two lengths and the message row -/

/-- The inserted index of the lane sum: row `p`, lane `d`. -/
theorem lift_row (p : Fin 4000) (d : Fin 3) : reduces_S4000x3_S4000.lift (ix1 p) d = ix2 p d :=
  funext fun a => Fin.ext (by
    match a with
    | ⟨0, _⟩ => rfl
    | ⟨1, _⟩ => rfl)

/-- The length column: the square root of the lane sum of squares, at `(p, u)`, is the length of row `p`. -/
theorem normCol_apply (v : Vec Ideal S4000x3 .f32) (p : Fin 4000) (u : Fin 1) :
    sqrt (shapeCast S4000x1 (multiReduction (F := Ideal) .add [1] S4000
        (mulf (shapeCast S4000x3 v shapeCasts_S4000x3_S4000x3) (shapeCast S4000x3 v shapeCasts_S4000x3_S4000x3))
        0x00000000#32 reduces_S4000x3_S4000 (.inl rfl) rfl) shapeCasts_S4000_S4000x1) (ix2 p u)
      = Cert.Spec.vnorm fun d => v (ix2 p d) := by
  show Ideal.sqrt (shapeCast S4000x1 _ shapeCasts_S4000_S4000x1 (ix2 p u)) = Ideal.sqrt _
  refine congrArg Ideal.sqrt ?_
  refine (shapeCast_a_a1_apply _ shapeCasts_S4000_S4000x1 p u).trans ?_
  refine (Ideal.multiReduction_add_single _ 0x00000000#32 reduces_S4000x3_S4000 (.inl rfl) rfl (ix1 p)).trans ?_
  refine Finset.sum_congr rfl fun d _ => ?_
  rw [shapeCast_self]
  exact congrArg (fun i => (v i : EReal) * v i) (lift_row p d)

/-- The message row the body builds for row p of its block. -/
abbrev blockMsg (ve vc : Vec Ideal S4000x3 .f32) (re rc : Vec Ideal S4000x64 .f32) (p : Fin 4000) : Fin 130 → EReal :=
  Cert.Spec.msgRow (fun k => re (ix2 p k)) (Cert.Spec.vnorm fun d => ve (ix2 p d)) (fun k => rc (ix2 p k)) (Cert.Spec.vnorm fun d => vc (ix2 p d))

/-- The four pieces the body lays side by side for its first layer: the radial embedding features, the length of the
    accumulated embedding vector, the radial charge features, the length of the accumulated charge vector. -/
def msgPieces (ve vc : Vec Ideal S4000x3 .f32) (re rc : Vec Ideal S4000x64 .f32) : List ((s : Shape) × (s.Idx → EReal)) :=
  [⟨S4000x64, shapeCast S4000x64 re shapeCasts_S4000x64_S4000x64⟩,
   ⟨S4000x1, sqrt (shapeCast S4000x1 (multiReduction (F := Ideal) .add [1] S4000
      (mulf (shapeCast S4000x3 ve shapeCasts_S4000x3_S4000x3) (shapeCast S4000x3 ve shapeCasts_S4000x3_S4000x3))
      0x00000000#32 reduces_S4000x3_S4000 (.inl rfl) rfl) shapeCasts_S4000_S4000x1)⟩,
   ⟨S4000x64, shapeCast S4000x64 rc shapeCasts_S4000x64_S4000x64⟩,
   ⟨S4000x1, sqrt (shapeCast S4000x1 (multiReduction (F := Ideal) .add [1] S4000
      (mulf (shapeCast S4000x3 vc shapeCasts_S4000x3_S4000x3) (shapeCast S4000x3 vc shapeCasts_S4000x3_S4000x3))
      0x00000000#32 reduces_S4000x3_S4000 (.inl rfl) rfl) shapeCasts_S4000_S4000x1)⟩]

/-- Their concatenation along the columns: for every row, its message row. -/
def msgBlock (ve vc : Vec Ideal S4000x3 .f32) (re rc : Vec Ideal S4000x64 .f32) : FVec Ideal S4000x130 .f32 :=
  concatenate S4000x130 1 (msgPieces ve vc re rc) concatenates_S4000x64_S4000x1_S4000x64_S4000x1_S4000x130_d1

/-- The concatenated block read at `(p, k)`: the message row of row `p`. -/
theorem msg_apply (ve vc : Vec Ideal S4000x3 .f32) (re rc : Vec Ideal S4000x64 .f32) (p : Fin 4000) (k : Fin 130) :
    msgBlock ve vc re rc (ix2 p k) = blockMsg ve vc re rc p k := by
  have hk := k.isLt
  unfold msgBlock blockMsg Cert.Spec.msgRow
  by_cases h0 : k.val < 64
  · rw [dif_pos h0]
    refine (concatenate_apply_piece (t := S4000x130) 1 (msgPieces ve vc re rc)
      concatenates_S4000x64_S4000x1_S4000x64_S4000x1_S4000x130_d1 (ix2 p k) 0 (by decide : (0 : Nat) < 4) S4000x64
      (shapeCast S4000x64 re shapeCasts_S4000x64_S4000x64) rfl rfl 0 rfl
      (ix2 p ⟨k.val, h0⟩) (fun b hb => ?_) ?_).trans ?_
    · match b with
      | ⟨0, _⟩ => rfl
      | ⟨1, _⟩ => exact absurd rfl hb
    · show 0 + k.val = k.val
      omega
    · rw [shapeCast_self]
  · rw [dif_neg h0]
    by_cases h1 : k.val = 64
    · rw [if_pos h1]
      refine (concatenate_apply_piece (t := S4000x130) 1 (msgPieces ve vc re rc)
        concatenates_S4000x64_S4000x1_S4000x64_S4000x1_S4000x130_d1 (ix2 p k) 1 (by decide : (1 : Nat) < 4) S4000x1
        _ rfl rfl 64 rfl
        (ix2 p (0 : Fin 1)) (fun b hb => ?_) ?_).trans ?_
      · match b with
        | ⟨0, _⟩ => rfl
        | ⟨1, _⟩ => exact absurd rfl hb
      · show 64 + 0 = k.val
        omega
      · exact normCol_apply ve p 0
    · rw [if_neg h1]
      by_cases h2 : k.val < 129
      · rw [dif_pos h2]
        refine (concatenate_apply_piece (t := S4000x130) 1 (msgPieces ve vc re rc)
          concatenates_S4000x64_S4000x1_S4000x64_S4000x1_S4000x130_d1 (ix2 p k) 2 (by decide : (2 : Nat) < 4) S4000x64
          (shapeCast S4000x64 rc shapeCasts_S4000x64_S4000x64) rfl rfl 65 rfl
          (ix2 p ⟨k.val - 65, by omega⟩) (fun b hb => ?_) ?_).trans ?_
        · match b with
          | ⟨0, _⟩ => rfl
          | ⟨1, _⟩ => exact absurd rfl hb
        · show 65 + (k.val - 65) = k.val
          omega
        · rw [shapeCast_self]
      · rw [dif_neg h2]
        refine (concatenate_apply_piece (t := S4000x130) 1 (msgPieces ve vc re rc)
          concatenates_S4000x64_S4000x1_S4000x64_S4000x1_S4000x130_d1 (ix2 p k) 3 (by decide : (3 : Nat) < 4) S4000x1
          _ rfl rfl 129 rfl
          (ix2 p (0 : Fin 1)) (fun b hb => ?_) ?_).trans ?_
        · match b with
          | ⟨0, _⟩ => rfl
          | ⟨1, _⟩ => exact absurd rfl hb
        · show 129 + 0 = k.val
          omega
        · exact normCol_apply vc p 0

/-! ## An activated dense layer as a block -/

/-- An activated dense layer as the body writes it: the dense layer `y`, then
    `y · (1/2 · (1 + tanh (c₁ · (y + c₂ · (y · (y · y))))))`, every constant a splat. -/
def geluLayer {M K N : Nat} {φ₁ φ₂ : FTy} (x : FVec Ideal ⟨2, ![M, K]⟩ φ₁) (W : FVec Ideal ⟨2, ![K, N]⟩ φ₂)
    (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) : FVec Ideal ⟨2, ![M, N]⟩ .f32 :=
  have y : FVec Ideal ⟨2, ![M, N]⟩ .f32 := denseLayer x W b h1 h2
  mulf y (mulf (broadcast ⟨2, ![M, N]⟩ (Scalar.ofBits (F := Ideal) .f32 0x3F000000#32))
    (addf (broadcast ⟨2, ![M, N]⟩ (Scalar.ofBits (F := Ideal) .f32 0x3F800000#32))
      (tanh (mulf (broadcast ⟨2, ![M, N]⟩ (Scalar.ofBits (F := Ideal) .f32 0x3F4C422A#32))
        (addf y (mulf (broadcast ⟨2, ![M, N]⟩ (Scalar.ofBits (F := Ideal) .f32 0x3D372713#32)) (mulf y (mulf y y))))))))

/-- At `(p, j)` it is the specification's activation of the dense layer on row `p`. -/
theorem geluLayer_apply {M K N : Nat} {φ₁ φ₂ : FTy} (x : FVec Ideal ⟨2, ![M, K]⟩ φ₁) (W : FVec Ideal ⟨2, ![K, N]⟩ φ₂)
    (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) (p : Fin M) (j : Fin N) :
    geluLayer x W b h1 h2 (ix2 p j) = Cert.Spec.gelu (Cert.Spec.dense (fun k => x (ix2 p k)) W b j) :=
  congrArg Cert.Spec.gelu (denseLayer_apply x W b h1 h2 p j)

/-! ## The payloads as layers (narrowing to bf16 is the identity at the ideal values, and is kept where the body has it) -/

theorem pay3_eq (ve vc : Vec Ideal S4000x3 .f32) (re rc : Vec Ideal S4000x64 .f32) (W1 : Vec Ideal S130x128 .f32) (b1 : Vec Ideal S128 .f32) :
    k1_pay3 (F := Ideal) ve vc re rc W1 b1
      = truncf .bf16 (geluLayer (M := 4000) (K := 130) (N := 128) (truncf .bf16 (msgBlock ve vc re rc) bitsLt_bf16_f32)
          (truncf .bf16 W1 bitsLt_bf16_f32) b1 shapeCasts_S128_S1x128 broadcasts_S1x128_S4000x128) bitsLt_bf16_f32 := rfl

theorem pay4_eq (x : FVec Ideal S4000x128 .bf16) (W2 : Vec Ideal S128x64 .f32) (b2 : Vec Ideal S64 .f32) :
    k1_pay4 (F := Ideal) x W2 b2
      = geluLayer (M := 4000) (K := 128) (N := 64) x (truncf .bf16 W2 bitsLt_bf16_f32) b2
          shapeCasts_S64_S1x64 broadcasts_S1x64_S4000x64 := rfl

theorem pay5_eq (x : FVec Ideal S4000x128 .bf16) (W2 : Vec Ideal S128x64 .f32) (b2 : Vec Ideal S64 .f32)
    (Wa1 : Vec Ideal S64x32 .f32) (ba1 : Vec Ideal S32 .f32) :
    k1_pay5 (F := Ideal) x W2 b2 Wa1 ba1
      = truncf .bf16 (geluLayer (M := 4000) (K := 64) (N := 32) (truncf .bf16 (k1_pay4 (F := Ideal) x W2 b2) bitsLt_bf16_f32)
          (truncf .bf16 Wa1 bitsLt_bf16_f32) ba1 shapeCasts_S32_S1x32 broadcasts_S1x32_S4000x32) bitsLt_bf16_f32 := rfl

theorem pay1_eq (x : FVec Ideal S4000x32 .bf16) (w : FVec Ideal S32x64 .bf16) (b : Vec Ideal S64 .f32) :
    k1_pay1 (F := Ideal) x w b
      = denseLayer (M := 4000) (K := 32) (N := 64) x w b shapeCasts_S64_S1x64 broadcasts_S1x64_S4000x64 := rfl

theorem pay2_eq (h : FVec Ideal S4000x64 .f32) (Wq1 : Vec Ideal S64x32 .f32) (bq1 : Vec Ideal S32 .f32)
    (Wq2 : Vec Ideal S32x1 .f32) (bq2 : Vec Ideal S1 .f32) :
    k1_pay2 (F := Ideal) h Wq1 bq1 Wq2 bq2
      = denseLayer (M := 4000) (K := 32) (N := 1)
          (truncf .bf16 (geluLayer (M := 4000) (K := 64) (N := 32) (truncf .bf16 h bitsLt_bf16_f32) (truncf .bf16 Wq1 bitsLt_bf16_f32) bq1
            shapeCasts_S32_S1x32 broadcasts_S1x32_S4000x32) bitsLt_bf16_f32)
          (truncf .bf16 Wq2 bitsLt_bf16_f32) bq2 shapeCasts_S1_S1x1 broadcasts_S1x1_S4000x1 := rfl

/-! ## The payloads at an index -/

/-- The first layer at `(p, j)`. -/
theorem pay3_apply (ve vc : Vec Ideal S4000x3 .f32) (re rc : Vec Ideal S4000x64 .f32) (W1 : Vec Ideal S130x128 .f32) (b1 : Vec Ideal S128 .f32)
    (p : Fin 4000) (j : Fin 128) :
    k1_pay3 (F := Ideal) ve vc re rc W1 b1 (ix2 p j) = Cert.Spec.gelu (Cert.Spec.dense (blockMsg ve vc re rc p) W1 b1 j) := by
  rw [pay3_eq, truncf_apply, geluLayer_apply]
  exact congrArg Cert.Spec.gelu (congrArg (fun m => Cert.Spec.dense m W1 b1 j) (funext fun k => msg_apply ve vc re rc p k))

/-- The second layer at `(p, j)`, on any block of first-layer rows. -/
theorem pay4_apply (x : FVec Ideal S4000x128 .bf16) (W2 : Vec Ideal S128x64 .f32) (b2 : Vec Ideal S64 .f32) (p : Fin 4000) (j : Fin 64) :
    k1_pay4 (F := Ideal) x W2 b2 (ix2 p j) = Cert.Spec.gelu (Cert.Spec.dense (fun k => x (ix2 p k)) W2 b2 j) := by
  rw [pay4_eq, geluLayer_apply]
  rfl

theorem trunk_apply (ve vc : Vec Ideal S4000x3 .f32) (re rc : Vec Ideal S4000x64 .f32) (W1 : Vec Ideal S130x128 .f32) (b1 : Vec Ideal S128 .f32)
    (W2 : Vec Ideal S128x64 .f32) (b2 : Vec Ideal S64 .f32) (p : Fin 4000) (j : Fin 64) :
    k1_pay4 (F := Ideal) (k1_pay3 ve vc re rc W1 b1) W2 b2 (ix2 p j) = Cert.Spec.hidden (blockMsg ve vc re rc p) W1 b1 W2 b2 j :=
  (pay4_apply (k1_pay3 ve vc re rc W1 b1) W2 b2 p j).trans
    (congrArg Cert.Spec.gelu (congrArg (fun m => Cert.Spec.dense m W2 b2 j) (funext fun k => pay3_apply ve vc re rc W1 b1 p k)))

/-- The embedding head's first layer at `(p, j)`. -/
theorem pay5_apply (x : FVec Ideal S4000x128 .bf16) (W2 : Vec Ideal S128x64 .f32) (b2 : Vec Ideal S64 .f32)
    (Wa1 : Vec Ideal S64x32 .f32) (ba1 : Vec Ideal S32 .f32) (p : Fin 4000) (j : Fin 32) :
    k1_pay5 (F := Ideal) x W2 b2 Wa1 ba1 (ix2 p j)
      = Cert.Spec.gelu (Cert.Spec.dense (fun k => k1_pay4 (F := Ideal) x W2 b2 (ix2 p k)) Wa1 ba1 j) := by
  rw [pay5_eq, truncf_apply, geluLayer_apply]
  rfl

/-- The embedding head's plain layer at `(p, j)`. -/
theorem pay1_apply (x : FVec Ideal S4000x32 .bf16) (w : FVec Ideal S32x64 .bf16) (b : Vec Ideal S64 .f32) (p : Fin 4000) (j : Fin 64) :
    k1_pay1 (F := Ideal) x w b (ix2 p j) = Cert.Spec.dense (fun k => x (ix2 p k)) w b j := by
  rw [pay1_eq, denseLayer_apply]

theorem embHead_apply (ve vc : Vec Ideal S4000x3 .f32) (re rc : Vec Ideal S4000x64 .f32) (W1 : Vec Ideal S130x128 .f32) (b1 : Vec Ideal S128 .f32)
    (W2 : Vec Ideal S128x64 .f32) (b2 : Vec Ideal S64 .f32) (Wa1 : Vec Ideal S64x32 .f32) (ba1 : Vec Ideal S32 .f32)
    (Wa2 : Vec Ideal S32x64 .f32) (ba2 : Vec Ideal S64 .f32) (p : Fin 4000) (j : Fin 64) :
    k1_pay1 (F := Ideal) (k1_pay5 (k1_pay3 ve vc re rc W1 b1) W2 b2 Wa1 ba1) (k1_pay6 Wa2) ba2 (ix2 p j)
      = Cert.Spec.headA (Cert.Spec.hidden (blockMsg ve vc re rc p) W1 b1 W2 b2) Wa1 ba1 Wa2 ba2 j := by
  rw [pay1_apply]
  show Cert.Spec.dense (fun k => k1_pay5 (F := Ideal) (k1_pay3 ve vc re rc W1 b1) W2 b2 Wa1 ba1 (ix2 p k)) Wa2 ba2 j = _
  refine congrArg (fun m => Cert.Spec.dense m Wa2 ba2 j) (funext fun k => ?_)
  rw [pay5_apply]
  exact congrArg Cert.Spec.gelu (congrArg (fun m => Cert.Spec.dense m Wa1 ba1 k) (funext fun i => trunk_apply ve vc re rc W1 b1 W2 b2 p i))

/-- The charge head at `(p, j)`, on any block of trunk rows. -/
theorem pay2_apply (h : FVec Ideal S4000x64 .f32) (Wq1 : Vec Ideal S64x32 .f32) (bq1 : Vec Ideal S32 .f32)
    (Wq2 : Vec Ideal S32x1 .f32) (bq2 : Vec Ideal S1 .f32) (p : Fin 4000) (j : Fin 1) :
    k1_pay2 (F := Ideal) h Wq1 bq1 Wq2 bq2 (ix2 p j)
      = Cert.Spec.dense (fun k => Cert.Spec.gelu (Cert.Spec.dense (fun i => h (ix2 p i)) Wq1 bq1 k)) Wq2 bq2 j := by
  rw [pay2_eq, denseLayer_apply]
  refine congrArg (fun m => Cert.Spec.dense m Wq2 bq2 j) (funext fun k => ?_)
  rw [truncf_apply, geluLayer_apply]
  rfl

theorem chargeHead_apply (ve vc : Vec Ideal S4000x3 .f32) (re rc : Vec Ideal S4000x64 .f32) (W1 : Vec Ideal S130x128 .f32) (b1 : Vec Ideal S128 .f32)
    (W2 : Vec Ideal S128x64 .f32) (b2 : Vec Ideal S64 .f32) (Wq1 : Vec Ideal S64x32 .f32) (bq1 : Vec Ideal S32 .f32)
    (Wq2 : Vec Ideal S32x1 .f32) (bq2 : Vec Ideal S1 .f32) (p : Fin 4000) (j : Fin 1) :
    k1_pay2 (F := Ideal) (k1_pay4 (k1_pay3 ve vc re rc W1 b1) W2 b2) Wq1 bq1 Wq2 bq2 (ix2 p j)
      = Cert.Spec.headQ (Cert.Spec.hidden (blockMsg ve vc re rc p) W1 b1 W2 b2) Wq1 bq1 Wq2 bq2 j :=
  (pay2_apply (k1_pay4 (k1_pay3 ve vc re rc W1 b1) W2 b2) Wq1 bq1 Wq2 bq2 p j).trans
    (congrArg (fun m => Cert.Spec.dense m Wq2 bq2 j) (funext fun k =>
      congrArg Cert.Spec.gelu (congrArg (fun m => Cert.Spec.dense m Wq1 bq1 k) (funext fun i => trunk_apply ve vc re rc W1 b1 W2 b2 p i))))

end Cert.KernelIdeal.Body

end
-- ==== Proof.KArrays.lean ====
/-
  Each output array of the two kernels as ONE function of the arrays the kernel's region finds on entry.

  A region runs its body once per grid point t on the blocks of rows [4000·t, 4000·t + 4000) of its row-tiled arrays
  (the weight arrays are one block each) and writes the body's result back to the same rows of the output array. The
  body's result at row p of a block depends on row p of each input block only, so the output array at row n is the
  body's row function of row n of the input arrays; the blocks tile the arrays, so this describes the whole array.
-/
import proofs.«417935_j69415261438047_3_alg».proof.Proof.Gen.KernelIdeal.Frame
import proofs.«417935_j69415261438047_3_alg».proof.Proof.KBody0
import proofs.«417935_j69415261438047_3_alg».proof.Proof.KBody1
import Idealize.ShloMosaic.Lib.Pipeline.Value
import Idealize.ShloMosaic.Lib.ValueIdx

set_option maxRecDepth 16384

noncomputable section

namespace Cert.KernelIdeal.Arrays

open Idealize.ShloMosaic Idealize.ShloMosaic.ValueIdx Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-! ## The edge kernel: 400 points, block t is rows [4000 t, 4000 t + 4000) of every window's array -/

/-- Every window of the edge kernel has block index (t, 0) at point t. -/
theorem edge_block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The arrays the edge kernel reads, at their literal types: radial features, gathered embeddings, gathered charges,
    direction vectors. -/
abbrev fArr (c : Dev nD) : Vec Ideal S1600000x64 .f32 := V c main_arg3
abbrev gArr (c : Dev nD) : Vec Ideal S1600000x64 .f32 := V c main_v2
abbrev qArr (c : Dev nD) : Vec Ideal S1600000x1 .f32 := V c main_v3
abbrev rArr (c : Dev nD) : Vec Ideal S1600000x3 .f32 := V c main_arg4

/-- An edge's embedding vector: its direction times the sum over features of feature times gathered embedding. -/
def edgeVecE (c : Dev nD) : Vec Ideal S1600000x3 .f32 := fun i =>
  rArr V c i * ∑ k : Fin 64, fArr V c (ix2 (i 0) k) * gArr V c (ix2 (i 0) k)

/-- An edge's charge vector: its direction times (gathered charge times the sum of its features). -/
def edgeVecC (c : Dev nD) : Vec Ideal S1600000x3 .f32 := fun i =>
  rArr V c i * (qArr V c (ix2 (i 0) (0 : Fin 1)) * ∑ k : Fin 64, fArr V c (ix2 (i 0) k))

/-- Row p of block t of a 64-column window is row 4000 t + p of its array; the same row of the output's block. -/
theorem edge_row64 (t : Fin cfg0.N) (p : Fin 4000) (d : Fin 3) (k : Fin 64) :
    ((cfg0.win 0).blk t).view.emb (ix2 p k) = ix2 ((((cfg0.win 4).blk t).view.emb (ix2 p d)) 0) k
    ∧ ((cfg0.win 1).blk t).view.emb (ix2 p k) = ix2 ((((cfg0.win 4).blk t).view.emb (ix2 p d)) 0) k := by
  obtain ⟨e00, e01, e10, e11, -, -, -, -, e40, e41, -, -⟩ := edge_block_index t
  constructor
  · funext a; apply Fin.ext
    match a with
    | ⟨0, _⟩ => show win0_0.index t (0 : Fin 2) * 4000 + 1 * p.val = win0_4.index t (0 : Fin 2) * 4000 + 1 * p.val; omega
    | ⟨1, _⟩ => show win0_0.index t (1 : Fin 2) * 64 + 1 * k.val = k.val; omega
  · funext a; apply Fin.ext
    match a with
    | ⟨0, _⟩ => show win0_1.index t (0 : Fin 2) * 4000 + 1 * p.val = win0_4.index t (0 : Fin 2) * 4000 + 1 * p.val; omega
    | ⟨1, _⟩ => show win0_1.index t (1 : Fin 2) * 64 + 1 * k.val = k.val; omega

/-- WHAT POINT t WRITES BACK to the embedding vectors' array is block t of `edgeVecE`. -/
theorem edgeVecE_flushed (c : Dev nD) (t : Fin cfg0.N) :
    (dat0 V c).flushed 4 t = ((cfg0.win 4).blk t).view.read (Elt Ideal) (edgeVecE V c) := by
  show (cfg0.win 4).cut (grid0.coords t) ((dat0 V c).after 4 t) = _
  rw [after0_4]
  unfold out0_4
  rw [View.canon_unit_zero origin2]
  simp only [View.ld_unit_zero (S := S4000x64) origin2, View.ld_unit_zero (S := S4000x3) origin2]
  funext j
  obtain ⟨p, d, rfl⟩ : ∃ (p : Fin 4000) (d : Fin 3), j = ix2 p d := ⟨j 0, j 1, eq_ix2 j⟩
  show k0_pay1 (F := Ideal) (iblk0 V c 0 t) (iblk0 V c 1 t) (iblk0 V c 3 t) (ix2 p d)
    = edgeVecE V c (((cfg0.win 4).blk t).view.emb (ix2 p d))
  refine (Cert.KernelIdeal.Body.edgeVecE_apply (iblk0 V c 0 t) (iblk0 V c 1 t) (iblk0 V c 3 t) p d).trans ?_
  obtain ⟨-, -, -, -, -, -, e30, e31, e40, e41, -, -⟩ := edge_block_index t
  have hr : ((cfg0.win 3).blk t).view.emb (ix2 p d) = ((cfg0.win 4).blk t).view.emb (ix2 p d) := by
    funext a; apply Fin.ext
    match a with
    | ⟨0, _⟩ => show win0_3.index t (0 : Fin 2) * 4000 + 1 * p.val = win0_4.index t (0 : Fin 2) * 4000 + 1 * p.val; omega
    | ⟨1, _⟩ => show win0_3.index t (1 : Fin 2) * 3 + 1 * d.val = win0_4.index t (1 : Fin 2) * 3 + 1 * d.val; omega
  show rArr V c (((cfg0.win 3).blk t).view.emb (ix2 p d))
      * ∑ k : Fin 64, fArr V c (((cfg0.win 0).blk t).view.emb (ix2 p k)) * gArr V c (((cfg0.win 1).blk t).view.emb (ix2 p k))
    = rArr V c (((cfg0.win 4).blk t).view.emb (ix2 p d))
      * ∑ k : Fin 64, fArr V c (ix2 ((((cfg0.win 4).blk t).view.emb (ix2 p d)) 0) k) * gArr V c (ix2 ((((cfg0.win 4).blk t).view.emb (ix2 p d)) 0) k)
  rw [hr]
  exact congrArg (rArr V c _ * ·) (Finset.sum_congr rfl fun k _ =>
    congrArg₂ (fun a b : EReal => a * b) (congrArg (fArr V c) (edge_row64 t p d k).1) (congrArg (gArr V c) (edge_row64 t p d k).2))

/-- WHAT POINT t WRITES BACK to the charge vectors' array is block t of `edgeVecC`. -/
theorem edgeVecC_flushed (c : Dev nD) (t : Fin cfg0.N) :
    (dat0 V c).flushed 5 t = ((cfg0.win 5).blk t).view.read (Elt Ideal) (edgeVecC V c) := by
  show (cfg0.win 5).cut (grid0.coords t) ((dat0 V c).after 5 t) = _
  rw [after0_5]
  unfold out0_5
  rw [View.canon_unit_zero origin2]
  simp only [View.ld_unit_zero (S := S4000x64) origin2, View.ld_unit_zero (S := S4000x3) origin2,
    View.ld_unit_zero (S := S4000x1) origin2]
  funext j
  obtain ⟨p, d, rfl⟩ : ∃ (p : Fin 4000) (d : Fin 3), j = ix2 p d := ⟨j 0, j 1, eq_ix2 j⟩
  show k0_pay2 (F := Ideal) (iblk0 V c 0 t) (iblk0 V c 2 t) (iblk0 V c 3 t) (ix2 p d)
    = edgeVecC V c (((cfg0.win 5).blk t).view.emb (ix2 p d))
  refine (Cert.KernelIdeal.Body.edgeVecC_apply (iblk0 V c 0 t) (iblk0 V c 2 t) (iblk0 V c 3 t) p d).trans ?_
  obtain ⟨e00, e01, -, -, e20, e21, e30, e31, -, -, e50, e51⟩ := edge_block_index t
  have hr : ((cfg0.win 3).blk t).view.emb (ix2 p d) = ((cfg0.win 5).blk t).view.emb (ix2 p d) := by
    funext a; apply Fin.ext
    match a with
    | ⟨0, _⟩ => show win0_3.index t (0 : Fin 2) * 4000 + 1 * p.val = win0_5.index t (0 : Fin 2) * 4000 + 1 * p.val; omega
    | ⟨1, _⟩ => show win0_3.index t (1 : Fin 2) * 3 + 1 * d.val = win0_5.index t (1 : Fin 2) * 3 + 1 * d.val; omega
  have hq : ((cfg0.win 2).blk t).view.emb (ix2 p (0 : Fin 1)) = ix2 ((((cfg0.win 5).blk t).view.emb (ix2 p d)) 0) (0 : Fin 1) := by
    funext a; apply Fin.ext
    match a with
    | ⟨0, _⟩ => show win0_2.index t (0 : Fin 2) * 4000 + 1 * p.val = win0_5.index t (0 : Fin 2) * 4000 + 1 * p.val; omega
    | ⟨1, _⟩ => show win0_2.index t (1 : Fin 2) * 1 + 1 * 0 = 0; omega
  have hf : ∀ k : Fin 64, ((cfg0.win 0).blk t).view.emb (ix2 p k) = ix2 ((((cfg0.win 5).blk t).view.emb (ix2 p d)) 0) k := fun k => by
    funext a; apply Fin.ext
    match a with
    | ⟨0, _⟩ => show win0_0.index t (0 : Fin 2) * 4000 + 1 * p.val = win0_5.index t (0 : Fin 2) * 4000 + 1 * p.val; omega
    | ⟨1, _⟩ => show win0_0.index t (1 : Fin 2) * 64 + 1 * k.val = k.val; omega
  show rArr V c (((cfg0.win 3).blk t).view.emb (ix2 p d))
      * (qArr V c (((cfg0.win 2).blk t).view.emb (ix2 p (0 : Fin 1))) * ∑ k : Fin 64, fArr V c (((cfg0.win 0).blk t).view.emb (ix2 p k)))
    = rArr V c (((cfg0.win 5).blk t).view.emb (ix2 p d))
      * (qArr V c (ix2 ((((cfg0.win 5).blk t).view.emb (ix2 p d)) 0) (0 : Fin 1))
        * ∑ k : Fin 64, fArr V c (ix2 ((((cfg0.win 5).blk t).view.emb (ix2 p d)) 0) k))
  rw [hr, hq]
  exact congrArg (fun s : EReal => rArr V c _ * (qArr V c _ * s)) (Finset.sum_congr rfl fun k _ => congrArg (fArr V c) (hf k))

/-- An index of a [1600000, 3] output is in point t's block iff each coordinate is in the block's range. -/
theorem edge_mem_blk4 (t : Fin cfg0.N) (i : S1600000x3.Idx) :
    i ∈ ((cfg0.win 4).blk t).view.set ↔ ∀ a : Fin 2, win0_4.index t a * S4000x3.size a ≤ (i a).val ∧ (i a).val < win0_4.index t a * S4000x3.size a + S4000x3.size a := by
  show i ∈ ((View.whole main_v4_0).slice (win0_4.rect t)).set ↔ _
  rw [View.set_slice_whole, Rect.mem_set_unit]
  exact Iff.rfl
theorem edge_mem_blk5 (t : Fin cfg0.N) (i : S1600000x3.Idx) :
    i ∈ ((cfg0.win 5).blk t).view.set ↔ ∀ a : Fin 2, win0_5.index t a * S4000x3.size a ≤ (i a).val ∧ (i a).val < win0_5.index t a * S4000x3.size a + S4000x3.size a := by
  show i ∈ ((View.whole main_v4_1).slice (win0_5.rect t)).set ↔ _
  rw [View.set_slice_whole, Rect.mem_set_unit]
  exact Iff.rfl

/-- Row i₀ of an edge array is in the block of point i₀ / 4000. -/
theorem edge_point_lt (i0 : Nat) (h : i0 < 1600000) : i0 / 4000 < cfg0.N := by
  show i0 / 4000 < grid0.N
  rw [N_0]; omega

/-- THE EMBEDDING VECTORS' ARRAY after the edge kernel's region. -/
theorem edgeVecE_array (c : Dev nD) : (dat0 V c).arrAt 4 cfg0.N = edgeVecE V c :=
  (dat0 V c).arrAt_eq_of_cover 4 (edgeVecE V c) (fun t _ => edgeVecE_flushed V c t) (fun i => by
    have hi0 : (i 0).val < 1600000 := (i 0).isLt
    have hi1 : (i 1).val < 3 := (i 1).isLt
    refine ⟨⟨(i 0).val / 4000, edge_point_lt _ hi0⟩, flush0_4 _, ?_⟩
    rw [edge_mem_blk4]
    obtain ⟨-, -, -, -, -, -, -, -, e40, e41, -, -⟩ := edge_block_index ⟨(i 0).val / 4000, edge_point_lt _ hi0⟩
    intro a
    match a with
    | ⟨0, _⟩ =>
      show win0_4.index ⟨(i 0).val / 4000, _⟩ (0 : Fin 2) * 4000 ≤ (i 0).val ∧ (i 0).val < win0_4.index ⟨(i 0).val / 4000, _⟩ (0 : Fin 2) * 4000 + 4000
      rw [e40]; show (i 0).val / 4000 * 4000 ≤ _ ∧ _ < (i 0).val / 4000 * 4000 + 4000; omega
    | ⟨1, _⟩ =>
      show win0_4.index ⟨(i 0).val / 4000, _⟩ (1 : Fin 2) * 3 ≤ (i 1).val ∧ (i 1).val < win0_4.index ⟨(i 0).val / 4000, _⟩ (1 : Fin 2) * 3 + 3
      rw [e41]; omega)

/-- THE CHARGE VECTORS' ARRAY after the edge kernel's region. -/
theorem edgeVecC_array (c : Dev nD) : (dat0 V c).arrAt 5 cfg0.N = edgeVecC V c :=
  (dat0 V c).arrAt_eq_of_cover 5 (edgeVecC V c) (fun t _ => edgeVecC_flushed V c t) (fun i => by
    have hi0 : (i 0).val < 1600000 := (i 0).isLt
    have hi1 : (i 1).val < 3 := (i 1).isLt
    refine ⟨⟨(i 0).val / 4000, edge_point_lt _ hi0⟩, flush0_5 _, ?_⟩
    rw [edge_mem_blk5]
    obtain ⟨-, -, -, -, -, -, -, -, -, -, e50, e51⟩ := edge_block_index ⟨(i 0).val / 4000, edge_point_lt _ hi0⟩
    intro a
    match a with
    | ⟨0, _⟩ =>
      show win0_5.index ⟨(i 0).val / 4000, _⟩ (0 : Fin 2) * 4000 ≤ (i 0).val ∧ (i 0).val < win0_5.index ⟨(i 0).val / 4000, _⟩ (0 : Fin 2) * 4000 + 4000
      rw [e50]; show (i 0).val / 4000 * 4000 ≤ _ ∧ _ < (i 0).val / 4000 * 4000 + 4000; omega
    | ⟨1, _⟩ =>
      show win0_5.index ⟨(i 0).val / 4000, _⟩ (1 : Fin 2) * 3 ≤ (i 1).val ∧ (i 1).val < win0_5.index ⟨(i 0).val / 4000, _⟩ (1 : Fin 2) * 3 + 3
      rw [e51]; omega)

/-! ## The dense-layer kernel: 25 points, block t is rows [4000 t, 4000 t + 4000) of the four per-atom inputs and of the two
    outputs; each weight array is one block -/

/-- The block indices of the dense-layer kernel's windows at point t: (t, 0) for the row-tiled ones, the origin for the weights. -/
theorem mlp_block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_16.index t (0 : Fin 2) = t.val ∧ win1_16.index t (1 : Fin 2) = 0
    ∧ win1_17.index t (0 : Fin 2) = t.val ∧ win1_17.index t (1 : Fin 2) = 0 :=
  (by decide +kernel : ∀ t : Fin grid1.N, _)
theorem mlp_weight_index : ∀ t : Fin cfg1.N, win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = 0 ∧ win1_8.index t (1 : Fin 2) = 0
    ∧ win1_9.index t (0 : Fin 1) = 0
    ∧ win1_10.index t (0 : Fin 2) = 0 ∧ win1_10.index t (1 : Fin 2) = 0
    ∧ win1_11.index t (0 : Fin 1) = 0
    ∧ win1_12.index t (0 : Fin 2) = 0 ∧ win1_12.index t (1 : Fin 2) = 0
    ∧ win1_13.index t (0 : Fin 1) = 0
    ∧ win1_14.index t (0 : Fin 2) = 0 ∧ win1_14.index t (1 : Fin 2) = 0
    ∧ win1_15.index t (0 : Fin 1) = 0 :=
  (by decide +kernel : ∀ t : Fin grid1.N, _)

/-- The arrays the dense-layer kernel reads, at their literal types: the atoms' radial embedding features, accumulated
    embedding vectors, radial charge features, accumulated charge vectors, and the six layers' weights and biases. -/
abbrev reArr (c : Dev nD) : Vec Ideal S100000x64 .f32 := V c main_v8
abbrev veArr (c : Dev nD) : Vec Ideal S100000x3 .f32 := V c main_v13
abbrev rcArr (c : Dev nD) : Vec Ideal S100000x64 .f32 := V c main_v10
abbrev vcArr (c : Dev nD) : Vec Ideal S100000x3 .f32 := V c main_v16
abbrev w1Arr (c : Dev nD) : Vec Ideal S130x128 .f32 := V c main_arg5
abbrev b1Arr (c : Dev nD) : Vec Ideal S128 .f32 := V c main_arg6
abbrev w2Arr (c : Dev nD) : Vec Ideal S128x64 .f32 := V c main_arg7
abbrev b2Arr (c : Dev nD) : Vec Ideal S64 .f32 := V c main_arg8
abbrev wa1Arr (c : Dev nD) : Vec Ideal S64x32 .f32 := V c main_arg9
abbrev ba1Arr (c : Dev nD) : Vec Ideal S32 .f32 := V c main_arg10
abbrev wa2Arr (c : Dev nD) : Vec Ideal S32x64 .f32 := V c main_arg11
abbrev ba2Arr (c : Dev nD) : Vec Ideal S64 .f32 := V c main_arg12
abbrev wq1Arr (c : Dev nD) : Vec Ideal S64x32 .f32 := V c main_arg13
abbrev bq1Arr (c : Dev nD) : Vec Ideal S32 .f32 := V c main_arg14
abbrev wq2Arr (c : Dev nD) : Vec Ideal S32x1 .f32 := V c main_arg15
abbrev bq2Arr (c : Dev nD) : Vec Ideal S1 .f32 := V c main_arg16

/-- Atom n's message row, from the arrays the region finds. -/
def atomMsg (c : Dev nD) (n : Fin 100000) : Fin 130 → EReal :=
  Cert.Spec.msgRow (fun k => reArr V c (ix2 n k)) (Cert.Spec.vnorm fun d => veArr V c (ix2 n d))
    (fun k => rcArr V c (ix2 n k)) (Cert.Spec.vnorm fun d => vcArr V c (ix2 n d))

/-- Atom n's hidden row: the trunk on its message row. -/
def atomHidden (c : Dev nD) (n : Fin 100000) : Fin 64 → EReal :=
  Cert.Spec.hidden (atomMsg V c n) (w1Arr V c) (b1Arr V c) (w2Arr V c) (b2Arr V c)

/-- The embedding update: the embedding head on each atom's hidden row. -/
def deltaA (c : Dev nD) : Vec Ideal S100000x64 .f32 := fun i =>
  Cert.Spec.headA (atomHidden V c (i 0)) (wa1Arr V c) (ba1Arr V c) (wa2Arr V c) (ba2Arr V c) (i 1)

/-- The charge update: the charge head on each atom's hidden row. -/
def deltaQ (c : Dev nD) : Vec Ideal S100000x1 .f32 := fun i =>
  Cert.Spec.headQ (atomHidden V c (i 0)) (wq1Arr V c) (bq1Arr V c) (wq2Arr V c) (bq2Arr V c) (i 1)

/-- A weight window's one block is its whole array. -/
theorem w1_block (c : Dev nD) (t : Fin cfg1.N) : iblk1 V c 4 t = w1Arr V c := by
  obtain ⟨e0, e1, -⟩ := mlp_weight_index t
  funext y
  show w1Arr V c (((cfg1.win 4).blk t).view.emb y) = w1Arr V c y
  refine congrArg (w1Arr V c) (funext fun a => Fin.ext ?_)
  match a with
  | ⟨0, _⟩ => show win1_4.index t (0 : Fin 2) * 130 + 1 * (y 0).val = (y 0).val; omega
  | ⟨1, _⟩ => show win1_4.index t (1 : Fin 2) * 128 + 1 * (y 1).val = (y 1).val; omega
theorem b1_block (c : Dev nD) (t : Fin cfg1.N) : iblk1 V c 5 t = b1Arr V c := by
  obtain ⟨-, -, e0, -⟩ := mlp_weight_index t
  funext y
  show b1Arr V c (((cfg1.win 5).blk t).view.emb y) = b1Arr V c y
  refine congrArg (b1Arr V c) (funext fun a => Fin.ext ?_)
  match a with
  | ⟨0, _⟩ => show win1_5.index t (0 : Fin 1) * 128 + 1 * (y 0).val = (y 0).val; omega
theorem w2_block (c : Dev nD) (t : Fin cfg1.N) : iblk1 V c 6 t = w2Arr V c := by
  obtain ⟨-, -, -, e0, e1, -⟩ := mlp_weight_index t
  funext y
  show w2Arr V c (((cfg1.win 6).blk t).view.emb y) = w2Arr V c y
  refine congrArg (w2Arr V c) (funext fun a => Fin.ext ?_)
  match a with
  | ⟨0, _⟩ => show win1_6.index t (0 : Fin 2) * 128 + 1 * (y 0).val = (y 0).val; omega
  | ⟨1, _⟩ => show win1_6.index t (1 : Fin 2) * 64 + 1 * (y 1).val = (y 1).val; omega
theorem b2_block (c : Dev nD) (t : Fin cfg1.N) : iblk1 V c 7 t = b2Arr V c := by
  obtain ⟨-, -, -, -, -, e0, -⟩ := mlp_weight_index t
  funext y
  show b2Arr V c (((cfg1.win 7).blk t).view.emb y) = b2Arr V c y
  refine congrArg (b2Arr V c) (funext fun a => Fin.ext ?_)
  match a with
  | ⟨0, _⟩ => show win1_7.index t (0 : Fin 1) * 64 + 1 * (y 0).val = (y 0).val; omega
theorem wa1_block (c : Dev nD) (t : Fin cfg1.N) : iblk1 V c 8 t = wa1Arr V c := by
  obtain ⟨-, -, -, -, -, -, e0, e1, -⟩ := mlp_weight_index t
  funext y
  show wa1Arr V c (((cfg1.win 8).blk t).view.emb y) = wa1Arr V c y
  refine congrArg (wa1Arr V c) (funext fun a => Fin.ext ?_)
  match a with
  | ⟨0, _⟩ => show win1_8.index t (0 : Fin 2) * 64 + 1 * (y 0).val = (y 0).val; omega
  | ⟨1, _⟩ => show win1_8.index t (1 : Fin 2) * 32 + 1 * (y 1).val = (y 1).val; omega
theorem ba1_block (c : Dev nD) (t : Fin cfg1.N) : iblk1 V c 9 t = ba1Arr V c := by
  obtain ⟨-, -, -, -, -, -, -, -, e0, -⟩ := mlp_weight_index t
  funext y
  show ba1Arr V c (((cfg1.win 9).blk t).view.emb y) = ba1Arr V c y
  refine congrArg (ba1Arr V c) (funext fun a => Fin.ext ?_)
  match a with
  | ⟨0, _⟩ => show win1_9.index t (0 : Fin 1) * 32 + 1 * (y 0).val = (y 0).val; omega
theorem wa2_block (c : Dev nD) (t : Fin cfg1.N) : iblk1 V c 10 t = wa2Arr V c := by
  obtain ⟨-, -, -, -, -, -, -, -, -, e0, e1, -⟩ := mlp_weight_index t
  funext y
  show wa2Arr V c (((cfg1.win 10).blk t).view.emb y) = wa2Arr V c y
  refine congrArg (wa2Arr V c) (funext fun a => Fin.ext ?_)
  match a with
  | ⟨0, _⟩ => show win1_10.index t (0 : Fin 2) * 32 + 1 * (y 0).val = (y 0).val; omega
  | ⟨1, _⟩ => show win1_10.index t (1 : Fin 2) * 64 + 1 * (y 1).val = (y 1).val; omega
theorem ba2_block (c : Dev nD) (t : Fin cfg1.N) : iblk1 V c 11 t = ba2Arr V c := by
  obtain ⟨-, -, -, -, -, -, -, -, -, -, -, e0, -⟩ := mlp_weight_index t
  funext y
  show ba2Arr V c (((cfg1.win 11).blk t).view.emb y) = ba2Arr V c y
  refine congrArg (ba2Arr V c) (funext fun a => Fin.ext ?_)
  match a with
  | ⟨0, _⟩ => show win1_11.index t (0 : Fin 1) * 64 + 1 * (y 0).val = (y 0).val; omega
theorem wq1_block (c : Dev nD) (t : Fin cfg1.N) : iblk1 V c 12 t = wq1Arr V c := by
  obtain ⟨-, -, -, -, -, -, -, -, -, -, -, -, e0, e1, -⟩ := mlp_weight_index t
  funext y
  show wq1Arr V c (((cfg1.win 12).blk t).view.emb y) = wq1Arr V c y
  refine congrArg (wq1Arr V c) (funext fun a => Fin.ext ?_)
  match a with
  | ⟨0, _⟩ => show win1_12.index t (0 : Fin 2) * 64 + 1 * (y 0).val = (y 0).val; omega
  | ⟨1, _⟩ => show win1_12.index t (1 : Fin 2) * 32 + 1 * (y 1).val = (y 1).val; omega
theorem bq1_block (c : Dev nD) (t : Fin cfg1.N) : iblk1 V c 13 t = bq1Arr V c := by
  obtain ⟨-, -, -, -, -, -, -, -, -, -, -, -, -, -, e0, -⟩ := mlp_weight_index t
  funext y
  show bq1Arr V c (((cfg1.win 13).blk t).view.emb y) = bq1Arr V c y
  refine congrArg (bq1Arr V c) (funext fun a => Fin.ext ?_)
  match a with
  | ⟨0, _⟩ => show win1_13.index t (0 : Fin 1) * 32 + 1 * (y 0).val = (y 0).val; omega
theorem wq2_block (c : Dev nD) (t : Fin cfg1.N) : iblk1 V c 14 t = wq2Arr V c := by
  obtain ⟨-, -, -, -, -, -, -, -, -, -, -, -, -, -, -, e0, e1, -⟩ := mlp_weight_index t
  funext y
  show wq2Arr V c (((cfg1.win 14).blk t).view.emb y) = wq2Arr V c y
  refine congrArg (wq2Arr V c) (funext fun a => Fin.ext ?_)
  match a with
  | ⟨0, _⟩ => show win1_14.index t (0 : Fin 2) * 32 + 1 * (y 0).val = (y 0).val; omega
  | ⟨1, _⟩ => show win1_14.index t (1 : Fin 2) * 1 + 1 * (y 1).val = (y 1).val; omega
theorem bq2_block (c : Dev nD) (t : Fin cfg1.N) : iblk1 V c 15 t = bq2Arr V c := by
  obtain ⟨-, -, -, -, -, -, -, -, -, -, -, -, -, -, -, -, -, e0⟩ := mlp_weight_index t
  funext y
  show bq2Arr V c (((cfg1.win 15).blk t).view.emb y) = bq2Arr V c y
  refine congrArg (bq2Arr V c) (funext fun a => Fin.ext ?_)
  match a with
  | ⟨0, _⟩ => show win1_15.index t (0 : Fin 1) * 1 + 1 * (y 0).val = (y 0).val; omega

/-- The row of the arrays that row p of block t is: 4000 t + p. -/
def atomRow (t : Fin cfg1.N) (p : Fin 4000) : Fin 100000 :=
  ⟨t.val * 4000 + p.val, by have := t.isLt; have h : cfg1.N = 25 := N_1; omega⟩

/-- The message row the body builds for row p of block t is atom (4000 t + p)'s. -/
theorem block_msg (c : Dev nD) (t : Fin cfg1.N) (p : Fin 4000) :
    Cert.KernelIdeal.Body.blockMsg (iblk1 V c 1 t) (iblk1 V c 3 t) (iblk1 V c 0 t) (iblk1 V c 2 t) p = atomMsg V c (atomRow t p) := by
  obtain ⟨e00, e01, e10, e11, e20, e21, e30, e31, -⟩ := mlp_block_index t
  have h0 : ∀ k : Fin 64, ((cfg1.win 0).blk t).view.emb (ix2 p k) = ix2 (atomRow t p) k := fun k => by
    funext a; apply Fin.ext
    match a with
    | ⟨0, _⟩ => show win1_0.index t (0 : Fin 2) * 4000 + 1 * p.val = t.val * 4000 + p.val; omega
    | ⟨1, _⟩ => show win1_0.index t (1 : Fin 2) * 64 + 1 * k.val = k.val; omega
  have h2 : ∀ k : Fin 64, ((cfg1.win 2).blk t).view.emb (ix2 p k) = ix2 (atomRow t p) k := fun k => by
    funext a; apply Fin.ext
    match a with
    | ⟨0, _⟩ => show win1_2.index t (0 : Fin 2) * 4000 + 1 * p.val = t.val * 4000 + p.val; omega
    | ⟨1, _⟩ => show win1_2.index t (1 : Fin 2) * 64 + 1 * k.val = k.val; omega
  have h1 : ∀ d : Fin 3, ((cfg1.win 1).blk t).view.emb (ix2 p d) = ix2 (atomRow t p) d := fun d => by
    funext a; apply Fin.ext
    match a with
    | ⟨0, _⟩ => show win1_1.index t (0 : Fin 2) * 4000 + 1 * p.val = t.val * 4000 + p.val; omega
    | ⟨1, _⟩ => show win1_1.index t (1 : Fin 2) * 3 + 1 * d.val = d.val; omega
  have h3 : ∀ d : Fin 3, ((cfg1.win 3).blk t).view.emb (ix2 p d) = ix2 (atomRow t p) d := fun d => by
    funext a; apply Fin.ext
    match a with
    | ⟨0, _⟩ => show win1_3.index t (0 : Fin 2) * 4000 + 1 * p.val = t.val * 4000 + p.val; omega
    | ⟨1, _⟩ => show win1_3.index t (1 : Fin 2) * 3 + 1 * d.val = d.val; omega
  show Cert.Spec.msgRow (fun k => reArr V c (((cfg1.win 0).blk t).view.emb (ix2 p k)))
      (Cert.Spec.vnorm fun d => veArr V c (((cfg1.win 1).blk t).view.emb (ix2 p d)))
      (fun k => rcArr V c (((cfg1.win 2).blk t).view.emb (ix2 p k)))
      (Cert.Spec.vnorm fun d => vcArr V c (((cfg1.win 3).blk t).view.emb (ix2 p d)))
    = Cert.Spec.msgRow (fun k => reArr V c (ix2 (atomRow t p) k)) (Cert.Spec.vnorm fun d => veArr V c (ix2 (atomRow t p) d))
      (fun k => rcArr V c (ix2 (atomRow t p) k)) (Cert.Spec.vnorm fun d => vcArr V c (ix2 (atomRow t p) d))
  simp only [h0, h1, h2, h3]

/-- WHAT POINT t WRITES BACK to the embedding update's array is block t of `deltaA`. -/
theorem deltaA_flushed (c : Dev nD) (t : Fin cfg1.N) :
    (dat1 V c).flushed 16 t = ((cfg1.win 16).blk t).view.read (Elt Ideal) (deltaA V c) := by
  show (cfg1.win 16).cut (grid1.coords t) ((dat1 V c).after 16 t) = _
  rw [after1_16]
  unfold out1_16
  rw [View.canon_unit_zero origin2]
  simp only [View.ld_unit_zero (S := S4000x64) origin2, View.ld_unit_zero (S := S4000x3) origin2,
    View.ld_unit_zero (S := S130x128) origin2, View.ld_unit_zero (S := S128x64) origin2, View.ld_unit_zero (S := S64x32) origin2,
    View.ld_unit_zero (S := S32x64) origin2, View.ld_unit_zero (S := S128) origin1, View.ld_unit_zero (S := S64) origin1,
    View.ld_unit_zero (S := S32) origin1]
  funext j
  obtain ⟨p, q, rfl⟩ : ∃ (p : Fin 4000) (q : Fin 64), j = ix2 p q := ⟨j 0, j 1, eq_ix2 j⟩
  show k1_pay1 (F := Ideal) (k1_pay5 (k1_pay3 (iblk1 V c 1 t) (iblk1 V c 3 t) (iblk1 V c 0 t) (iblk1 V c 2 t) (iblk1 V c 4 t) (iblk1 V c 5 t))
      (iblk1 V c 6 t) (iblk1 V c 7 t) (iblk1 V c 8 t) (iblk1 V c 9 t)) (k1_pay6 (iblk1 V c 10 t)) (iblk1 V c 11 t) (ix2 p q)
    = deltaA V c (((cfg1.win 16).blk t).view.emb (ix2 p q))
  refine (Cert.KernelIdeal.Body.embHead_apply (iblk1 V c 1 t) (iblk1 V c 3 t) (iblk1 V c 0 t) (iblk1 V c 2 t) (iblk1 V c 4 t)
    (iblk1 V c 5 t) (iblk1 V c 6 t) (iblk1 V c 7 t) (iblk1 V c 8 t) (iblk1 V c 9 t) (iblk1 V c 10 t) (iblk1 V c 11 t) p q).trans ?_
  rw [block_msg, w1_block, b1_block, w2_block, b2_block, wa1_block, ba1_block, wa2_block, ba2_block]
  obtain ⟨-, -, -, -, -, -, -, -, e0, e1, -, -⟩ := mlp_block_index t
  have hrow : (((cfg1.win 16).blk t).view.emb (ix2 p q)) = ix2 (atomRow t p) q := by
    funext a; apply Fin.ext
    match a with
    | ⟨0, _⟩ => show win1_16.index t (0 : Fin 2) * 4000 + 1 * p.val = t.val * 4000 + p.val; omega
    | ⟨1, _⟩ => show win1_16.index t (1 : Fin 2) * 64 + 1 * q.val = q.val; omega
  rw [hrow]
  rfl

/-- WHAT POINT t WRITES BACK to the charge update's array is block t of `deltaQ`. -/
theorem deltaQ_flushed (c : Dev nD) (t : Fin cfg1.N) :
    (dat1 V c).flushed 17 t = ((cfg1.win 17).blk t).view.read (Elt Ideal) (deltaQ V c) := by
  show (cfg1.win 17).cut (grid1.coords t) ((dat1 V c).after 17 t) = _
  rw [after1_17]
  unfold out1_17
  rw [View.canon_unit_zero origin2]
  simp only [View.ld_unit_zero (S := S4000x64) origin2, View.ld_unit_zero (S := S4000x3) origin2,
    View.ld_unit_zero (S := S130x128) origin2, View.ld_unit_zero (S := S128x64) origin2, View.ld_unit_zero (S := S64x32) origin2,
    View.ld_unit_zero (S := S32x1) origin2, View.ld_unit_zero (S := S128) origin1, View.ld_unit_zero (S := S64) origin1,
    View.ld_unit_zero (S := S32) origin1, View.ld_unit_zero (S := S1) origin1]
  funext j
  obtain ⟨p, q, rfl⟩ : ∃ (p : Fin 4000) (q : Fin 1), j = ix2 p q := ⟨j 0, j 1, eq_ix2 j⟩
  show k1_pay2 (F := Ideal) (k1_pay4 (k1_pay3 (iblk1 V c 1 t) (iblk1 V c 3 t) (iblk1 V c 0 t) (iblk1 V c 2 t) (iblk1 V c 4 t) (iblk1 V c 5 t))
      (iblk1 V c 6 t) (iblk1 V c 7 t)) (iblk1 V c 12 t) (iblk1 V c 13 t) (iblk1 V c 14 t) (iblk1 V c 15 t) (ix2 p q)
    = deltaQ V c (((cfg1.win 17).blk t).view.emb (ix2 p q))
  refine (Cert.KernelIdeal.Body.chargeHead_apply (iblk1 V c 1 t) (iblk1 V c 3 t) (iblk1 V c 0 t) (iblk1 V c 2 t) (iblk1 V c 4 t)
    (iblk1 V c 5 t) (iblk1 V c 6 t) (iblk1 V c 7 t) (iblk1 V c 12 t) (iblk1 V c 13 t) (iblk1 V c 14 t) (iblk1 V c 15 t) p q).trans ?_
  rw [block_msg, w1_block, b1_block, w2_block, b2_block, wq1_block, bq1_block, wq2_block, bq2_block]
  obtain ⟨-, -, -, -, -, -, -, -, -, -, e0, e1⟩ := mlp_block_index t
  have hrow : (((cfg1.win 17).blk t).view.emb (ix2 p q)) = ix2 (atomRow t p) q := by
    funext a; apply Fin.ext
    match a with
    | ⟨0, _⟩ => show win1_17.index t (0 : Fin 2) * 4000 + 1 * p.val = t.val * 4000 + p.val; omega
    | ⟨1, _⟩ => show win1_17.index t (1 : Fin 2) * 1 + 1 * q.val = q.val; omega
  rw [hrow]
  rfl

/-- An index of an output of the dense-layer kernel is in point t's block iff each coordinate is in the block's range. -/
theorem mlp_mem_blk16 (t : Fin cfg1.N) (i : S100000x64.Idx) :
    i ∈ ((cfg1.win 16).blk t).view.set ↔ ∀ a : Fin 2, win1_16.index t a * S4000x64.size a ≤ (i a).val ∧ (i a).val < win1_16.index t a * S4000x64.size a + S4000x64.size a := by
  show i ∈ ((View.whole main_v17_0).slice (win1_16.rect t)).set ↔ _
  rw [View.set_slice_whole, Rect.mem_set_unit]
  exact Iff.rfl
theorem mlp_mem_blk17 (t : Fin cfg1.N) (i : S100000x1.Idx) :
    i ∈ ((cfg1.win 17).blk t).view.set ↔ ∀ a : Fin 2, win1_17.index t a * S4000x1.size a ≤ (i a).val ∧ (i a).val < win1_17.index t a * S4000x1.size a + S4000x1.size a := by
  show i ∈ ((View.whole main_v17_1).slice (win1_17.rect t)).set ↔ _
  rw [View.set_slice_whole, Rect.mem_set_unit]
  exact Iff.rfl

theorem mlp_point_lt (i0 : Nat) (h : i0 < 100000) : i0 / 4000 < cfg1.N := by
  show i0 / 4000 < grid1.N
  rw [N_1]; omega

/-- THE EMBEDDING UPDATE's array after the dense-layer kernel's region. -/
theorem deltaA_array (c : Dev nD) : (dat1 V c).arrAt 16 cfg1.N = deltaA V c :=
  (dat1 V c).arrAt_eq_of_cover 16 (deltaA V c) (fun t _ => deltaA_flushed V c t) (fun i => by
    have hi0 : (i 0).val < 100000 := (i 0).isLt
    have hi1 : (i 1).val < 64 := (i 1).isLt
    refine ⟨⟨(i 0).val / 4000, mlp_point_lt _ hi0⟩, flush1_16 _, ?_⟩
    rw [mlp_mem_blk16]
    obtain ⟨-, -, -, -, -, -, -, -, e0, e1, -, -⟩ := mlp_block_index ⟨(i 0).val / 4000, mlp_point_lt _ hi0⟩
    intro a
    match a with
    | ⟨0, _⟩ =>
      show win1_16.index ⟨(i 0).val / 4000, _⟩ (0 : Fin 2) * 4000 ≤ (i 0).val ∧ (i 0).val < win1_16.index ⟨(i 0).val / 4000, _⟩ (0 : Fin 2) * 4000 + 4000
      rw [e0]; show (i 0).val / 4000 * 4000 ≤ _ ∧ _ < (i 0).val / 4000 * 4000 + 4000; omega
    | ⟨1, _⟩ =>
      show win1_16.index ⟨(i 0).val / 4000, _⟩ (1 : Fin 2) * 64 ≤ (i 1).val ∧ (i 1).val < win1_16.index ⟨(i 0).val / 4000, _⟩ (1 : Fin 2) * 64 + 64
      rw [e1]; omega)

/-- THE CHARGE UPDATE's array after the dense-layer kernel's region. -/
theorem deltaQ_array (c : Dev nD) : (dat1 V c).arrAt 17 cfg1.N = deltaQ V c :=
  (dat1 V c).arrAt_eq_of_cover 17 (deltaQ V c) (fun t _ => deltaQ_flushed V c t) (fun i => by
    have hi0 : (i 0).val < 100000 := (i 0).isLt
    have hi1 : (i 1).val < 1 := (i 1).isLt
    refine ⟨⟨(i 0).val / 4000, mlp_point_lt _ hi0⟩, flush1_17 _, ?_⟩
    rw [mlp_mem_blk17]
    obtain ⟨-, -, -, -, -, -, -, -, -, -, e0, e1⟩ := mlp_block_index ⟨(i 0).val / 4000, mlp_point_lt _ hi0⟩
    intro a
    match a with
    | ⟨0, _⟩ =>
      show win1_17.index ⟨(i 0).val / 4000, _⟩ (0 : Fin 2) * 4000 ≤ (i 0).val ∧ (i 0).val < win1_17.index ⟨(i 0).val / 4000, _⟩ (0 : Fin 2) * 4000 + 4000
      rw [e0]; show (i 0).val / 4000 * 4000 ≤ _ ∧ _ < (i 0).val / 4000 * 4000 + 4000; omega
    | ⟨1, _⟩ =>
      show win1_17.index ⟨(i 0).val / 4000, _⟩ (1 : Fin 2) * 1 ≤ (i 1).val ∧ (i 1).val < win1_17.index ⟨(i 0).val / 4000, _⟩ (1 : Fin 2) * 1 + 1
      rw [e1]; omega)

end Cert.KernelIdeal.Arrays

end
-- ==== Proof.LibRowIndex.lean ====
/-
  Row gather and row scatter read at an index.

  A gather of whole rows takes an operand of shape [N, C] and one scalar row number per result row
  (start indices of shape [E, 1]); its result has shape [E, C]. Result element (e, c) is the operand at
  row `clamp(idx[e, 0])` and column c, where the row number is read as a signed integer and clamped
  into [0, N − 1].

  A scatter of whole rows takes an operand of shape [N, C], one scalar row number per update row
  (scatter indices of shape [E, 1]) and updates of shape [E, C]. Update element (e, c') lands at
  operand position (idx[e, 0], c'), the row number read signed and not clamped, and is dropped when
  that position is outside the operand. So if it lands at (n, c), then idx[e, 0] = n and c' = c.
-/
import Idealize.ShloMosaic.PureOps.Ideal.Laws
import Idealize.ShloMosaic.Lib.ValueIdx

namespace Cert.Lib.RowIndex
open Idealize.ShloMosaic Idealize.ShloMosaic.ValueIdx

/-- Dimension numbers of a gather of whole rows: operand [N, C], one scalar row index per result row (start indices [E, 1]), result [E, C]. -/
abbrev rowGather (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather at (e, c): the operand's row whose number is the start index of e, read signed and clamped into [0, N − 1], at column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 (⟨min (idx (ix2 e (0 : Fin 1))).toInt.toNat (N - 1), by omega⟩ : Fin N) c) := by
  unfold Host.gather
  congr 1
  funext a
  refine Fin.ext ?_
  -- the start-indices index read for result row e is (e, 0)
  have hsi : (rowGather N E C wf).siIdx (ix2 e c) ⟨List.idxOf (0 : Fin 2) (rowGather N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  match a with
  | ⟨0, _⟩ =>
    -- axis 0 is collapsed: no batching and no offset coordinate, the start is the clamped row number
    show (rowGather N E C wf).start (ix2 e c) idx 0 + (rowGather N E C wf).batchCoord (ix2 e c) 0
        + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl), hsi]
    rfl
  | ⟨1, _⟩ =>
    -- axis 1 is the offset axis: the start is 0 (the start index map does not name it), the offset coordinate is c
    show (rowGather N E C wf).start (ix2 e c) idx 1 + (rowGather N E C wf).batchCoord (ix2 e c) 1
        + (rowGather N E C wf).offCoord (ix2 e c) 1 = _
    rw [GatherDims.batchCoord_eq_zero _ _ _ List.not_mem_nil]
    unfold GatherDims.start
    rw [dif_neg (show (1 : Fin 2) ∉ (rowGather N E C wf).startIndexMap from
      fun h => absurd (List.mem_singleton.mp h) (by decide : (1 : Fin 2) ≠ 0))]
    simp only [Nat.add_zero, Nat.zero_add]
    rfl

/-- Dimension numbers of a scatter of whole rows: operand [N, C], one scalar row index per update row (scatter indices [E, 1]), updates [E, C]. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where update element (e, c') of a row scatter lands: if it lands at (n, c), then the scatter index of row e, read signed, is n, and the columns agree. -/
theorem rowScatter_lands {N E C w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C)
    (h : (rowScatter N E C wf).resultIdx? (ix2 e c') idx = some (ix2 n c)) :
    (idx (ix2 e (0 : Fin 1))).toInt = (n.val : ℤ) ∧ c' = c := by
  unfold ScatterDims.resultIdx? at h
  split at h
  · rename_i hin
    have hfun := Option.some.inj h
    -- the scatter-indices index read for update row e is (e, 0)
    have hsi : (rowScatter N E C wf).siIdx (ix2 e c')
        ⟨List.idxOf (0 : Fin 2) (rowScatter N E C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    -- axis 0: the start is the row number read signed, the window coordinate is 0 (the axis is inserted)
    have hstart0 : (rowScatter N E C wf).start (ix2 e c') idx 0 = (idx (ix2 e (0 : Fin 1))).toInt := by
      unfold ScatterDims.start
      rw [dif_pos (show (0 : Fin 2) ∈ (rowScatter N E C wf).scatterDimsToOperandDims from
        List.mem_singleton.mpr rfl), hsi]
    have hwin0 : (rowScatter N E C wf).window (ix2 e c') 0 = 0 := by
      unfold ScatterDims.window
      rw [dif_neg (show (0 : Fin 2) ∉ (rowScatter N E C wf).sKept by simp [Shape.kept])]
    -- axis 1: the start is 0 (the map does not name the axis), the window coordinate is c'
    have hstart1 : (rowScatter N E C wf).start (ix2 e c') idx 1 = 0 := by
      unfold ScatterDims.start
      rw [dif_neg (show (1 : Fin 2) ∉ (rowScatter N E C wf).scatterDimsToOperandDims from
        fun h => absurd (List.mem_singleton.mp h) (by decide : (1 : Fin 2) ≠ 0))]
    have hwin1 : (rowScatter N E C wf).window (ix2 e c') 1 = c'.val := by
      unfold ScatterDims.window
      rw [dif_pos (show (1 : Fin 2) ∈ (rowScatter N E C wf).sKept by simp [Shape.kept])]
      rfl
    have h0 : ((rowScatter N E C wf).start (ix2 e c') idx 0
        + ((rowScatter N E C wf).window (ix2 e c') 0 : ℤ)).toNat = n.val :=
      congrArg Fin.val (congrFun hfun 0)
    have h1 : ((rowScatter N E C wf).start (ix2 e c') idx 1
        + ((rowScatter N E C wf).window (ix2 e c') 1 : ℤ)).toNat = c.val :=
      congrArg Fin.val (congrFun hfun 1)
    have hnn := (hin 0).1
    rw [hstart0, hwin0] at h0 hnn
    rw [hstart1, hwin1] at h1
    refine ⟨by omega, Fin.ext (by omega)⟩
  · exact absurd h (by simp)

end Cert.Lib.RowIndex
-- ==== Proof.EdgeSpec.lean ====
/-
  The per-edge and per-atom quantities both programs compute before the dense layers, as functions of the five arrays they
  read: the atoms' embeddings emb [100000, 64] and charges chg [100000, 1], the edges' radial features f [1600000, 64] and
  direction vectors r [1600000, 3], and each edge's atom number idx [1600000] (a signed 32-bit word, any value).

  An edge's atom number is used twice. The GATHER reads it with negative numbers counted from the end (x + 100000 when
  x < 0) and then clamped into [0, 99999]; the kernel's gather also replaces the row by a fill value when the number,
  after counting from the end, is outside [0, 99999]. The SCATTER reads it as it is and drops the edge when it is
  outside [0, 99999]. So an edge whose number is outside [0, 99999] contributes to no atom, whatever was gathered for it.

  The reference's form: proto (e, c) = f (e, c) · emb (row e, c); an atom's radial feature is the sum of proto over
  its edges; an edge's vector is r (e, d) · ∑ c, proto (e, c); an atom's vector the sum of its edges' vectors; the same
  with the charge (one column, broadcast) in place of the embedding.
  The kernel's form: S (n, c) = the sum of f (e, c) over n's edges; the radial features are emb · S and chg · S; an edge's
  embedding vector is r (e, d) · ∑ c, f (e, c) · embG (e, c) with embG the gathered row or the fill; its charge vector
  r (e, d) · (chgG e · ∑ c, f (e, c)).
-/
import Idealize.ShloMosaic.PureOps.Ideal.Laws
import Idealize.ShloMosaic.Lib.ValueIdx
import proofs.«417935_j69415261438047_3_alg».proof.Proof.LibRowIndex

noncomputable section

namespace Cert.EdgeSpec

open Idealize.ShloMosaic Idealize.ShloMosaic.ValueIdx Cert.Lib.RowIndex

variable (emb : (⟨2, ![100000, 64]⟩ : Shape).Idx → EReal) (chg : (⟨2, ![100000, 1]⟩ : Shape).Idx → EReal)
  (f : (⟨2, ![1600000, 64]⟩ : Shape).Idx → EReal) (r : (⟨2, ![1600000, 3]⟩ : Shape).Idx → EReal)
  (idx : IVec ⟨1, ![1600000]⟩ 32)

/-- The atom numbers as the [1600000, 1] column the gathers and scatters take. -/
def idxCol : IVec ⟨2, ![1600000, 1]⟩ 32 := fun i => idx (ix1 (i 0))

/-- An atom number with negatives counted from the end. -/
def wrap (x : BitVec 32) : BitVec 32 := if IntOp.cmpi .slt x 0#32 = 1#1 then x + 100000#32 else x

/-- The row a gather reads for the (wrapped) number w: w read signed, clamped into [0, 99999]. -/
def clampRow (w : BitVec 32) : Fin 100000 := ⟨min w.toInt.toNat 99999, by omega⟩

/-- The row edge e gathers. -/
def row (e : Fin 1600000) : Fin 100000 := clampRow (wrap (idx (ix1 e)))

/-- The wrapped number is a row number: the kernel's gather keeps the gathered row exactly then. -/
def inRange (w : BitVec 32) : Prop := 0 ≤ w.toInt ∧ w.toInt ≤ 99999

instance (w : BitVec 32) : Decidable (inRange w) := by unfold inRange; infer_instance

/-- The sum of the update rows that land on an element: a row scatter into zeros, without the zero. -/
def scatRows {C : Nat} (wf : ScatterDims.WF ⟨2, ![100000, C]⟩ ⟨2, ![1600000, 1]⟩ ⟨2, ![1600000, C]⟩ [1] [0] [0] 1)
    (upd : (⟨2, ![1600000, C]⟩ : Shape).Idx → EReal) : (⟨2, ![100000, C]⟩ : Shape).Idx → EReal :=
  fun i => ∑ j ∈ Finset.univ.filter (fun j => (rowScatter 100000 1600000 C wf).resultIdx? j (idxCol idx) = some i), upd j

variable (wf64 : ScatterDims.WF ⟨2, ![100000, 64]⟩ ⟨2, ![1600000, 1]⟩ ⟨2, ![1600000, 64]⟩ [1] [0] [0] 1)
  (wf3 : ScatterDims.WF ⟨2, ![100000, 3]⟩ ⟨2, ![1600000, 1]⟩ ⟨2, ![1600000, 3]⟩ [1] [0] [0] 1)

/-! ## The reference's form -/

def protoE : (⟨2, ![1600000, 64]⟩ : Shape).Idx → EReal := fun i => f i * emb (ix2 (row idx (i 0)) (i 1))
def protoC : (⟨2, ![1600000, 64]⟩ : Shape).Idx → EReal := fun i => f i * chg (ix2 (row idx (i 0)) (0 : Fin 1))
def radE_R : (⟨2, ![100000, 64]⟩ : Shape).Idx → EReal := scatRows idx wf64 (protoE emb f idx)
def radC_R : (⟨2, ![100000, 64]⟩ : Shape).Idx → EReal := scatRows idx wf64 (protoC chg f idx)
def vecE_R : (⟨2, ![1600000, 3]⟩ : Shape).Idx → EReal := fun i => r i * ∑ c : Fin 64, protoE emb f idx (ix2 (i 0) c)
def vecC_R : (⟨2, ![1600000, 3]⟩ : Shape).Idx → EReal := fun i => r i * ∑ c : Fin 64, protoC chg f idx (ix2 (i 0) c)
def vaccE_R : (⟨2, ![100000, 3]⟩ : Shape).Idx → EReal := scatRows idx wf3 (vecE_R emb f r idx)
def vaccC_R : (⟨2, ![100000, 3]⟩ : Shape).Idx → EReal := scatRows idx wf3 (vecC_R chg f r idx)

/-! ## The kernel's form -/

/-- The value the kernel's gather fills a row with when the number is not a row number. -/
def fill : EReal := Ideal.ofBits .f32 0x7FC00000#32

def embG : (⟨2, ![1600000, 64]⟩ : Shape).Idx → EReal := fun i =>
  if inRange (wrap (idx (ix1 (i 0)))) then emb (ix2 (row idx (i 0)) (i 1)) else fill
def chgG : (⟨2, ![1600000, 1]⟩ : Shape).Idx → EReal := fun i =>
  if inRange (wrap (idx (ix1 (i 0)))) then chg (ix2 (row idx (i 0)) (0 : Fin 1)) else fill
def sumF : (⟨2, ![100000, 64]⟩ : Shape).Idx → EReal := scatRows idx wf64 f
def radE_K : (⟨2, ![100000, 64]⟩ : Shape).Idx → EReal := fun i => emb i * sumF f idx wf64 i
def radC_K : (⟨2, ![100000, 64]⟩ : Shape).Idx → EReal := fun i => chg (ix2 (i 0) (0 : Fin 1)) * sumF f idx wf64 i
def vecE_K : (⟨2, ![1600000, 3]⟩ : Shape).Idx → EReal := fun i =>
  r i * ∑ c : Fin 64, f (ix2 (i 0) c) * embG emb idx (ix2 (i 0) c)
def vecC_K : (⟨2, ![1600000, 3]⟩ : Shape).Idx → EReal := fun i =>
  r i * (chgG chg idx (ix2 (i 0) (0 : Fin 1)) * ∑ c : Fin 64, f (ix2 (i 0) c))
def vaccE_K : (⟨2, ![100000, 3]⟩ : Shape).Idx → EReal := scatRows idx wf3 (vecE_K emb f r idx)
def vaccC_K : (⟨2, ![100000, 3]⟩ : Shape).Idx → EReal := scatRows idx wf3 (vecC_K chg f r idx)

end Cert.EdgeSpec

end
-- ==== Proof.KHostTake.lean ====
/-
  What the kernel program's buffers hold when its first region is entered, in the terms of the kernel form of the
  per-edge quantities.

  Before the first region the program runs three stretches of host operations. The first takes row 1 of the
  [2, 1600000] index pairs and reshapes it into the [1600000] vector of atom numbers. The second is an index take of
  the [100000, 64] embedding table by the atom numbers; the third the same take of the [100000, 1] charge table.

  An index take, for edge e with atom number x: the start index is w = x + 100000 if x < 0 (signed) and w = x
  otherwise, laid as a [1600000, 1] column; the mask of e is the conjunction, over the column's one entry, of
  0 ≤ w and w ≤ 99999 (signed), from the initial value true, so it holds exactly when w is a row number; the gather
  reads the table's row min (max w 0) 99999 (the start index read signed and clamped); and the result at (e, c) is the
  gathered row's entry c where the mask holds and the fill value (the word 0x7FC00000 read as a float) elsewhere.
  That is the kernel form's gathered embedding and gathered charge.

  No stretch writes an argument array, the second and third do not write the atom numbers, and the third does not
  write the result of the second: so at the first region's entry the four float argument arrays are as launched, the
  atom numbers are row 1 of the launched index pairs, and the two take results are the kernel form's gathered
  embedding and gathered charge of those arrays.
-/
import proofs.«417935_j69415261438047_3_alg».proof.Proof.Gen.KernelIdeal.Frame
import proofs.«417935_j69415261438047_3_alg».proof.Proof.EdgeSpec
import Idealize.ShloMosaic.Lib.StableHlo.Run
import Idealize.ShloMosaic.PureOps.Reduce
import Idealize.ShloMosaic.Lib.ValueIdx

noncomputable section

namespace Cert.KernelIdeal.Host
open Idealize.ShloMosaic Idealize.ShloMosaic.ValueIdx Idealize.ShloMosaic.TcCoe Idealize.SL.Sem Cert.KernelIdeal Cert.KernelIdeal.Gen Cert.Lib.RowIndex

/-! ## The index take as functions of the arrays -/

/-- The start-index column of an index take: each edge's atom number with negatives counted from the end
    (x + 100000 where x < 0), laid as a [1600000, 1] column. -/
def takeCol (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 100000#32))) idx)

/-- The mask of an index take: per edge, the conjunction over the column's one entry of 0 ≤ w and w ≤ 99999 (signed). -/
def takeMask (w : IVec S1600000x1 32) : IVec S1600000 1 :=
  Host.reduce IntOp.andi
    (andi (cmpi .sge w (broadcastInDim S1600000x1 ![] bcast_S_S1600000x1 (constantI S_ 32 0#32)))
      (cmpi .sle w (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The index take of the [100000, 64] table: the gathered rows where the mask holds, the fill value elsewhere. -/
def take64 (x : FVec Ideal S100000x64 .f32) (idx : IVec S1600000 32) : FVec Ideal S1600000x64 .f32 :=
  select (broadcastInDim S1600000x64 ![0] bcast_S1600000_S1600000x64_0 (takeMask (takeCol idx)))
    (Host.gather gather_S100000x64_S1600000x1_S1600000x64_1_0_n_n_0_1_164 x (takeCol idx))
    (broadcastInDim S1600000x64 ![] bcast_S_S1600000x64 (constant (F := Ideal) S_ .f32 0x7FC00000#32))

/-- The index take of the [100000, 1] table. -/
def take1 (x : FVec Ideal S100000x1 .f32) (idx : IVec S1600000 32) : FVec Ideal S1600000x1 .f32 :=
  select (broadcastInDim S1600000x1 ![0] bcast_S1600000_S1600000x1_0 (takeMask (takeCol idx)))
    (Host.gather gather_S100000x1_S1600000x1_S1600000x1_1_0_n_n_0_1_11 x (takeCol idx))
    (broadcastInDim S1600000x1 ![] bcast_S_S1600000x1 (constant (F := Ideal) S_ .f32 0x7FC00000#32))

/-! ## The take read at an index -/

/-- A vector laid along the first axis of an [n, m] array reads, at (p, q), the vector at p. -/
theorem bcast_axis0 {α : Type} {n k : Nat} (h : (⟨1, ![n]⟩ : Shape).BroadcastsInDim ⟨2, ![n, k]⟩ ![0])
    (v : (⟨1, ![n]⟩ : Shape).Idx → α) (p : Fin n) (q : Fin k) :
    broadcastInDim ⟨2, ![n, k]⟩ ![0] h v (ix2 p q) = v (ix1 p) := by
  unfold broadcastInDim
  refine congrArg v (funext fun a => ?_)
  obtain rfl : a = 0 := Subsingleton.elim _ _
  refine Fin.ext ?_
  split
  · next h1 =>
    -- the vector has one entry, so p is 0
    have hn : n = 1 := h1
    have hp := p.isLt
    show (0 : Nat) = p.val
    omega
  · rfl

/-- The start index an index take gives edge e is its atom number with negatives counted from the end. -/
theorem takeCol_apply (idx : IVec S1600000 32) (e : Fin 1600000) :
    takeCol idx (ix2 e (0 : Fin 1)) = Cert.EdgeSpec.wrap (idx (ix1 e)) :=
  (bcast_axis0 bcast_S1600000_S1600000x1_0 _ e (0 : Fin 1)).trans rfl

/-- Two one-bit truth values conjoined are 1 exactly when both are true. -/
theorem andi_ofBool_eq_one (a b : Bool) :
    IntOp.andi (BitVec.ofBool a) (BitVec.ofBool b) = 1#1 ↔ a = true ∧ b = true := by
  cases a <;> cases b <;> decide

/-- The and-reduction of a [1600000, 1] bit column over its one column, from the initial value true, is the column. -/
theorem reduceAnd_col1 (x : IVec S1600000x1 1) (e : Fin 1600000) :
    Host.reduce IntOp.andi x (constantI S_ 1 1#1) reducesTo_S1600000x1_S1600000_d1 h_S_ (ix1 e)
      = x (ix2 e (0 : Fin 1)) := by
  have hR : S1600000x1.Reduces [1] S1600000 := by decide
  rw [Host.reduce_eq_fold_single IntOp.andi x _ reducesTo_S1600000x1_S1600000_d1 hR h_S_ (ix1 e)]
  -- a fold over the one coordinate of the size-1 axis is one application
  have hfold : (Finset.univ : Finset (Fin 1)).fold IntOp.andi 1#1 (fun k : Fin 1 => x (hR.lift (ix1 e) k))
      = IntOp.andi (x (hR.lift (ix1 e) (default : Fin 1))) 1#1 := by
    rw [Finset.univ_unique, Finset.fold_singleton]
  refine hfold.trans ?_
  -- the one index over e is (e, 0)
  have hl : hR.lift (ix1 e) (default : Fin 1) = ix2 e (0 : Fin 1) := by
    funext a
    refine Fin.ext ?_
    match a with
    | ⟨0, _⟩ => rfl
    | ⟨1, _⟩ => rfl
  rw [hl]
  generalize x (ix2 e (0 : Fin 1)) = b
  revert b
  decide

/-- The mask of an index take at edge e holds exactly when the start index is a row number. -/
theorem takeMask_apply (w : IVec S1600000x1 32) (e : Fin 1600000) :
    takeMask w (ix1 e) = 1#1 ↔ Cert.EdgeSpec.inRange (w (ix2 e (0 : Fin 1))) := by
  unfold takeMask
  rw [reduceAnd_col1]
  show IntOp.andi (BitVec.ofBool ((0#32 : BitVec 32).sle (w (ix2 e (0 : Fin 1)))))
      (BitVec.ofBool ((w (ix2 e (0 : Fin 1))).sle 99999#32)) = 1#1 ↔ _
  generalize w (ix2 e (0 : Fin 1)) = x
  have h0 : (0#32 : BitVec 32).toInt = 0 := by decide
  have h9 : (99999#32 : BitVec 32).toInt = 99999 := by decide
  rw [andi_ofBool_eq_one]
  unfold BitVec.sle Cert.EdgeSpec.inRange
  rw [decide_eq_true_iff, decide_eq_true_iff, h0, h9]

/-- An index take read at (e, c), for a table of any width C: where edge e's number, counted from the end, is a row
    number, the table's row `row e` at column c; elsewhere the fill value. -/
theorem take_apply {C : Nat} (x : (⟨2, ![100000, C]⟩ : Shape).Idx → EReal) (idx : IVec S1600000 32)
    (wf : GatherDims.WF ⟨2, ![100000, C]⟩ ⟨2, ![1600000, 1]⟩ ⟨2, ![1600000, C]⟩ [1] [0] [] [0] [] 1 ![1, C])
    (hb : (⟨1, ![1600000]⟩ : Shape).BroadcastsInDim ⟨2, ![1600000, C]⟩ ![0])
    (fl : (⟨2, ![1600000, C]⟩ : Shape).Idx → EReal) (hfl : ∀ i, fl i = Cert.EdgeSpec.fill) (e : Fin 1600000) (c : Fin C) :
    Scalar.select (broadcastInDim ⟨2, ![1600000, C]⟩ ![0] hb (takeMask (takeCol idx)) (ix2 e c))
        (Host.gather (rowGather 100000 1600000 C wf) x (takeCol idx) (ix2 e c)) (fl (ix2 e c))
      = if Cert.EdgeSpec.inRange (Cert.EdgeSpec.wrap (idx (ix1 e))) then x (ix2 (Cert.EdgeSpec.row idx e) c)
        else Cert.EdgeSpec.fill := by
  -- the gathered row is the clamped start index, that is `row e`
  have hrow : (⟨min (takeCol idx (ix2 e (0 : Fin 1))).toInt.toNat (100000 - 1), by omega⟩ : Fin 100000)
      = Cert.EdgeSpec.row idx e := by
    refine Fin.ext ?_
    show min (takeCol idx (ix2 e (0 : Fin 1))).toInt.toNat (100000 - 1) = (Cert.EdgeSpec.row idx e).val
    rw [takeCol_apply]
    rfl
  have hmask := takeMask_apply (takeCol idx) e
  rw [takeCol_apply] at hmask
  rw [bcast_axis0, rowGather_apply (by decide : 0 < 100000), hrow, hfl]
  by_cases hr : Cert.EdgeSpec.inRange (Cert.EdgeSpec.wrap (idx (ix1 e)))
  · rw [if_pos hr, hmask.mpr hr, select_one]
  · rw [if_neg hr, eq_zero_of_ne_one (fun h => hr (hmask.mp h)), select_zero]

/-- The index take of the embedding table is the kernel form's gathered embedding. -/
theorem take64_eq (x : FVec Ideal S100000x64 .f32) (idx : IVec S1600000 32) :
    take64 x idx = Cert.EdgeSpec.embG x idx := by
  funext i
  obtain ⟨e, c, rfl⟩ : ∃ (e : Fin 1600000) (c : Fin 64), i = ix2 e c := ⟨i 0, i 1, eq_ix2 i⟩
  have hfl : ∀ i, broadcastInDim S1600000x64 ![] bcast_S_S1600000x64 (constant (F := Ideal) S_ .f32 0x7FC00000#32) i
      = Cert.EdgeSpec.fill := fun _ => rfl
  have h := take_apply (C := 64) x idx gather_S100000x64_S1600000x1_S1600000x64_1_0_n_n_0_1_164_wf
    bcast_S1600000_S1600000x64_0 _ hfl e c
  unfold take64 Cert.EdgeSpec.embG
  rw [select_apply]
  exact h

/-- The index take of the charge table is the kernel form's gathered charge. -/
theorem take1_eq (x : FVec Ideal S100000x1 .f32) (idx : IVec S1600000 32) :
    take1 x idx = Cert.EdgeSpec.chgG x idx := by
  funext i
  obtain ⟨e, c, rfl⟩ : ∃ (e : Fin 1600000) (c : Fin 1), i = ix2 e c := ⟨i 0, i 1, eq_ix2 i⟩
  obtain rfl : c = 0 := Subsingleton.elim _ _
  have hfl : ∀ i, broadcastInDim S1600000x1 ![] bcast_S_S1600000x1 (constant (F := Ideal) S_ .f32 0x7FC00000#32) i
      = Cert.EdgeSpec.fill := fun _ => rfl
  have h := take_apply (C := 1) x idx gather_S100000x1_S1600000x1_S1600000x1_1_0_n_n_0_1_11_wf
    bcast_S1600000_S1600000x1_0 _ hfl e (0 : Fin 1)
  unfold take1 Cert.EdgeSpec.chgG
  rw [select_apply]
  exact h

/-! ## The casts between a buffer's own type and the literal type of the value it holds -/

/-- Contents moved to a buffer's own type and back are the contents. -/
theorem ofBuf_toBuf {T : BufTy} {Val : EltTy → Type} (x : StableHlo.TRef sig T) (v : T.Contents Val) :
    x.ofBuf (x.toBuf v) = v := by
  simp only [StableHlo.TRef.ofBuf, StableHlo.TRef.toBuf, cast_cast, cast_eq]

/-! ## The stretches of host operations, from any buffer contents -/

section Stretch
variable (V : Valuation τ sig (Elt Ideal))

/-- The second index take writes no buffer of the first. -/
theorem ops2_v2 : StableHlo.after hostOps0_2 V (Proc.devRef .tc main_v2) = V (Proc.devRef .tc main_v2) := by
  after_results_simp

/-- The first index take leaves, in its result buffer, the take of the embedding table by the atom numbers. -/
theorem ops1_v2 :
    StableHlo.after hostOps0_1 V (Proc.devRef .tc main_v2)
      = (StableHlo.TRef.of main_v2 : StableHlo.TRef sig ⟨S1600000x64, .f32⟩).toBuf
          (take64 ((StableHlo.TRef.of main_arg0 : StableHlo.TRef sig ⟨S100000x64, .f32⟩).ofBuf (V (Proc.devRef .tc main_arg0)))
            ((StableHlo.TRef.of main_v1 : StableHlo.TRef sig ⟨S1600000, .i32⟩).ofBuf (V (Proc.devRef .tc main_v1)))) := by
  after_results_simp
  simp only [ofBuf_toBuf]
  unfold take64 takeMask takeCol
  rfl

/-- The second index take leaves, in its result buffer, the take of the charge table by the atom numbers. -/
theorem ops2_v3 :
    StableHlo.after hostOps0_2 V (Proc.devRef .tc main_v3)
      = (StableHlo.TRef.of main_v3 : StableHlo.TRef sig ⟨S1600000x1, .f32⟩).toBuf
          (take1 ((StableHlo.TRef.of main_arg1 : StableHlo.TRef sig ⟨S100000x1, .f32⟩).ofBuf (V (Proc.devRef .tc main_arg1)))
            ((StableHlo.TRef.of main_v1 : StableHlo.TRef sig ⟨S1600000, .i32⟩).ofBuf (V (Proc.devRef .tc main_v1)))) := by
  after_results_simp
  simp only [ofBuf_toBuf]
  unfold take1 takeMask takeCol
  rfl

end Stretch

variable (m : (ℓ : Loc nD τ sig) → Buf (Elt Ideal) ℓ) (ρ : Dev nD → PrngReg)

/-- The five argument arrays the edge stage reads, at their literal types. -/
abbrev embM (c : Dev nD) : FVec Ideal S100000x64 .f32 := m ((c : Thread nD τ).loc main_arg0)
abbrev chgM (c : Dev nD) : FVec Ideal S100000x1 .f32 := m ((c : Thread nD τ).loc main_arg1)
abbrev fM (c : Dev nD) : FVec Ideal S1600000x64 .f32 := m ((c : Thread nD τ).loc main_arg3)
abbrev rM (c : Dev nD) : FVec Ideal S1600000x3 .f32 := m ((c : Thread nD τ).loc main_arg4)
/-- Each edge's atom number: row 1 of the index pairs. -/
abbrev idxM (c : Dev nD) : IVec S1600000 32 :=
  shapeCast S1600000 (extractStridedSlice S1x1600000 ![1, 0] (m ((c : Thread nD τ).loc main_arg2)) slices_S2x1600000_S1x1600000_1_0) shapeCasts_S1x1600000_S1600000

/-! ## The buffers at the first region's entry -/

theorem W3_arg0 (c : Dev nD) : W3 m ρ c (Proc.devRef .tc main_arg0) = embM m c := by
  show StableHlo.after hostOps0_2 (StableHlo.after hostOps0_1 (StableHlo.after hostOps0 (W0 m ρ c))) (Proc.devRef .tc main_arg0) = _
  after_results_simp <;> rfl
theorem W3_arg1 (c : Dev nD) : W3 m ρ c (Proc.devRef .tc main_arg1) = chgM m c := by
  show StableHlo.after hostOps0_2 (StableHlo.after hostOps0_1 (StableHlo.after hostOps0 (W0 m ρ c))) (Proc.devRef .tc main_arg1) = _
  after_results_simp <;> rfl
theorem W3_arg3 (c : Dev nD) : W3 m ρ c (Proc.devRef .tc main_arg3) = fM m c := by
  show StableHlo.after hostOps0_2 (StableHlo.after hostOps0_1 (StableHlo.after hostOps0 (W0 m ρ c))) (Proc.devRef .tc main_arg3) = _
  after_results_simp <;> rfl
theorem W3_arg4 (c : Dev nD) : W3 m ρ c (Proc.devRef .tc main_arg4) = rM m c := by
  show StableHlo.after hostOps0_2 (StableHlo.after hostOps0_1 (StableHlo.after hostOps0 (W0 m ρ c))) (Proc.devRef .tc main_arg4) = _
  after_results_simp <;> rfl
theorem W3_v1 (c : Dev nD) : W3 m ρ c (Proc.devRef .tc main_v1) = idxM m c := by
  show StableHlo.after hostOps0_2 (StableHlo.after hostOps0_1 (StableHlo.after hostOps0 (W0 m ρ c))) (Proc.devRef .tc main_v1) = _
  after_results_simp <;> rfl

/-- After the first stretch the embedding table is as launched … -/
theorem W1_arg0 (c : Dev nD) : W1 m ρ c (Proc.devRef .tc main_arg0) = embM m c := by
  show StableHlo.after hostOps0 (W0 m ρ c) (Proc.devRef .tc main_arg0) = _
  after_results_simp <;> rfl
/-- … and the atom numbers are row 1 of the index pairs. -/
theorem W1_v1 (c : Dev nD) : W1 m ρ c (Proc.devRef .tc main_v1) = idxM m c := by
  show StableHlo.after hostOps0 (W0 m ρ c) (Proc.devRef .tc main_v1) = _
  after_results_simp <;> rfl
/-- After the second stretch the charge table is as launched … -/
theorem W2_arg1 (c : Dev nD) : W2 m ρ c (Proc.devRef .tc main_arg1) = chgM m c := by
  show StableHlo.after hostOps0_1 (StableHlo.after hostOps0 (W0 m ρ c)) (Proc.devRef .tc main_arg1) = _
  after_results_simp <;> rfl
/-- … and the atom numbers are unchanged. -/
theorem W2_v1 (c : Dev nD) : W2 m ρ c (Proc.devRef .tc main_v1) = idxM m c := by
  show StableHlo.after hostOps0_1 (StableHlo.after hostOps0 (W0 m ρ c)) (Proc.devRef .tc main_v1) = _
  after_results_simp <;> rfl

theorem W3_v2 (c : Dev nD) : W3 m ρ c (Proc.devRef .tc main_v2) = Cert.EdgeSpec.embG (embM m c) (idxM m c) := by
  rw [← take64_eq]
  refine (ops2_v2 (W2 m ρ c)).trans ((ops1_v2 (W1 m ρ c)).trans ?_)
  refine (eq_of_heq (cast_heq _ _)).trans ?_
  exact congrArg₂ take64 ((eq_of_heq (cast_heq _ _)).trans (W1_arg0 m ρ c))
    ((eq_of_heq (cast_heq _ _)).trans (W1_v1 m ρ c))

theorem W3_v3 (c : Dev nD) : W3 m ρ c (Proc.devRef .tc main_v3) = Cert.EdgeSpec.chgG (chgM m c) (idxM m c) := by
  rw [← take1_eq]
  refine (ops2_v3 (W2 m ρ c)).trans ?_
  refine (eq_of_heq (cast_heq _ _)).trans ?_
  exact congrArg₂ take1 ((eq_of_heq (cast_heq _ _)).trans (W2_arg1 m ρ c))
    ((eq_of_heq (cast_heq _ _)).trans (W2_v1 m ρ c))

end Cert.KernelIdeal.Host

end
-- ==== Proof.KHostArgs.lean ====
/-
  The kernel program's argument arrays at the later boundaries of its main function.

  The buffer contents at each boundary are a fold from the launch memory: a stretch of host operations changes only the
  buffers its operations write, and a region changes only its window arrays, leaving an input window's array as it found
  it. No operation and no region writes an argument array, so at the first region's exit and at the second region's entry
  an argument array still holds what the launch memory holds. Each fact below is read off the walk from the last boundary
  back to the launch memory, cut at the boundary in question: the contents at the last boundary equal both the launch
  memory's and, step by step backwards, those at the earlier boundary.
-/
import proofs.«417935_j69415261438047_3_alg».proof.Proof.Gen.KernelIdeal.Frame
import Idealize.ShloMosaic.PureOps.Ideal

set_option maxRecDepth 16384

noncomputable section

namespace Cert.KernelIdeal.Host
open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-! ## At the first region's exit -/

/-- An argument array no operation and no region writes holds the launch memory's contents at the first region's exit. -/
theorem W4_arg0 (c : Dev nD) : W4 m ρ c (Proc.devRef .tc main_arg0) = m ((c : Thread nD τ).loc main_arg0) := by
  have h65 : W6 m ρ c (Proc.devRef .tc main_arg0) = W5 m ρ c (Proc.devRef .tc main_arg0) :=
    W6_of_ne m ρ c main_arg0 (by decide)
  have h54 : W5 m ρ c (Proc.devRef .tc main_arg0) = W4 m ρ c (Proc.devRef .tc main_arg0) :=
    StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact (h54.symm.trans h65.symm).trans (W6_main_arg0 m ρ c)

theorem W4_arg1 (c : Dev nD) : W4 m ρ c (Proc.devRef .tc main_arg1) = m ((c : Thread nD τ).loc main_arg1) := by
  have h65 : W6 m ρ c (Proc.devRef .tc main_arg1) = W5 m ρ c (Proc.devRef .tc main_arg1) :=
    W6_of_ne m ρ c main_arg1 (by decide)
  have h54 : W5 m ρ c (Proc.devRef .tc main_arg1) = W4 m ρ c (Proc.devRef .tc main_arg1) :=
    StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact (h54.symm.trans h65.symm).trans (W6_main_arg1 m ρ c)

theorem W4_arg3 (c : Dev nD) : W4 m ρ c (Proc.devRef .tc main_arg3) = m ((c : Thread nD τ).loc main_arg3) := by
  have h65 : W6 m ρ c (Proc.devRef .tc main_arg3) = W5 m ρ c (Proc.devRef .tc main_arg3) :=
    W6_of_ne m ρ c main_arg3 (by decide)
  have h54 : W5 m ρ c (Proc.devRef .tc main_arg3) = W4 m ρ c (Proc.devRef .tc main_arg3) :=
    StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact (h54.symm.trans h65.symm).trans (W6_main_arg3 m ρ c)

/-- The index vector main_v1 is not a window array of the first region: it leaves the region as it entered. -/
theorem W4_v1 (c : Dev nD) : W4 m ρ c (Proc.devRef .tc main_v1) = W3 m ρ c (Proc.devRef .tc main_v1) :=
  W4_of_ne m ρ c main_v1 (by decide)

/-! ## At the second region's entry: the weights and biases, each an input window's array of that region -/

/-- The weights and biases at the second region's entry. -/
theorem W5_arg5 (c : Dev nD) : W5 m ρ c (Proc.devRef .tc main_arg5) = m ((c : Thread nD τ).loc main_arg5) := by
  have h65 : W6 m ρ c (Proc.devRef .tc main_arg5) = W5 m ρ c (Proc.devRef .tc main_arg5) :=
    (W6_arr m ρ c 4).trans (((dat1 (V5 m ρ) c).arrAt_in 4 rfl _).trans (A_eq1 (V5 m ρ) c 4))
  exact h65.symm.trans (W6_main_arg5 m ρ c)

theorem W5_arg6 (c : Dev nD) : W5 m ρ c (Proc.devRef .tc main_arg6) = m ((c : Thread nD τ).loc main_arg6) := by
  have h65 : W6 m ρ c (Proc.devRef .tc main_arg6) = W5 m ρ c (Proc.devRef .tc main_arg6) :=
    (W6_arr m ρ c 5).trans (((dat1 (V5 m ρ) c).arrAt_in 5 rfl _).trans (A_eq1 (V5 m ρ) c 5))
  exact h65.symm.trans (W6_main_arg6 m ρ c)

theorem W5_arg7 (c : Dev nD) : W5 m ρ c (Proc.devRef .tc main_arg7) = m ((c : Thread nD τ).loc main_arg7) := by
  have h65 : W6 m ρ c (Proc.devRef .tc main_arg7) = W5 m ρ c (Proc.devRef .tc main_arg7) :=
    (W6_arr m ρ c 6).trans (((dat1 (V5 m ρ) c).arrAt_in 6 rfl _).trans (A_eq1 (V5 m ρ) c 6))
  exact h65.symm.trans (W6_main_arg7 m ρ c)

theorem W5_arg8 (c : Dev nD) : W5 m ρ c (Proc.devRef .tc main_arg8) = m ((c : Thread nD τ).loc main_arg8) := by
  have h65 : W6 m ρ c (Proc.devRef .tc main_arg8) = W5 m ρ c (Proc.devRef .tc main_arg8) :=
    (W6_arr m ρ c 7).trans (((dat1 (V5 m ρ) c).arrAt_in 7 rfl _).trans (A_eq1 (V5 m ρ) c 7))
  exact h65.symm.trans (W6_main_arg8 m ρ c)

theorem W5_arg9 (c : Dev nD) : W5 m ρ c (Proc.devRef .tc main_arg9) = m ((c : Thread nD τ).loc main_arg9) := by
  have h65 : W6 m ρ c (Proc.devRef .tc main_arg9) = W5 m ρ c (Proc.devRef .tc main_arg9) :=
    (W6_arr m ρ c 8).trans (((dat1 (V5 m ρ) c).arrAt_in 8 rfl _).trans (A_eq1 (V5 m ρ) c 8))
  exact h65.symm.trans (W6_main_arg9 m ρ c)

theorem W5_arg10 (c : Dev nD) : W5 m ρ c (Proc.devRef .tc main_arg10) = m ((c : Thread nD τ).loc main_arg10) := by
  have h65 : W6 m ρ c (Proc.devRef .tc main_arg10) = W5 m ρ c (Proc.devRef .tc main_arg10) :=
    (W6_arr m ρ c 9).trans (((dat1 (V5 m ρ) c).arrAt_in 9 rfl _).trans (A_eq1 (V5 m ρ) c 9))
  exact h65.symm.trans (W6_main_arg10 m ρ c)

theorem W5_arg11 (c : Dev nD) : W5 m ρ c (Proc.devRef .tc main_arg11) = m ((c : Thread nD τ).loc main_arg11) := by
  have h65 : W6 m ρ c (Proc.devRef .tc main_arg11) = W5 m ρ c (Proc.devRef .tc main_arg11) :=
    (W6_arr m ρ c 10).trans (((dat1 (V5 m ρ) c).arrAt_in 10 rfl _).trans (A_eq1 (V5 m ρ) c 10))
  exact h65.symm.trans (W6_main_arg11 m ρ c)

theorem W5_arg12 (c : Dev nD) : W5 m ρ c (Proc.devRef .tc main_arg12) = m ((c : Thread nD τ).loc main_arg12) := by
  have h65 : W6 m ρ c (Proc.devRef .tc main_arg12) = W5 m ρ c (Proc.devRef .tc main_arg12) :=
    (W6_arr m ρ c 11).trans (((dat1 (V5 m ρ) c).arrAt_in 11 rfl _).trans (A_eq1 (V5 m ρ) c 11))
  exact h65.symm.trans (W6_main_arg12 m ρ c)

theorem W5_arg13 (c : Dev nD) : W5 m ρ c (Proc.devRef .tc main_arg13) = m ((c : Thread nD τ).loc main_arg13) := by
  have h65 : W6 m ρ c (Proc.devRef .tc main_arg13) = W5 m ρ c (Proc.devRef .tc main_arg13) :=
    (W6_arr m ρ c 12).trans (((dat1 (V5 m ρ) c).arrAt_in 12 rfl _).trans (A_eq1 (V5 m ρ) c 12))
  exact h65.symm.trans (W6_main_arg13 m ρ c)

theorem W5_arg14 (c : Dev nD) : W5 m ρ c (Proc.devRef .tc main_arg14) = m ((c : Thread nD τ).loc main_arg14) := by
  have h65 : W6 m ρ c (Proc.devRef .tc main_arg14) = W5 m ρ c (Proc.devRef .tc main_arg14) :=
    (W6_arr m ρ c 13).trans (((dat1 (V5 m ρ) c).arrAt_in 13 rfl _).trans (A_eq1 (V5 m ρ) c 13))
  exact h65.symm.trans (W6_main_arg14 m ρ c)

theorem W5_arg15 (c : Dev nD) : W5 m ρ c (Proc.devRef .tc main_arg15) = m ((c : Thread nD τ).loc main_arg15) := by
  have h65 : W6 m ρ c (Proc.devRef .tc main_arg15) = W5 m ρ c (Proc.devRef .tc main_arg15) :=
    (W6_arr m ρ c 14).trans (((dat1 (V5 m ρ) c).arrAt_in 14 rfl _).trans (A_eq1 (V5 m ρ) c 14))
  exact h65.symm.trans (W6_main_arg15 m ρ c)

theorem W5_arg16 (c : Dev nD) : W5 m ρ c (Proc.devRef .tc main_arg16) = m ((c : Thread nD τ).loc main_arg16) := by
  have h65 : W6 m ρ c (Proc.devRef .tc main_arg16) = W5 m ρ c (Proc.devRef .tc main_arg16) :=
    (W6_arr m ρ c 15).trans (((dat1 (V5 m ρ) c).arrAt_in 15 rfl _).trans (A_eq1 (V5 m ρ) c 15))
  exact h65.symm.trans (W6_main_arg16 m ρ c)

end Cert.KernelIdeal.Host

end
-- ==== Proof.KHostScatter.lean ====
/-
  The four per-atom arrays the kernel program's host code builds between its two regions, in the specification's
  kernel form.

  Between the regions the host scatters the edges' radial features into zeros by atom (the sum of an atom's edges'
  rows), multiplies the result by the atoms' embeddings and by the atoms' charges (the one charge column laid along the
  64 feature columns), and scatters each of the two arrays of per-edge vectors the first region produced into zeros by
  atom. At the ideal values a row scatter-add into zeros is the exact sum of the update rows that land on an element;
  the index column the host builds from the atom numbers is the specification's.
-/
import proofs.«417935_j69415261438047_3_alg».proof.Proof.Gen.KernelIdeal.Frame
import proofs.«417935_j69415261438047_3_alg».proof.Proof.EdgeSpec
import Idealize.ShloMosaic.Lib.StableHlo.Run
import Idealize.ShloMosaic.Lib.StableHlo.Predicate
import Idealize.ShloMosaic.PureOps.Ideal.Laws
import Idealize.ShloMosaic.Lib.ValueIdx

noncomputable section

namespace Cert.KernelIdeal.Host
open Idealize.ShloMosaic Idealize.ShloMosaic.ValueIdx Idealize.ShloMosaic.TcCoe Idealize.SL.Sem Cert.KernelIdeal Cert.KernelIdeal.Gen Cert.Lib.RowIndex

/-! ## The host operations read at an index -/

/-- A broadcast read at an index: the operand at any index whose coordinates are the ones the broadcast reads (the
    result's coordinate on the mapped axis, or 0 on an operand axis of extent one). -/
theorem bcast_apply_of {α : Type} {s t : Shape} (dims : Fin s.rank → Fin t.rank) (h : s.BroadcastsInDim t dims)
    (x : s.Idx → α) (j : t.Idx) (i : s.Idx)
    (hi : ∀ a, (i a).val = if s.size a = 1 then 0 else (j (dims a)).val) : broadcastInDim t dims h x j = x i := by
  unfold broadcastInDim
  congr 1
  funext a
  apply Fin.ext
  rw [hi a]
  split <;> rfl

/-- The atom numbers laid down a one-column rectangle are the specification's index column. -/
theorem idxCol_eq (hb : S1600000.BroadcastsInDim S1600000x1 ![0]) (idx : IVec S1600000 32) :
    broadcastInDim S1600000x1 ![0] hb idx = Cert.EdgeSpec.idxCol idx := by
  funext i
  refine bcast_apply_of _ hb idx i (ix1 (i 0)) fun a => ?_
  match a with
  | ⟨0, _⟩ =>
    show (i 0).val = if (1600000 : Nat) = 1 then 0 else (i 0).val
    split <;> omega

/-- The charges' one column laid along the 64 feature columns reads the atom's charge. -/
theorem chgBcast_apply (h : S100000x1.BroadcastsInDim S100000x64 ![0, 1]) (chg : FVec Ideal S100000x1 .f32)
    (i : S100000x64.Idx) :
    broadcastInDim S100000x64 ![0, 1] h chg i = chg (ix2 (i 0) (0 : Fin 1)) := by
  refine bcast_apply_of _ h chg i (ix2 (i 0) (0 : Fin 1)) fun a => ?_
  match a with
  | ⟨0, _⟩ =>
    show (i 0).val = if (100000 : Nat) = 1 then 0 else (i 0).val
    split <;> omega
  | ⟨1, _⟩ => rfl

/-- The zero constant stretched to any shape is the extended real 0 everywhere. -/
theorem zeros_apply {t : Shape} (h : S_.BroadcastsInDim t ![]) (j : t.Idx) :
    broadcastInDim t ![] h (constant (F := Ideal) S_ .f32 0x00000000#32) j = (0 : EReal) := Ideal.ofBits_zero_f32

/-- The host's accumulating scatter at the ideal values, read at an index: the operand there plus the sum of the updates
    that land there. -/
theorem scatterAdd_apply {s si su : Shape} {w : Nat} (d : ScatterDims s si su) (x : FVec Ideal s .f32) (idx : IVec si w)
    (upd : FVec Ideal su .f32) (i : s.Idx) :
    Host.scatterAdd d x idx upd i = x i + ∑ j ∈ Finset.univ.filter (fun j => d.resultIdx? j idx = some i), upd j := rfl

/-- A row scatter-add into zeros, its row numbers the atom numbers laid down a column, is at every element the sum of
    the update rows that land there. -/
theorem scatterAdd_zero_eq {C : Nat} (d : ScatterDims ⟨2, ![100000, C]⟩ ⟨2, ![1600000, 1]⟩ ⟨2, ![1600000, C]⟩)
    (wf : ScatterDims.WF ⟨2, ![100000, C]⟩ ⟨2, ![1600000, 1]⟩ ⟨2, ![1600000, C]⟩ [1] [0] [0] 1)
    (hd : d = rowScatter 100000 1600000 C wf)
    (hz : S_.BroadcastsInDim ⟨2, ![100000, C]⟩ ![]) (hb : S1600000.BroadcastsInDim S1600000x1 ![0])
    (idx : IVec S1600000 32) (upd : FVec Ideal ⟨2, ![1600000, C]⟩ .f32) :
    Host.scatterAdd d (broadcastInDim ⟨2, ![100000, C]⟩ ![] hz (constant (F := Ideal) S_ .f32 0x00000000#32))
        (broadcastInDim S1600000x1 ![0] hb idx) upd
      = Cert.EdgeSpec.scatRows idx wf upd := by
  subst hd
  rw [idxCol_eq]
  funext i
  rw [scatterAdd_apply, zeros_apply, zero_add]
  unfold Cert.EdgeSpec.scatRows
  with_reducible rfl

theorem kwf64 : ScatterDims.WF ⟨2, ![100000, 64]⟩ ⟨2, ![1600000, 1]⟩ ⟨2, ![1600000, 64]⟩ [1] [0] [0] 1 := scatter_S100000x64_S1600000x1_S1600000x64_1_0_0_1_wf
theorem kwf3 : ScatterDims.WF ⟨2, ![100000, 3]⟩ ⟨2, ![1600000, 1]⟩ ⟨2, ![1600000, 3]⟩ [1] [0] [0] 1 := scatter_S100000x3_S1600000x1_S1600000x3_1_0_0_1_wf

/-! ## The host operations between the regions, over any contents at the first region's exit -/

section AnyContents
variable (V : Valuation τ sig (Elt Ideal))

set_option maxHeartbeats 1000000 in
theorem after_v8 (emb : FVec Ideal S100000x64 .f32) (f : FVec Ideal S1600000x64 .f32) (idx : IVec S1600000 32)
    (h0 : V (Proc.devRef .tc main_arg0) = emb) (h3 : V (Proc.devRef .tc main_arg3) = f)
    (h1 : V (Proc.devRef .tc main_v1) = idx) :
    StableHlo.after hostOps1 V (Proc.devRef .tc main_v8) = Cert.EdgeSpec.radE_K emb f idx kwf64 := by
  after_results
  rw [h0, h3, h1]
  beta_reduce
  rw [scatterAdd_zero_eq scatter_S100000x64_S1600000x1_S1600000x64_1_0_0_1 kwf64 rfl]
  rfl

set_option maxHeartbeats 1000000 in
theorem after_v10 (chg : FVec Ideal S100000x1 .f32) (f : FVec Ideal S1600000x64 .f32) (idx : IVec S1600000 32)
    (hq : V (Proc.devRef .tc main_arg1) = chg) (h3 : V (Proc.devRef .tc main_arg3) = f)
    (h1 : V (Proc.devRef .tc main_v1) = idx) :
    StableHlo.after hostOps1 V (Proc.devRef .tc main_v10) = Cert.EdgeSpec.radC_K chg f idx kwf64 := by
  after_results
  rw [hq, h3, h1]
  beta_reduce
  rw [scatterAdd_zero_eq scatter_S100000x64_S1600000x1_S1600000x64_1_0_0_1 kwf64 rfl]
  funext i
  rw [mulf_apply, chgBcast_apply]
  rfl

set_option maxHeartbeats 1000000 in
theorem after_v13 (vE : FVec Ideal S1600000x3 .f32) (idx : IVec S1600000 32)
    (hv : V (Proc.devRef .tc main_v4_0) = vE) (h1 : V (Proc.devRef .tc main_v1) = idx) :
    StableHlo.after hostOps1 V (Proc.devRef .tc main_v13) = Cert.EdgeSpec.scatRows idx kwf3 vE := by
  after_results
  rw [hv, h1]
  beta_reduce
  exact scatterAdd_zero_eq scatter_S100000x3_S1600000x1_S1600000x3_1_0_0_1 kwf3 rfl _ _ idx vE

set_option maxHeartbeats 1000000 in
theorem after_v16 (vC : FVec Ideal S1600000x3 .f32) (idx : IVec S1600000 32)
    (hv : V (Proc.devRef .tc main_v4_1) = vC) (h1 : V (Proc.devRef .tc main_v1) = idx) :
    StableHlo.after hostOps1 V (Proc.devRef .tc main_v16) = Cert.EdgeSpec.scatRows idx kwf3 vC := by
  after_results
  rw [hv, h1]
  beta_reduce
  exact scatterAdd_zero_eq scatter_S100000x3_S1600000x1_S1600000x3_1_0_0_1 kwf3 rfl _ _ idx vC

end AnyContents

/-! ## The arrays at the second region's entry -/

variable (m : (ℓ : Loc nD τ sig) → Buf (Elt Ideal) ℓ) (ρ : Dev nD → PrngReg)

/-- The radial embedding features: the atoms' embeddings times the per-atom sums of the edges' radial features. -/
theorem W5_v8_of (c : Dev nD) (emb : FVec Ideal S100000x64 .f32) (f : FVec Ideal S1600000x64 .f32) (idx : IVec S1600000 32)
    (h0 : W4 m ρ c (Proc.devRef .tc main_arg0) = emb) (h3 : W4 m ρ c (Proc.devRef .tc main_arg3) = f)
    (h1 : W4 m ρ c (Proc.devRef .tc main_v1) = idx) :
    W5 m ρ c (Proc.devRef .tc main_v8) = Cert.EdgeSpec.radE_K emb f idx kwf64 :=
  after_v8 (W4 m ρ c) emb f idx h0 h3 h1

/-- The radial charge features: the atoms' charges times the same sums. -/
theorem W5_v10_of (c : Dev nD) (chg : FVec Ideal S100000x1 .f32) (f : FVec Ideal S1600000x64 .f32) (idx : IVec S1600000 32)
    (hq : W4 m ρ c (Proc.devRef .tc main_arg1) = chg) (h3 : W4 m ρ c (Proc.devRef .tc main_arg3) = f)
    (h1 : W4 m ρ c (Proc.devRef .tc main_v1) = idx) :
    W5 m ρ c (Proc.devRef .tc main_v10) = Cert.EdgeSpec.radC_K chg f idx kwf64 :=
  after_v10 (W4 m ρ c) chg f idx hq h3 h1

/-- The atoms' accumulated embedding vectors: the first region's per-edge vectors summed by atom. -/
theorem W5_v13_of (c : Dev nD) (vE : FVec Ideal S1600000x3 .f32) (idx : IVec S1600000 32)
    (hv : W4 m ρ c (Proc.devRef .tc main_v4_0) = vE) (h1 : W4 m ρ c (Proc.devRef .tc main_v1) = idx) :
    W5 m ρ c (Proc.devRef .tc main_v13) = Cert.EdgeSpec.scatRows idx kwf3 vE :=
  after_v13 (W4 m ρ c) vE idx hv h1

/-- The atoms' accumulated charge vectors likewise. -/
theorem W5_v16_of (c : Dev nD) (vC : FVec Ideal S1600000x3 .f32) (idx : IVec S1600000 32)
    (hv : W4 m ρ c (Proc.devRef .tc main_v4_1) = vC) (h1 : W4 m ρ c (Proc.devRef .tc main_v1) = idx) :
    W5 m ρ c (Proc.devRef .tc main_v16) = Cert.EdgeSpec.scatRows idx kwf3 vC :=
  after_v16 (W4 m ρ c) vC idx hv h1

end Cert.KernelIdeal.Host

end
-- ==== Proof.Bridge.lean ====
/-
  The kernel's form of the per-atom quantities is the reference's.

  All four quantities are sums over the same finite set: the update elements j that land on the element i of a row
  scatter. One fact is used about a member (e, c') of that set landing on (n, c): edge e's atom number, read signed, is
  n, which lies in [0, 99999]. So the number is not negative, counting negatives from the end leaves it as it is, it is
  a row number (the kernel's gather keeps the gathered row and does not fill), the row the edge gathers is n, and
  c' = c.

  Radial features: emb (n, c) · ∑ f (e, c) = ∑ f (e, c) · emb (row e, c), since row e = n on every landed edge and a real
  factor distributes over a finite sum of real terms; the same with the charge of row n. Vectors: on a landed edge the
  kernel's gathered row is the reference's, so the embedding vectors are the same terms; for the charge vectors the
  gathered charge q is the reference's and q · ∑ f (e, c) = ∑ f (e, c) · q with q and the terms real. Distributivity
  fails at the infinities of the extended reals, which is why the real-valuedness hypotheses are there.
-/
import proofs.«417935_j69415261438047_3_alg».proof.Proof.EdgeSpec

noncomputable section

open scoped BigOperators

namespace Cert.EdgeSpec

open Idealize.ShloMosaic Idealize.ShloMosaic.ValueIdx Cert.Lib.RowIndex

/-! ## Finite sums of real numbers inside the extended reals -/

/-- A finite sum of real numbers, each read as an extended real, is the real sum read as an extended real. -/
theorem coe_sum {ι : Type*} (s : Finset ι) (g : ι → ℝ) :
    ∑ j ∈ s, (g j : EReal) = ((∑ j ∈ s, g j : ℝ) : EReal) := by
  classical
  refine Finset.induction_on s ?_ ?_
  · simp
  · intro k s hk ih
    rw [Finset.sum_insert hk, Finset.sum_insert hk, ih, EReal.coe_add]

/-- A real factor distributes over a finite sum of real terms: a · ∑ g = ∑ g · a. (With an infinite factor or term
    this fails in the extended reals, where ⊤ + ⊥ = ⊥.) -/
theorem mul_sum_comm {ι : Type*} (s : Finset ι) (a : EReal) (g : ι → EReal) (ha : ∃ x : ℝ, a = (x : EReal))
    (hg : ∀ j, ∃ x : ℝ, g j = (x : EReal)) : a * ∑ j ∈ s, g j = ∑ j ∈ s, g j * a := by
  obtain ⟨a', rfl⟩ := ha
  choose g' hg' using hg
  have e1 : ∑ j ∈ s, g j = ((∑ j ∈ s, g' j : ℝ) : EReal) := by
    rw [← coe_sum]; exact Finset.sum_congr rfl (fun j _ => hg' j)
  have e2 : ∑ j ∈ s, g j * (a' : EReal) = ((∑ j ∈ s, g' j * a' : ℝ) : EReal) := by
    rw [← coe_sum]; exact Finset.sum_congr rfl (fun j _ => by rw [hg' j, EReal.coe_mul])
  rw [e1, e2, ← EReal.coe_mul, Finset.mul_sum]
  congr 1
  exact Finset.sum_congr rfl (fun j _ => mul_comm _ _)

/-! ## An update that lands -/

/-- A number that is not negative is left as it is by counting negatives from the end. -/
theorem wrap_of_nonneg (x : BitVec 32) (hx : 0 ≤ x.toInt) : wrap x = x := by
  unfold wrap
  rw [if_neg]
  intro h
  have hs : x.slt 0#32 = false := by
    unfold BitVec.slt
    rw [decide_eq_false_iff_not]
    have h0 : (0#32 : BitVec 32).toInt = 0 := by decide
    omega
  change BitVec.ofBool (x.slt 0#32) = 1#1 at h
  rw [hs] at h
  exact absurd h (by decide)

/-- An update element (e, c') that lands on the element (n, c): edge e's atom number, read signed, is n, so it is a
    row number as it stands (counting from the end changes nothing and the gather keeps the row), the row the edge
    gathers is n, and the columns agree. -/
theorem landed {C : Nat} {idx : IVec ⟨1, ![1600000]⟩ 32}
    (wf : ScatterDims.WF ⟨2, ![100000, C]⟩ ⟨2, ![1600000, 1]⟩ ⟨2, ![1600000, C]⟩ [1] [0] [0] 1)
    (e : Fin 1600000) (c' : Fin C) (n : Fin 100000) (c : Fin C)
    (h : (rowScatter 100000 1600000 C wf).resultIdx? (ix2 e c') (idxCol idx) = some (ix2 n c)) :
    inRange (wrap (idx (ix1 e))) ∧ row idx e = n ∧ c' = c := by
  obtain ⟨hn, hc⟩ := rowScatter_lands wf (idxCol idx) e c' n c h
  have hx : (idx (ix1 e)).toInt = (n.val : ℤ) := hn
  have hlt : n.val < 100000 := n.isLt
  have hw : wrap (idx (ix1 e)) = idx (ix1 e) := wrap_of_nonneg _ (by omega)
  refine ⟨?_, ?_, hc⟩
  · rw [hw]; exact ⟨by omega, by omega⟩
  · unfold row clampRow
    rw [hw]
    refine Fin.ext ?_
    show min (idx (ix1 e)).toInt.toNat 99999 = n.val
    omega

/-- Where the wrapped number is a row number the kernel's gathered embedding is the gathered row. -/
theorem embG_of_inRange {emb : (⟨2, ![100000, 64]⟩ : Shape).Idx → EReal} {idx : IVec ⟨1, ![1600000]⟩ 32}
    (e : Fin 1600000) (c : Fin 64) (h : inRange (wrap (idx (ix1 e)))) :
    embG emb idx (ix2 e c) = emb (ix2 (row idx e) c) := by
  unfold embG
  exact if_pos h

/-- Where the wrapped number is a row number the kernel's gathered charge is the gathered row's. -/
theorem chgG_of_inRange {chg : (⟨2, ![100000, 1]⟩ : Shape).Idx → EReal} {idx : IVec ⟨1, ![1600000]⟩ 32}
    (e : Fin 1600000) (h : inRange (wrap (idx (ix1 e)))) :
    chgG chg idx (ix2 e (0 : Fin 1)) = chg (ix2 (row idx e) (0 : Fin 1)) := by
  unfold chgG
  exact if_pos h

/-! ## The kernel's form is the reference's -/

variable {emb : (⟨2, ![100000, 64]⟩ : Shape).Idx → EReal} {chg : (⟨2, ![100000, 1]⟩ : Shape).Idx → EReal}
  {f : (⟨2, ![1600000, 64]⟩ : Shape).Idx → EReal} {r : (⟨2, ![1600000, 3]⟩ : Shape).Idx → EReal}
  {idx : IVec ⟨1, ![1600000]⟩ 32}
  {wf64 : ScatterDims.WF ⟨2, ![100000, 64]⟩ ⟨2, ![1600000, 1]⟩ ⟨2, ![1600000, 64]⟩ [1] [0] [0] 1}
  {wf3 : ScatterDims.WF ⟨2, ![100000, 3]⟩ ⟨2, ![1600000, 1]⟩ ⟨2, ![1600000, 3]⟩ [1] [0] [0] 1}

/-- The atoms' radial embedding features: emb (n, c) · ∑ f (e, c) over n's edges is ∑ f (e, c) · emb (row e, c),
    every landed edge's row being n; the factor and the terms are real. -/
theorem radE_bridge (hemb : ∀ i, ∃ x : ℝ, emb i = (x : EReal)) (hf : ∀ i, ∃ x : ℝ, f i = (x : EReal)) :
    radE_K emb f idx wf64 = radE_R emb f idx wf64 := by
  funext i
  unfold radE_K radE_R sumF scatRows
  rw [mul_sum_comm _ _ _ (hemb i) hf]
  refine Finset.sum_congr rfl (fun j hj => ?_)
  have hj' := (Finset.mem_filter.mp hj).2
  obtain ⟨e, c', rfl⟩ : ∃ (e : Fin 1600000) (c' : Fin 64), j = ix2 e c' := ⟨j 0, j 1, eq_ix2 j⟩
  obtain ⟨n, c, rfl⟩ : ∃ (n : Fin 100000) (c : Fin 64), i = ix2 n c := ⟨i 0, i 1, eq_ix2 i⟩
  obtain ⟨-, hrow, hcol⟩ := landed wf64 e c' n c hj'
  show f (ix2 e c') * emb (ix2 n c) = f (ix2 e c') * emb (ix2 (row idx e) c')
  rw [hrow, hcol]

/-- The atoms' radial charge features: the same with the charge of the atom's row (one column) as the factor. -/
theorem radC_bridge (hchg : ∀ i, ∃ x : ℝ, chg i = (x : EReal)) (hf : ∀ i, ∃ x : ℝ, f i = (x : EReal)) :
    radC_K chg f idx wf64 = radC_R chg f idx wf64 := by
  funext i
  unfold radC_K radC_R sumF scatRows
  rw [mul_sum_comm _ _ _ (hchg _) hf]
  refine Finset.sum_congr rfl (fun j hj => ?_)
  have hj' := (Finset.mem_filter.mp hj).2
  obtain ⟨e, c', rfl⟩ : ∃ (e : Fin 1600000) (c' : Fin 64), j = ix2 e c' := ⟨j 0, j 1, eq_ix2 j⟩
  obtain ⟨n, c, rfl⟩ : ∃ (n : Fin 100000) (c : Fin 64), i = ix2 n c := ⟨i 0, i 1, eq_ix2 i⟩
  obtain ⟨-, hrow, -⟩ := landed wf64 e c' n c hj'
  show f (ix2 e c') * chg (ix2 n (0 : Fin 1)) = f (ix2 e c') * chg (ix2 (row idx e) (0 : Fin 1))
  rw [hrow]

/-- The atoms' embedding vectors: a landed edge's number is a row number, so the kernel's gathered row is the
    reference's and the two edge vectors are the same terms. -/
theorem vaccE_bridge : vaccE_K emb f r idx wf3 = vaccE_R emb f r idx wf3 := by
  funext i
  unfold vaccE_K vaccE_R scatRows
  refine Finset.sum_congr rfl (fun j hj => ?_)
  have hj' := (Finset.mem_filter.mp hj).2
  obtain ⟨e, d', rfl⟩ : ∃ (e : Fin 1600000) (d' : Fin 3), j = ix2 e d' := ⟨j 0, j 1, eq_ix2 j⟩
  obtain ⟨n, d, rfl⟩ : ∃ (n : Fin 100000) (d : Fin 3), i = ix2 n d := ⟨i 0, i 1, eq_ix2 i⟩
  obtain ⟨hin, -, -⟩ := landed wf3 e d' n d hj'
  show r (ix2 e d') * ∑ c : Fin 64, f (ix2 e c) * embG emb idx (ix2 e c)
    = r (ix2 e d') * ∑ c : Fin 64, f (ix2 e c) * emb (ix2 (row idx e) c)
  congr 1
  exact Finset.sum_congr rfl (fun c _ => by rw [embG_of_inRange e c hin])

/-- The atoms' charge vectors: on a landed edge the gathered charge q is the reference's, and q · ∑ f (e, c) is
    ∑ f (e, c) · q, all of them real. -/
theorem vaccC_bridge (hchg : ∀ i, ∃ x : ℝ, chg i = (x : EReal)) (hf : ∀ i, ∃ x : ℝ, f i = (x : EReal)) :
    vaccC_K chg f r idx wf3 = vaccC_R chg f r idx wf3 := by
  funext i
  unfold vaccC_K vaccC_R scatRows
  refine Finset.sum_congr rfl (fun j hj => ?_)
  have hj' := (Finset.mem_filter.mp hj).2
  obtain ⟨e, d', rfl⟩ : ∃ (e : Fin 1600000) (d' : Fin 3), j = ix2 e d' := ⟨j 0, j 1, eq_ix2 j⟩
  obtain ⟨n, d, rfl⟩ : ∃ (n : Fin 100000) (d : Fin 3), i = ix2 n d := ⟨i 0, i 1, eq_ix2 i⟩
  obtain ⟨hin, -, -⟩ := landed wf3 e d' n d hj'
  show r (ix2 e d') * (chgG chg idx (ix2 e (0 : Fin 1)) * ∑ c : Fin 64, f (ix2 e c))
    = r (ix2 e d') * ∑ c : Fin 64, f (ix2 e c) * chg (ix2 (row idx e) (0 : Fin 1))
  rw [chgG_of_inRange e hin, mul_sum_comm _ _ _ (hchg _) (fun c => hf _)]

end Cert.EdgeSpec

end
-- ==== Proof.FinalSpec.lean ====
/-
  The two result arrays as one function of the four per-atom arrays (radial embedding features, accumulated embedding
  vectors, radial charge features, accumulated charge vectors) and the six layers' weights and biases: atom n's message
  row, the shared trunk on it, then the embedding head (64 outputs) or the charge head (one output).
-/
import proofs.«417935_j69415261438047_3_alg».proof.Proof.Spec

noncomputable section

namespace Cert.FinalSpec

open Idealize.ShloMosaic Idealize.ShloMosaic.ValueIdx

variable (re : (⟨2, ![100000, 64]⟩ : Shape).Idx → EReal) (ve : (⟨2, ![100000, 3]⟩ : Shape).Idx → EReal)
  (rc : (⟨2, ![100000, 64]⟩ : Shape).Idx → EReal) (vc : (⟨2, ![100000, 3]⟩ : Shape).Idx → EReal)
  (W1 : (⟨2, ![130, 128]⟩ : Shape).Idx → EReal) (b1 : (⟨1, ![128]⟩ : Shape).Idx → EReal)
  (W2 : (⟨2, ![128, 64]⟩ : Shape).Idx → EReal) (b2 : (⟨1, ![64]⟩ : Shape).Idx → EReal)

/-- Atom n's message row. -/
def msgOf (n : Fin 100000) : Fin 130 → EReal :=
  Cert.Spec.msgRow (fun k => re (ix2 n k)) (Cert.Spec.vnorm fun d => ve (ix2 n d)) (fun k => rc (ix2 n k))
    (Cert.Spec.vnorm fun d => vc (ix2 n d))

/-- Atom n's hidden row. -/
def hiddenOf (n : Fin 100000) : Fin 64 → EReal := Cert.Spec.hidden (msgOf re ve rc vc n) W1 b1 W2 b2

/-- The embedding update. -/
def outA (Wa1 : (⟨2, ![64, 32]⟩ : Shape).Idx → EReal) (ba1 : (⟨1, ![32]⟩ : Shape).Idx → EReal)
    (Wa2 : (⟨2, ![32, 64]⟩ : Shape).Idx → EReal) (ba2 : (⟨1, ![64]⟩ : Shape).Idx → EReal) :
    (⟨2, ![100000, 64]⟩ : Shape).Idx → EReal :=
  fun i => Cert.Spec.headA (hiddenOf re ve rc vc W1 b1 W2 b2 (i 0)) Wa1 ba1 Wa2 ba2 (i 1)

/-- The charge update. -/
def outQ (Wq1 : (⟨2, ![64, 32]⟩ : Shape).Idx → EReal) (bq1 : (⟨1, ![32]⟩ : Shape).Idx → EReal)
    (Wq2 : (⟨2, ![32, 1]⟩ : Shape).Idx → EReal) (bq2 : (⟨1, ![1]⟩ : Shape).Idx → EReal) :
    (⟨2, ![100000, 1]⟩ : Shape).Idx → EReal :=
  fun i => Cert.Spec.headQ (hiddenOf re ve rc vc W1 b1 W2 b2 (i 0)) Wq1 bq1 Wq2 bq2 (i 1)

end Cert.FinalSpec

end
-- ==== Proof.KValue.lean ====
/-
  The kernel program's two result arrays as functions of its launch memory.

  The first region leaves each edge's embedding and charge vector; the host code between the regions scatters them, and
  the radial features, onto the atoms; the second region applies the dense layers to each atom's message row. Under the
  precondition (the embeddings, charges and radial features are real numbers) the kernel's form of the four per-atom
  arrays equals the reference's form, so the results are stated over the reference's form.
-/
import proofs.«417935_j69415261438047_3_alg».proof.Proof.KRun
import proofs.«417935_j69415261438047_3_alg».proof.Proof.KArrays
import proofs.«417935_j69415261438047_3_alg».proof.Proof.KHostTake
import proofs.«417935_j69415261438047_3_alg».proof.Proof.KHostArgs
import proofs.«417935_j69415261438047_3_alg».proof.Proof.KHostScatter
import proofs.«417935_j69415261438047_3_alg».proof.Proof.Bridge
import proofs.«417935_j69415261438047_3_alg».proof.Proof.FinalSpec

set_option maxRecDepth 16384

noncomputable section

namespace Cert.KernelIdeal.Host

open Idealize.ShloMosaic Idealize.ShloMosaic.ValueIdx Idealize.ShloMosaic.TcCoe Idealize.SL.Sem Cert.KernelIdeal Cert.KernelIdeal.Gen
open Cert.EdgeSpec

variable (m : (ℓ : Loc nD τ sig) → Buf (Elt Ideal) ℓ) (ρ : Dev nD → PrngReg)

/-- The weights and biases of the launch memory, at their literal types. -/
abbrev w1M (c : Dev nD) : FVec Ideal S130x128 .f32 := m ((c : Thread nD τ).loc main_arg5)
abbrev b1M (c : Dev nD) : FVec Ideal S128 .f32 := m ((c : Thread nD τ).loc main_arg6)
abbrev w2M (c : Dev nD) : FVec Ideal S128x64 .f32 := m ((c : Thread nD τ).loc main_arg7)
abbrev b2M (c : Dev nD) : FVec Ideal S64 .f32 := m ((c : Thread nD τ).loc main_arg8)
abbrev wa1M (c : Dev nD) : FVec Ideal S64x32 .f32 := m ((c : Thread nD τ).loc main_arg9)
abbrev ba1M (c : Dev nD) : FVec Ideal S32 .f32 := m ((c : Thread nD τ).loc main_arg10)
abbrev wa2M (c : Dev nD) : FVec Ideal S32x64 .f32 := m ((c : Thread nD τ).loc main_arg11)
abbrev ba2M (c : Dev nD) : FVec Ideal S64 .f32 := m ((c : Thread nD τ).loc main_arg12)
abbrev wq1M (c : Dev nD) : FVec Ideal S64x32 .f32 := m ((c : Thread nD τ).loc main_arg13)
abbrev bq1M (c : Dev nD) : FVec Ideal S32 .f32 := m ((c : Thread nD τ).loc main_arg14)
abbrev wq2M (c : Dev nD) : FVec Ideal S32x1 .f32 := m ((c : Thread nD τ).loc main_arg15)
abbrev bq2M (c : Dev nD) : FVec Ideal S1 .f32 := m ((c : Thread nD τ).loc main_arg16)

/-- The edges' embedding vectors at the first region's exit. -/
theorem W4_vecE (c : Dev nD) :
    W4 m ρ c (Proc.devRef .tc main_v4_0) = vecE_K (embM m c) (fM m c) (rM m c) (idxM m c) := by
  refine (W4_arr m ρ c 4).trans ((Arrays.edgeVecE_array (V3 m ρ) c).trans ?_)
  have hr : Arrays.rArr (V3 m ρ) c = rM m c := W3_arg4 m ρ c
  have hf : Arrays.fArr (V3 m ρ) c = fM m c := W3_arg3 m ρ c
  have hg : Arrays.gArr (V3 m ρ) c = embG (embM m c) (idxM m c) := W3_v2 m ρ c
  unfold Arrays.edgeVecE vecE_K
  rw [hr, hf, hg]
  all_goals rfl

/-- The edges' charge vectors at the first region's exit. -/
theorem W4_vecC (c : Dev nD) :
    W4 m ρ c (Proc.devRef .tc main_v4_1) = vecC_K (chgM m c) (fM m c) (rM m c) (idxM m c) := by
  refine (W4_arr m ρ c 5).trans ((Arrays.edgeVecC_array (V3 m ρ) c).trans ?_)
  have hr : Arrays.rArr (V3 m ρ) c = rM m c := W3_arg4 m ρ c
  have hf : Arrays.fArr (V3 m ρ) c = fM m c := W3_arg3 m ρ c
  have hq : Arrays.qArr (V3 m ρ) c = chgG (chgM m c) (idxM m c) := W3_v3 m ρ c
  unfold Arrays.edgeVecC vecC_K
  rw [hr, hf, hq]
  all_goals rfl

theorem W4_idx (c : Dev nD) : W4 m ρ c (Proc.devRef .tc main_v1) = idxM m c := (W4_v1 m ρ c).trans (W3_v1 m ρ c)

/-- The four per-atom arrays at the second region's entry, in the kernel's form. -/
theorem V5_re (c : Dev nD) : Arrays.reArr (V5 m ρ) c = radE_K (embM m c) (fM m c) (idxM m c) kwf64 :=
  W5_v8_of m ρ c (embM m c) (fM m c) (idxM m c) (W4_arg0 m ρ c) (W4_arg3 m ρ c) (W4_idx m ρ c)
theorem V5_rc (c : Dev nD) : Arrays.rcArr (V5 m ρ) c = radC_K (chgM m c) (fM m c) (idxM m c) kwf64 :=
  W5_v10_of m ρ c (chgM m c) (fM m c) (idxM m c) (W4_arg1 m ρ c) (W4_arg3 m ρ c) (W4_idx m ρ c)
theorem V5_ve (c : Dev nD) : Arrays.veArr (V5 m ρ) c = vaccE_K (embM m c) (fM m c) (rM m c) (idxM m c) kwf3 :=
  W5_v13_of m ρ c _ (idxM m c) (W4_vecE m ρ c) (W4_idx m ρ c)
theorem V5_vc (c : Dev nD) : Arrays.vcArr (V5 m ρ) c = vaccC_K (chgM m c) (fM m c) (rM m c) (idxM m c) kwf3 :=
  W5_v16_of m ρ c _ (idxM m c) (W4_vecC m ρ c) (W4_idx m ρ c)

variable (hemb : ∀ c i, ∃ x : ℝ, embM m c i = (x : EReal)) (hchg : ∀ c i, ∃ x : ℝ, chgM m c i = (x : EReal))
  (hf : ∀ c i, ∃ x : ℝ, fM m c i = (x : EReal))

include hemb hchg hf in
/-- THE EMBEDDING UPDATE the kernel program returns. -/
theorem result_A (c : Dev nD) :
    W6 m ρ c (Proc.devRef .tc main_v17_0)
      = Cert.FinalSpec.outA (radE_R (embM m c) (fM m c) (idxM m c) kwf64) (vaccE_R (embM m c) (fM m c) (rM m c) (idxM m c) kwf3)
          (radC_R (chgM m c) (fM m c) (idxM m c) kwf64) (vaccC_R (chgM m c) (fM m c) (rM m c) (idxM m c) kwf3)
          (w1M m c) (b1M m c) (w2M m c) (b2M m c) (wa1M m c) (ba1M m c) (wa2M m c) (ba2M m c) := by
  refine (W6_arr m ρ c 16).trans ((Arrays.deltaA_array (V5 m ρ) c).trans ?_)
  have e1 : Arrays.w1Arr (V5 m ρ) c = w1M m c := W5_arg5 m ρ c
  have e2 : Arrays.b1Arr (V5 m ρ) c = b1M m c := W5_arg6 m ρ c
  have e3 : Arrays.w2Arr (V5 m ρ) c = w2M m c := W5_arg7 m ρ c
  have e4 : Arrays.b2Arr (V5 m ρ) c = b2M m c := W5_arg8 m ρ c
  have e5 : Arrays.wa1Arr (V5 m ρ) c = wa1M m c := W5_arg9 m ρ c
  have e6 : Arrays.ba1Arr (V5 m ρ) c = ba1M m c := W5_arg10 m ρ c
  have e7 : Arrays.wa2Arr (V5 m ρ) c = wa2M m c := W5_arg11 m ρ c
  have e8 : Arrays.ba2Arr (V5 m ρ) c = ba2M m c := W5_arg12 m ρ c
  unfold Arrays.deltaA Arrays.atomHidden Arrays.atomMsg Cert.FinalSpec.outA Cert.FinalSpec.hiddenOf Cert.FinalSpec.msgOf
  rw [e1, e2, e3, e4, e5, e6, e7, e8, V5_re, V5_ve, V5_rc, V5_vc,
    radE_bridge (hemb c) (hf c), vaccE_bridge, radC_bridge (hchg c) (hf c), vaccC_bridge (hchg c) (hf c)]
  all_goals rfl

include hemb hchg hf in
/-- THE CHARGE UPDATE the kernel program returns. -/
theorem result_Q (c : Dev nD) :
    W6 m ρ c (Proc.devRef .tc main_v17_1)
      = Cert.FinalSpec.outQ (radE_R (embM m c) (fM m c) (idxM m c) kwf64) (vaccE_R (embM m c) (fM m c) (rM m c) (idxM m c) kwf3)
          (radC_R (chgM m c) (fM m c) (idxM m c) kwf64) (vaccC_R (chgM m c) (fM m c) (rM m c) (idxM m c) kwf3)
          (w1M m c) (b1M m c) (w2M m c) (b2M m c) (wq1M m c) (bq1M m c) (wq2M m c) (bq2M m c) := by
  refine (W6_arr m ρ c 17).trans ((Arrays.deltaQ_array (V5 m ρ) c).trans ?_)
  have e1 : Arrays.w1Arr (V5 m ρ) c = w1M m c := W5_arg5 m ρ c
  have e2 : Arrays.b1Arr (V5 m ρ) c = b1M m c := W5_arg6 m ρ c
  have e3 : Arrays.w2Arr (V5 m ρ) c = w2M m c := W5_arg7 m ρ c
  have e4 : Arrays.b2Arr (V5 m ρ) c = b2M m c := W5_arg8 m ρ c
  have e5 : Arrays.wq1Arr (V5 m ρ) c = wq1M m c := W5_arg13 m ρ c
  have e6 : Arrays.bq1Arr (V5 m ρ) c = bq1M m c := W5_arg14 m ρ c
  have e7 : Arrays.wq2Arr (V5 m ρ) c = wq2M m c := W5_arg15 m ρ c
  have e8 : Arrays.bq2Arr (V5 m ρ) c = bq2M m c := W5_arg16 m ρ c
  unfold Arrays.deltaQ Arrays.atomHidden Arrays.atomMsg Cert.FinalSpec.outQ Cert.FinalSpec.hiddenOf Cert.FinalSpec.msgOf
  rw [e1, e2, e3, e4, e5, e6, e7, e8, V5_re, V5_ve, V5_rc, V5_vc,
    radE_bridge (hemb c) (hf c), vaccE_bridge, radC_bridge (hchg c) (hf c), vaccC_bridge (hchg c) (hf c)]
  all_goals rfl

end Cert.KernelIdeal.Host

end
-- ==== Proof.RValue.lean ====
/-
  The reference program's two result arrays read at an index, at the ideal values (floats are extended reals, every
  operation exact).

  The generated run states each result as a composed term of the arguments' launch contents. Read at atom n, the trunk's
  first layer is the specification's dense layer on the atom's message row (the concatenation of the radial embedding
  features, the length of the accumulated embedding vector, the radial charge features and the length of the accumulated
  charge vector), the activation is the specification's GELU (the reference's cube x² · x is x · x²), and each further
  layer is a dense layer on the previous one's row. The gather and scatter part of the program stays behind its names.
-/
import proofs.«417935_j69415261438047_3_alg».proof.Proof.Gen.ReferenceIdeal.Run
import proofs.«417935_j69415261438047_3_alg».proof.Proof.Spec
import proofs.«417935_j69415261438047_3_alg».proof.Proof.LibPlainDot
import Idealize.ShloMosaic.Lib.Pipeline.Value

noncomputable section

namespace Cert.ReferenceIdeal.RefValue
open Idealize.ShloMosaic Idealize.ShloMosaic.ValueIdx Idealize.SL.Sem Cert.ReferenceIdeal Cert.ReferenceIdeal.Gen Cert.ReferenceIdeal.Value

/-! ## The host operations read at an index -/

/-- A broadcast read at an index: the operand at any index whose coordinates are the ones the broadcast reads (the
    result's coordinate on the mapped axis, or 0 on an operand axis of extent one). -/
theorem bcast_apply_of {α : Type} {s t : Shape} (dims : Fin s.rank → Fin t.rank) (h : s.BroadcastsInDim t dims)
    (x : s.Idx → α) (j : t.Idx) (i : s.Idx)
    (hi : ∀ a, (i a).val = if s.size a = 1 then 0 else (j (dims a)).val) : broadcastInDim t dims h x j = x i := by
  unfold broadcastInDim
  congr 1
  funext a
  apply Fin.ext
  rw [hi a]
  split <;> rfl

/-- A row vector laid along the second axis of a rectangle, through a one-row intermediate, reads the vector at the
    column. -/
theorem bias_apply {α : Type} {M N : Nat} (h1 : (⟨1, ![N]⟩ : Shape).BroadcastsInDim ⟨2, ![1, N]⟩ ![1])
    (h2 : (⟨2, ![1, N]⟩ : Shape).BroadcastsInDim ⟨2, ![M, N]⟩ ![0, 1]) (b : (⟨1, ![N]⟩ : Shape).Idx → α)
    (r : Fin M) (c : Fin N) :
    broadcastInDim ⟨2, ![M, N]⟩ ![0, 1] h2 (broadcastInDim ⟨2, ![1, N]⟩ ![1] h1 b) (ix2 r c) = b (ix1 c) := by
  have hc := c.isLt
  refine (bcast_apply_of _ h2 _ (ix2 r c) (ix2 (0 : Fin 1) c) fun a => ?_).trans
    (bcast_apply_of _ h1 b (ix2 (0 : Fin 1) c) (ix1 c) fun a => ?_)
  · match a with
    | ⟨0, _⟩ => rfl
    | ⟨1, _⟩ =>
      show c.val = if N = 1 then 0 else c.val
      split <;> omega
  · match a with
    | ⟨0, _⟩ =>
      show c.val = if N = 1 then 0 else c.val
      split <;> omega

/-- A vector laid down the rows of a one-column rectangle reads the vector at the row. -/
theorem col_apply {α : Type} {M : Nat} (h : (⟨1, ![M]⟩ : Shape).BroadcastsInDim ⟨2, ![M, 1]⟩ ![0])
    (v : (⟨1, ![M]⟩ : Shape).Idx → α) (r : Fin M) (z : Fin 1) :
    broadcastInDim ⟨2, ![M, 1]⟩ ![0] h v (ix2 r z) = v (ix1 r) := by
  have hr := r.isLt
  refine bcast_apply_of _ h v (ix2 r z) (ix1 r) fun a => ?_
  match a with
  | ⟨0, _⟩ =>
    show r.val = if M = 1 then 0 else r.val
    split <;> omega

/-- The tanh form of GELU as the reference writes it on a whole array (the cube as x² · x, each constant a broadcast
    scalar), read at an index: the specification's GELU of the element. -/
theorem gelu_apply {t : Shape} (h : S_.BroadcastsInDim t ![]) (x : FVec Ideal t .f32) (i : t.Idx) :
    mulf x (mulf (broadcastInDim t ![] h (constant (F := Ideal) S_ .f32 0x3F000000#32))
      (addf (broadcastInDim t ![] h (constant (F := Ideal) S_ .f32 0x3F800000#32))
        (Host.tanh (mulf (broadcastInDim t ![] h (constant (F := Ideal) S_ .f32 0x3F4C422A#32))
          (addf x (mulf (broadcastInDim t ![] h (constant (F := Ideal) S_ .f32 0x3D372713#32)) (mulf (mulf x x) x))))))) i
      = Cert.Spec.gelu (x i) := Cert.Spec.gelu_cube_comm (x i)

/-- A dense layer as the reference writes it on a whole array — the host's plain matrix product plus the bias laid along
    the rows — read at (r, c): the specification's dense layer on row r. -/
theorem dense_apply {M K N : Nat} (D : DotDims ⟨2, ![M, K]⟩ ⟨2, ![K, N]⟩ ⟨2, ![M, N]⟩) (hD : D = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1])
    (x : FVec Ideal ⟨2, ![M, K]⟩ .f32) (W : FVec Ideal ⟨2, ![K, N]⟩ .f32) (b : FVec Ideal ⟨1, ![N]⟩ .f32)
    (r : Fin M) (c : Fin N) :
    addf (Host.dotGeneral D none x W) (broadcastInDim ⟨2, ![M, N]⟩ ![0, 1] h2 (broadcastInDim ⟨2, ![1, N]⟩ ![1] h1 b)) (ix2 r c)
      = Cert.Spec.dense (fun k => x (ix2 r k)) W b c := by
  subst hD
  rw [addf_apply, bias_apply]
  simp only [Host.dotGeneral]
  rw [Cert.Lib.PlainDot.dotGeneral_plain_ix2]
  rfl

theorem reduces_rows3 : S100000x3.Reduces [1] S100000 := by decide

/-- The length of an atom's accumulated 3-vector as the reference computes it — the square root of the host's sum of the
    squares along the second axis, laid out as a one-column rectangle — is the specification's Euclidean length of the
    atom's row. -/
theorem vnorm_apply (hb : S100000.BroadcastsInDim S100000x1 ![0]) (hR : S100000x3.ReducesTo [1] S100000) (hu : 0 < S_.numel)
    (v : FVec Ideal S100000x3 .f32) (n : Fin 100000) (z : Fin 1) :
    broadcastInDim S100000x1 ![0] hb
        (Host.sqrt (Host.reduceAdd (mulf v v) (constant (F := Ideal) S_ .f32 0x00000000#32) hR hu)) (ix2 n z)
      = Cert.Spec.vnorm (fun d => v (ix2 n d)) := by
  rw [col_apply]
  simp only [Host.sqrt, Host.reduceAdd]
  rw [Ideal.hostUnary_sqrt_def, Ideal.hostReduceAdd_def, Ideal.hostReduceAdd_single hR reduces_rows3]
  rw [constant_apply, Ideal.ofBits_zero_f32, zero_add]
  unfold Cert.Spec.vnorm
  refine congrArg Ideal.sqrt (Finset.sum_congr rfl fun k _ => ?_)
  have e : reduces_rows3.lift (ix1 n) k = ix2 n k :=
    funext fun a => Fin.ext (by match a with | ⟨0, _⟩ => rfl | ⟨1, _⟩ => rfl)
  rw [mulf_apply, e]
  rfl

/-- The four-piece concatenation along the second axis, read at an index: the message row of the pieces' rows. -/
theorem concat4_apply (hC : Shape.Concatenates [S100000x64, S100000x1, S100000x64, S100000x1] S100000x130 1)
    (a : S100000x64.Idx → EReal) (b : S100000x1.Idx → EReal) (c : S100000x64.Idx → EReal) (d : S100000x1.Idx → EReal)
    (n : Fin 100000) (k : Fin 130) :
    concatenate S100000x130 1 [⟨S100000x64, a⟩, ⟨S100000x1, b⟩, ⟨S100000x64, c⟩, ⟨S100000x1, d⟩] hC (ix2 n k)
      = Cert.Spec.msgRow (fun k => a (ix2 n k)) (b (ix2 n 0)) (fun k => c (ix2 n k)) (d (ix2 n 0)) k := by
  have hk := k.isLt
  unfold Cert.Spec.msgRow
  split
  · next h0 =>
    refine concatenate_apply_piece 1 [⟨S100000x64, a⟩, ⟨S100000x1, b⟩, ⟨S100000x64, c⟩, ⟨S100000x1, d⟩] hC (ix2 n k) 0 (by show (0 : Nat) < 4; omega) S100000x64 a rfl rfl 0 rfl (ix2 n ⟨k.val, h0⟩) ?_ ?_
    · intro b hb
      match b with
      | ⟨0, _⟩ => rfl
      | ⟨1, _⟩ => exact absurd rfl hb
    · show 0 + k.val = k.val
      omega
  · next h0 =>
    split
    · next h1 =>
      refine concatenate_apply_piece 1 [⟨S100000x64, a⟩, ⟨S100000x1, b⟩, ⟨S100000x64, c⟩, ⟨S100000x1, d⟩] hC (ix2 n k) 1 (by show (1 : Nat) < 4; omega) S100000x1 b rfl rfl 64 rfl (ix2 n 0) ?_ ?_
      · intro b hb
        match b with
        | ⟨0, _⟩ => rfl
        | ⟨1, _⟩ => exact absurd rfl hb
      · show 64 + 0 = k.val
        omega
    · next h1 =>
      split
      · next h2 =>
        refine concatenate_apply_piece 1 [⟨S100000x64, a⟩, ⟨S100000x1, b⟩, ⟨S100000x64, c⟩, ⟨S100000x1, d⟩] hC (ix2 n k) 2 (by show (2 : Nat) < 4; omega) S100000x64 c rfl rfl 65 rfl
          (ix2 n ⟨k.val - 65, by omega⟩) ?_ ?_
        · intro b hb
          match b with
          | ⟨0, _⟩ => rfl
          | ⟨1, _⟩ => exact absurd rfl hb
        · show 65 + (k.val - 65) = k.val
          omega
      · next h2 =>
        refine concatenate_apply_piece 1 [⟨S100000x64, a⟩, ⟨S100000x1, b⟩, ⟨S100000x64, c⟩, ⟨S100000x1, d⟩] hC (ix2 n k) 3 (by show (3 : Nat) < 4; omega) S100000x1 d rfl rfl 129 rfl (ix2 n 0) ?_ ?_
        · intro b hb
          match b with
          | ⟨0, _⟩ => rfl
          | ⟨1, _⟩ => exact absurd rfl hb
        · show 129 + 0 = k.val
          omega

/-! ## The reference's terms -/

variable (V0 : Valuation τ sig (Elt Ideal))

/-- An argument array of the valuation at its literal type. -/
abbrev argW1 : FVec Ideal S130x128 .f32 := V0 (Proc.devRef .tc main_arg5)
abbrev argB1 : FVec Ideal S128 .f32 := V0 (Proc.devRef .tc main_arg6)
abbrev argW2 : FVec Ideal S128x64 .f32 := V0 (Proc.devRef .tc main_arg7)
abbrev argB2 : FVec Ideal S64 .f32 := V0 (Proc.devRef .tc main_arg8)
abbrev argWa1 : FVec Ideal S64x32 .f32 := V0 (Proc.devRef .tc main_arg9)
abbrev argBa1 : FVec Ideal S32 .f32 := V0 (Proc.devRef .tc main_arg10)
abbrev argWa2 : FVec Ideal S32x64 .f32 := V0 (Proc.devRef .tc main_arg11)
abbrev argBa2 : FVec Ideal S64 .f32 := V0 (Proc.devRef .tc main_arg12)
abbrev argWq1 : FVec Ideal S64x32 .f32 := V0 (Proc.devRef .tc main_arg13)
abbrev argBq1 : FVec Ideal S32 .f32 := V0 (Proc.devRef .tc main_arg14)
abbrev argWq2 : FVec Ideal S32x1 .f32 := V0 (Proc.devRef .tc main_arg15)
abbrev argBq2 : FVec Ideal S1 .f32 := V0 (Proc.devRef .tc main_arg16)

/-- The atoms' radial embedding features: the scatter-add of the per-edge products. -/
def radE : FVec Ideal S100000x64 .f32 :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (res_main_v1 V0)) (res_main_v9 V0)
/-- The atoms' radial charge features. -/
def radC : FVec Ideal S100000x64 .f32 :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (res_main_v1 V0)) (res_main_v31 V0)

/-- Atom n's message row in the reference. -/
abbrev refMsg (n : Fin 100000) : Fin 130 → EReal :=
  Cert.Spec.msgRow (fun k => radE V0 (ix2 n k)) (Cert.Spec.vnorm fun d => (res_main_v19 V0 : FVec Ideal S100000x3 .f32) (ix2 n d))
    (fun k => radC V0 (ix2 n k)) (Cert.Spec.vnorm fun d => (res_main_v41 V0 : FVec Ideal S100000x3 .f32) (ix2 n d))

/-- The two result terms of the generated run, as functions of the valuation. -/
def outA : FVec Ideal S100000x64 .f32 :=
  addf (Host.dotGeneral (φ₂ := .f32) dot_S100000x32_S32x64_S100000x64_1_0_0_1_n_n none (mulf (res_main_v85 V0) (mulf (broadcastInDim S100000x32 ![] bcast_S_S100000x32 (constant S_ .f32 0x3F000000#32)) (addf (broadcastInDim S100000x32 ![] bcast_S_S100000x32 (constant S_ .f32 0x3F800000#32)) (Host.tanh (mulf (broadcastInDim S100000x32 ![] bcast_S_S100000x32 (constant S_ .f32 0x3F4C422A#32)) (addf (res_main_v85 V0) (mulf (broadcastInDim S100000x32 ![] bcast_S_S100000x32 (constant S_ .f32 0x3D372713#32)) (mulf (mulf (res_main_v85 V0) (res_main_v85 V0)) (res_main_v85 V0))))))))) (V0 (Proc.devRef .tc main_arg11))) (broadcastInDim S100000x64 ![0, 1] bcast_S1x64_S100000x64_0_1 (broadcastInDim S1x64 ![1] bcast_S64_S1x64_1 (V0 (Proc.devRef .tc main_arg12))))
def outQ : FVec Ideal S100000x1 .f32 :=
  addf (Host.dotGeneral (φ₂ := .f32) dot_S100000x32_S32x1_S100000x1_1_0_0_1_n_n none (mulf (res_main_v106 V0) (mulf (broadcastInDim S100000x32 ![] bcast_S_S100000x32 (constant S_ .f32 0x3F000000#32)) (addf (broadcastInDim S100000x32 ![] bcast_S_S100000x32 (constant S_ .f32 0x3F800000#32)) (Host.tanh (mulf (broadcastInDim S100000x32 ![] bcast_S_S100000x32 (constant S_ .f32 0x3F4C422A#32)) (addf (res_main_v106 V0) (mulf (broadcastInDim S100000x32 ![] bcast_S_S100000x32 (constant S_ .f32 0x3D372713#32)) (mulf (mulf (res_main_v106 V0) (res_main_v106 V0)) (res_main_v106 V0))))))))) (V0 (Proc.devRef .tc main_arg15))) (broadcastInDim S100000x1 ![0, 1] bcast_S1x1_S100000x1_0_1 (broadcastInDim S1x1 ![1] bcast_S1_S1x1_1 (V0 (Proc.devRef .tc main_arg16))))

/-- The generated run with its two result terms named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v102) = outA (StableHlo.launchContents m c)
      ∧ r.2.mem ((c.tc : Thread nD τ).loc main_v123) = outQ (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  Cert.ReferenceIdeal.Value.run (F := Ideal) m ρ

/-! ## Layer by layer -/

/-- The trunk's first layer before its activation, at atom n: the dense layer on the atom's message row. -/
theorem v51_apply (n : Fin 100000) (k : Fin 128) :
    (res_main_v51 V0 : FVec Ideal S100000x128 .f32) (ix2 n k) = Cert.Spec.dense (refMsg V0 n) (argW1 V0) (argB1 V0) k := by
  unfold res_main_v51
  refine (dense_apply dot_S100000x130_S130x128_S100000x128_1_0_0_1_n_n rfl bcast_S128_S1x128_1 bcast_S1x128_S100000x128_0_1
    _ _ _ n k).trans ?_
  refine congrArg (fun msg => Cert.Spec.dense msg (argW1 V0) (argB1 V0) k) (funext fun j => ?_)
  refine (concat4_apply _ _ _ _ _ n j).trans ?_
  rw [vnorm_apply, vnorm_apply]
  rfl

/-- The trunk's second layer before its activation. -/
theorem v68_apply (n : Fin 100000) (k : Fin 64) :
    (res_main_v68 V0 : FVec Ideal S100000x64 .f32) (ix2 n k)
      = Cert.Spec.dense (fun j => Cert.Spec.gelu (Cert.Spec.dense (refMsg V0 n) (argW1 V0) (argB1 V0) j)) (argW2 V0) (argB2 V0) k := by
  unfold res_main_v68
  refine (dense_apply dot_S100000x128_S128x64_S100000x64_1_0_0_1_n_n rfl bcast_S64_S1x64_1 bcast_S1x64_S100000x64_0_1
    _ _ _ n k).trans ?_
  exact congrArg (fun x => Cert.Spec.dense x (argW2 V0) (argB2 V0) k)
    (funext fun j => (gelu_apply _ _ _).trans (congrArg Cert.Spec.gelu (v51_apply V0 n j)))

/-- The trunk's output at atom n. -/
theorem v81_apply (n : Fin 100000) (k : Fin 64) :
    (res_main_v81 V0 : FVec Ideal S100000x64 .f32) (ix2 n k)
      = Cert.Spec.hidden (refMsg V0 n) (argW1 V0) (argB1 V0) (argW2 V0) (argB2 V0) k := by
  unfold res_main_v81
  exact (gelu_apply _ _ _).trans (congrArg Cert.Spec.gelu (v68_apply V0 n k))

/-- The embedding head's first layer before its activation. -/
theorem v85_apply (n : Fin 100000) (k : Fin 32) :
    (res_main_v85 V0 : FVec Ideal S100000x32 .f32) (ix2 n k)
      = Cert.Spec.dense (Cert.Spec.hidden (refMsg V0 n) (argW1 V0) (argB1 V0) (argW2 V0) (argB2 V0)) (argWa1 V0) (argBa1 V0) k := by
  unfold res_main_v85
  refine (dense_apply dot_S100000x64_S64x32_S100000x32_1_0_0_1_n_n rfl bcast_S32_S1x32_1 bcast_S1x32_S100000x32_0_1
    _ _ _ n k).trans ?_
  exact congrArg (fun x => Cert.Spec.dense x (argWa1 V0) (argBa1 V0) k) (funext fun j => v81_apply V0 n j)

/-- The charge head's first layer before its activation. -/
theorem v106_apply (n : Fin 100000) (k : Fin 32) :
    (res_main_v106 V0 : FVec Ideal S100000x32 .f32) (ix2 n k)
      = Cert.Spec.dense (Cert.Spec.hidden (refMsg V0 n) (argW1 V0) (argB1 V0) (argW2 V0) (argB2 V0)) (argWq1 V0) (argBq1 V0) k := by
  unfold res_main_v106
  refine (dense_apply dot_S100000x64_S64x32_S100000x32_1_0_0_1_n_n rfl bcast_S32_S1x32_1 bcast_S1x32_S100000x32_0_1
    _ _ _ n k).trans ?_
  exact congrArg (fun x => Cert.Spec.dense x (argWq1 V0) (argBq1 V0) k) (funext fun j => v81_apply V0 n j)

theorem outA_apply (n : Fin 100000) (j : Fin 64) :
    outA V0 (ix2 n j) = Cert.Spec.headA (Cert.Spec.hidden (refMsg V0 n) (argW1 V0) (argB1 V0) (argW2 V0) (argB2 V0)) (argWa1 V0) (argBa1 V0) (argWa2 V0) (argBa2 V0) j := by
  unfold outA
  refine (dense_apply dot_S100000x32_S32x64_S100000x64_1_0_0_1_n_n rfl bcast_S64_S1x64_1 bcast_S1x64_S100000x64_0_1
    _ _ _ n j).trans ?_
  exact congrArg (fun x => Cert.Spec.dense x (argWa2 V0) (argBa2 V0) j)
    (funext fun k => (gelu_apply _ _ _).trans (congrArg Cert.Spec.gelu (v85_apply V0 n k)))

theorem outQ_apply (n : Fin 100000) (j : Fin 1) :
    outQ V0 (ix2 n j) = Cert.Spec.headQ (Cert.Spec.hidden (refMsg V0 n) (argW1 V0) (argB1 V0) (argW2 V0) (argB2 V0)) (argWq1 V0) (argBq1 V0) (argWq2 V0) (argBq2 V0) j := by
  unfold outQ
  refine (dense_apply dot_S100000x32_S32x1_S100000x1_1_0_0_1_n_n rfl bcast_S1_S1x1_1 bcast_S1x1_S100000x1_0_1
    _ _ _ n j).trans ?_
  exact congrArg (fun x => Cert.Spec.dense x (argWq2 V0) (argBq2 V0) j)
    (funext fun k => (gelu_apply _ _ _).trans (congrArg Cert.Spec.gelu (v106_apply V0 n k)))

end Cert.ReferenceIdeal.RefValue

end
-- ==== Proof.RPre.lean ====
/-
  The reference's per-edge and per-atom terms before its dense layers, identified with the description of
  EdgeSpec.lean at the ideal values.

  The reference gathers each edge's atom row with the atom number wrapped (negative numbers counted from the end) and
  clamped into [0, 99999], multiplies by the edge's radial features (proto), sums proto along the 64 columns and
  multiplies by the edge's direction vector, and scatter-adds both the proto rows and the vectors into zeros at the
  edge's atom number read as it is. At the ideal values a scatter-add into zeros is the exact sum of the update rows
  that land on each element, a row sum from the zero initial value is the sum over the columns, and a broadcast reads
  its operand at the coordinates it keeps. So each term below is read at one symbolic index and is, coordinate by
  coordinate, the term of the description. The same with the charge (one column, stretched along the 64 columns) in
  place of the embedding.
-/
import proofs.«417935_j69415261438047_3_alg».proof.Proof.Gen.ReferenceIdeal.Run
import proofs.«417935_j69415261438047_3_alg».proof.Proof.EdgeSpec
import Idealize.ShloMosaic.Lib.StableHlo.Predicate
import Idealize.ShloMosaic.PureOps.Ideal.Laws
import Idealize.ShloMosaic.Lib.ValueIdx
import Idealize.ShloMosaic.Lib.Pipeline.Value

noncomputable section

namespace Cert.ReferenceIdeal.RefPre

open Idealize.ShloMosaic Idealize.ShloMosaic.ValueIdx Idealize.ShloMosaic.TcCoe Idealize.SL.Sem
  Cert.ReferenceIdeal Cert.ReferenceIdeal.Gen Cert.ReferenceIdeal.Value Cert.Lib.RowIndex

/-! ## Broadcasts, the wrapped atom number and the row sum, read at an index -/

/-- A vector as an [n, 1] column reads, at any index, the vector at the index's row. -/
theorem col_apply {α : Type} {n : Nat} (h : (⟨1, ![n]⟩ : Shape).BroadcastsInDim ⟨2, ![n, 1]⟩ ![0])
    (v : (⟨1, ![n]⟩ : Shape).Idx → α) (i : (⟨2, ![n, 1]⟩ : Shape).Idx) :
    broadcastInDim ⟨2, ![n, 1]⟩ ![0] h v i = v (ix1 (i 0)) := by
  simp only [broadcastInDim]
  congr 1
  funext a
  match a with
  | ⟨0, _⟩ =>
    apply Fin.ext
    have hp := (i 0).isLt
    split
    · next h1 => change n = 1 at h1; change (i 0).val < n at hp; show (0 : Nat) = (i 0).val; omega
    · rfl

/-- An [n, 1] column stretched to [n, m] reads, at (p, q), the column at (p, 0). -/
theorem ofcol_apply {α : Type} {n m : Nat} (h : (⟨2, ![n, 1]⟩ : Shape).BroadcastsInDim ⟨2, ![n, m]⟩ ![0, 1])
    (v : (⟨2, ![n, 1]⟩ : Shape).Idx → α) (i : (⟨2, ![n, m]⟩ : Shape).Idx) :
    broadcastInDim ⟨2, ![n, m]⟩ ![0, 1] h v i = v (ix2 (i 0) (0 : Fin 1)) := by
  simp only [broadcastInDim]
  congr 1
  funext a
  match a with
  | ⟨0, _⟩ =>
    apply Fin.ext
    have hp := (i 0).isLt
    split
    · next h1 => change n = 1 at h1; change (i 0).val < n at hp; show (0 : Nat) = (i 0).val; omega
    · rfl
  | ⟨1, _⟩ =>
    apply Fin.ext
    split
    · rfl
    · next h => exact absurd rfl h

/-- The zero constant stretched to any shape is the extended real 0 everywhere. -/
theorem zeros_apply {t : Shape} (h : (⟨0, ![]⟩ : Shape).BroadcastsInDim t ![]) (j : t.Idx) :
    broadcastInDim t ![] h (constant (F := Ideal) ⟨0, ![]⟩ .f32 0x00000000#32) j = (0 : EReal) := by
  show Ideal.ofBits .f32 0x00000000#32 = 0
  exact Ideal.ofBits_zero_f32

/-- The atom numbers with negatives counted from the end, read at an index: the select on "x < 0" between x + 100000 and x. -/
theorem wrapped_apply {s : Shape} (hb : (⟨0, ![]⟩ : Shape).BroadcastsInDim s ![]) (idx : IVec s 32) (j : s.Idx) :
    select (cmpi .slt idx (broadcastInDim s ![] hb (constantI ⟨0, ![]⟩ 32 0#32)))
      (addi idx (broadcastInDim s ![] hb (constantI ⟨0, ![]⟩ 32 100000#32))) idx j = Cert.EdgeSpec.wrap (idx j) := rfl

theorem red64 : (⟨2, ![1600000, 64]⟩ : Shape).Reduces [1] ⟨1, ![1600000]⟩ := by decide

/-- The index a row sum inserts column k into at row e is (e, k). -/
theorem lift64 (h : (⟨2, ![1600000, 64]⟩ : Shape).Reduces [1] ⟨1, ![1600000]⟩) (e : Fin 1600000) (k : Fin 64) :
    h.lift (ix1 e) k = ix2 e k := by
  funext a
  match a with
  | ⟨0, _⟩ => exact Fin.ext rfl
  | ⟨1, _⟩ => exact Fin.ext rfl

/-- The sum along the 64 columns from the zero initial value, read at row e. -/
theorem rowsum_apply (h' : (⟨2, ![1600000, 64]⟩ : Shape).ReducesTo [1] ⟨1, ![1600000]⟩) (hu : 0 < (⟨0, ![]⟩ : Shape).numel)
    (x : FVec Ideal ⟨2, ![1600000, 64]⟩ .f32) (e : Fin 1600000) :
    Host.reduceAdd (F := Ideal) x (constant (F := Ideal) ⟨0, ![]⟩ .f32 0x00000000#32) h' hu (ix1 e) = ∑ c : Fin 64, x (ix2 e c) := by
  show Ideal.hostReduceAdd h' x (Ideal.ofBits .f32 0x00000000#32) (ix1 e) = _
  rw [Ideal.hostReduceAdd_single h' red64, Ideal.ofBits_zero_f32, zero_add]
  exact Finset.sum_congr rfl fun k _ => congrArg x (lift64 red64 e k)

/-! ## The row gather at the wrapped numbers and the row scatter into zeros -/

/-- A gather of whole rows whose start-index column reads, at (e, 0), the wrapped atom number of edge e reads, at (e, c),
    the operand at edge e's row and column c. -/
theorem gatherRows_of {C : Nat}
    (wf : GatherDims.WF ⟨2, ![100000, C]⟩ ⟨2, ![1600000, 1]⟩ ⟨2, ![1600000, C]⟩ [1] [0] [] [0] [] 1 ![1, C])
    (x : (⟨2, ![100000, C]⟩ : Shape).Idx → EReal) (col : IVec ⟨2, ![1600000, 1]⟩ 32) (idx : IVec ⟨1, ![1600000]⟩ 32)
    (hcol : ∀ e : Fin 1600000, col (ix2 e (0 : Fin 1)) = Cert.EdgeSpec.wrap (idx (ix1 e))) (e : Fin 1600000) (c : Fin C) :
    Host.gather (rowGather 100000 1600000 C wf) x col (ix2 e c) = x (ix2 (Cert.EdgeSpec.row idx e) c) := by
  rw [rowGather_apply (by norm_num) wf]
  refine congrArg (fun r : Fin 100000 => x (ix2 r c)) (Fin.ext ?_)
  show min (col (ix2 e (0 : Fin 1))).toInt.toNat (100000 - 1) = min (Cert.EdgeSpec.wrap (idx (ix1 e))).toInt.toNat 99999
  rw [hcol e]

/-- The gather of whole rows at the wrapped atom numbers reads, at (e, c), the operand at edge e's row and column c. -/
theorem gatherRows_apply {C : Nat}
    (wf : GatherDims.WF ⟨2, ![100000, C]⟩ ⟨2, ![1600000, 1]⟩ ⟨2, ![1600000, C]⟩ [1] [0] [] [0] [] 1 ![1, C])
    (hc : (⟨1, ![1600000]⟩ : Shape).BroadcastsInDim ⟨2, ![1600000, 1]⟩ ![0])
    (hb : (⟨0, ![]⟩ : Shape).BroadcastsInDim ⟨1, ![1600000]⟩ ![])
    (x : (⟨2, ![100000, C]⟩ : Shape).Idx → EReal) (idx : IVec ⟨1, ![1600000]⟩ 32) (e : Fin 1600000) (c : Fin C) :
    Host.gather (rowGather 100000 1600000 C wf) x
        (broadcastInDim ⟨2, ![1600000, 1]⟩ ![0] hc
          (select (cmpi .slt idx (broadcastInDim ⟨1, ![1600000]⟩ ![] hb (constantI ⟨0, ![]⟩ 32 0#32)))
            (addi idx (broadcastInDim ⟨1, ![1600000]⟩ ![] hb (constantI ⟨0, ![]⟩ 32 100000#32))) idx)) (ix2 e c)
      = x (ix2 (Cert.EdgeSpec.row idx e) c) :=
  gatherRows_of wf x _ idx (fun e' => (col_apply hc _ (ix2 e' (0 : Fin 1))).trans (wrapped_apply hb idx (ix1 e'))) e c

/-- The host's accumulating scatter at the ideal values, read at an index: the operand there plus the sum of the updates that land there. -/
theorem scatterAdd_apply {s si su : Shape} {w : Nat} (d : ScatterDims s si su) (x : FVec Ideal s .f32) (idx : IVec si w)
    (upd : FVec Ideal su .f32) (i : s.Idx) :
    Host.scatterAdd d x idx upd i = x i + ∑ j ∈ Finset.univ.filter (fun j => d.resultIdx? j idx = some i), upd j := rfl

/-- A scatter-add of whole rows into zeros at the atom numbers is the sum of the update rows that land on each element. -/
theorem scatterRows_eq {C : Nat}
    (wf : ScatterDims.WF ⟨2, ![100000, C]⟩ ⟨2, ![1600000, 1]⟩ ⟨2, ![1600000, C]⟩ [1] [0] [0] 1)
    (hz : (⟨0, ![]⟩ : Shape).BroadcastsInDim ⟨2, ![100000, C]⟩ ![])
    (hc : (⟨1, ![1600000]⟩ : Shape).BroadcastsInDim ⟨2, ![1600000, 1]⟩ ![0])
    (idx : IVec ⟨1, ![1600000]⟩ 32) (upd : FVec Ideal ⟨2, ![1600000, C]⟩ .f32) :
    Host.scatterAdd (rowScatter 100000 1600000 C wf)
        (broadcastInDim ⟨2, ![100000, C]⟩ ![] hz (constant (F := Ideal) ⟨0, ![]⟩ .f32 0x00000000#32))
        (broadcastInDim ⟨2, ![1600000, 1]⟩ ![0] hc idx) upd
      = Cert.EdgeSpec.scatRows idx wf upd := by
  have hcol : broadcastInDim ⟨2, ![1600000, 1]⟩ ![0] hc idx = Cert.EdgeSpec.idxCol idx :=
    funext fun i => col_apply hc idx i
  rw [hcol]
  funext i
  rw [scatterAdd_apply, zeros_apply, zero_add]
  unfold Cert.EdgeSpec.scatRows
  with_reducible rfl

/-! ## The program's arrays -/

variable (V0 : Valuation τ sig (Elt Ideal))

abbrev embA : FVec Ideal S100000x64 .f32 := V0 (Proc.devRef .tc main_arg0)
abbrev chgA : FVec Ideal S100000x1 .f32 := V0 (Proc.devRef .tc main_arg1)
abbrev fA : FVec Ideal S1600000x64 .f32 := V0 (Proc.devRef .tc main_arg3)
abbrev rA : FVec Ideal S1600000x3 .f32 := V0 (Proc.devRef .tc main_arg4)
/-- Each edge's atom number: row 1 of the index pairs. -/
abbrev idxA : IVec S1600000 32 := res_main_v1 V0

theorem wf64 : ScatterDims.WF ⟨2, ![100000, 64]⟩ ⟨2, ![1600000, 1]⟩ ⟨2, ![1600000, 64]⟩ [1] [0] [0] 1 :=
  scatter_S100000x64_S1600000x1_S1600000x64_1_0_0_1_wf
theorem wf3 : ScatterDims.WF ⟨2, ![100000, 3]⟩ ⟨2, ![1600000, 1]⟩ ⟨2, ![1600000, 3]⟩ [1] [0] [0] 1 :=
  scatter_S100000x3_S1600000x1_S1600000x3_1_0_0_1_wf

/-- The program's gather and scatter records are the row gather and the row scatter at their sizes. -/
theorem gather64_eq : gather_S100000x64_S1600000x1_S1600000x64_1_0_n_n_0_1_164
    = rowGather 100000 1600000 64 gather_S100000x64_S1600000x1_S1600000x64_1_0_n_n_0_1_164_wf := rfl
theorem gather1_eq : gather_S100000x1_S1600000x1_S1600000x1_1_0_n_n_0_1_11
    = rowGather 100000 1600000 1 gather_S100000x1_S1600000x1_S1600000x1_1_0_n_n_0_1_11_wf := rfl
theorem scatter64_eq : scatter_S100000x64_S1600000x1_S1600000x64_1_0_0_1 = rowScatter 100000 1600000 64 wf64 := rfl
theorem scatter3_eq : scatter_S100000x3_S1600000x1_S1600000x3_1_0_0_1 = rowScatter 100000 1600000 3 wf3 := rfl

/-! ## The per-edge products -/

/-- The product of the radial features with the gathered embedding rows, the gather written as a row gather. -/
theorem v9_def : (res_main_v9 V0 : FVec Ideal S1600000x64 .f32)
    = mulf (fA V0) (Host.gather (rowGather 100000 1600000 64 gather_S100000x64_S1600000x1_S1600000x64_1_0_n_n_0_1_164_wf) (embA V0)
        (broadcastInDim S1600000x1 ![0] bcast_S1600000_S1600000x1_0 (select (cmpi .slt (idxA V0) (broadcastInDim S1600000 ![] bcast_S_S1600000 (constantI S_ 32 0#32))) (addi (idxA V0) (broadcastInDim S1600000 ![] bcast_S_S1600000 (constantI S_ 32 100000#32))) (idxA V0)))) := rfl

/-- The same with the gathered charge, one column stretched along the 64 columns. -/
theorem v31_def : (res_main_v31 V0 : FVec Ideal S1600000x64 .f32)
    = mulf (fA V0) (broadcastInDim S1600000x64 ![0, 1] bcast_S1600000x1_S1600000x64_0_1
        (Host.gather (rowGather 100000 1600000 1 gather_S100000x1_S1600000x1_S1600000x1_1_0_n_n_0_1_11_wf) (chgA V0)
          (broadcastInDim S1600000x1 ![0] bcast_S1600000_S1600000x1_0 (select (cmpi .slt (idxA V0) (broadcastInDim S1600000 ![] bcast_S_S1600000 (constantI S_ 32 0#32))) (addi (idxA V0) (broadcastInDim S1600000 ![] bcast_S_S1600000 (constantI S_ 32 100000#32))) (idxA V0))))) := rfl

theorem v9_eq : (res_main_v9 V0 : FVec Ideal S1600000x64 .f32) = Cert.EdgeSpec.protoE (embA V0) (fA V0) (idxA V0) := by
  funext i
  obtain ⟨e, c, rfl⟩ : ∃ (e : Fin 1600000) (c : Fin 64), i = ix2 e c := ⟨i 0, i 1, eq_ix2 i⟩
  rw [v9_def]
  show fA V0 (ix2 e c) * _ = fA V0 (ix2 e c) * embA V0 (ix2 (Cert.EdgeSpec.row (idxA V0) e) c)
  exact congrArg (fA V0 (ix2 e c) * ·)
    (gatherRows_apply gather_S100000x64_S1600000x1_S1600000x64_1_0_n_n_0_1_164_wf bcast_S1600000_S1600000x1_0 bcast_S_S1600000
      (embA V0) (idxA V0) e c)

theorem v31_eq : (res_main_v31 V0 : FVec Ideal S1600000x64 .f32) = Cert.EdgeSpec.protoC (chgA V0) (fA V0) (idxA V0) := by
  funext i
  obtain ⟨e, c, rfl⟩ : ∃ (e : Fin 1600000) (c : Fin 64), i = ix2 e c := ⟨i 0, i 1, eq_ix2 i⟩
  rw [v31_def]
  show fA V0 (ix2 e c) * _ = fA V0 (ix2 e c) * chgA V0 (ix2 (Cert.EdgeSpec.row (idxA V0) e) (0 : Fin 1))
  refine congrArg (fA V0 (ix2 e c) * ·) ?_
  rw [ofcol_apply]
  exact gatherRows_apply gather_S100000x1_S1600000x1_S1600000x1_1_0_n_n_0_1_11_wf bcast_S1600000_S1600000x1_0 bcast_S_S1600000
    (chgA V0) (idxA V0) e (0 : Fin 1)

/-! ## The per-atom radial features -/

theorem radE_eq :
    (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (res_main_v1 V0)) (res_main_v9 V0) : FVec Ideal S100000x64 .f32)
      = Cert.EdgeSpec.radE_R (embA V0) (fA V0) (idxA V0) wf64 := by
  rw [scatter64_eq, v9_eq]
  exact scatterRows_eq wf64 bcast_S_S100000x64 bcast_S1600000_S1600000x1_0 (idxA V0) _

theorem radC_eq :
    (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (res_main_v1 V0)) (res_main_v31 V0) : FVec Ideal S100000x64 .f32)
      = Cert.EdgeSpec.radC_R (chgA V0) (fA V0) (idxA V0) wf64 := by
  rw [scatter64_eq, v31_eq]
  exact scatterRows_eq wf64 bcast_S_S100000x64 bcast_S1600000_S1600000x1_0 (idxA V0) _

/-! ## The per-atom vectors -/

/-- An edge's vector: its direction times the row sum of a [1600000, 64] array, the row sum stretched along the 3 columns. -/
theorem vec_apply (x : FVec Ideal S1600000x64 .f32) (r : FVec Ideal S1600000x3 .f32) (i : S1600000x3.Idx) :
    mulf r (broadcastInDim S1600000x3 ![0, 1] bcast_S1600000x1_S1600000x3_0_1 (broadcastInDim S1600000x1 ![0] bcast_S1600000_S1600000x1_0
      (Host.reduceAdd x (constant (F := Ideal) S_ .f32 0x00000000#32) reducesTo_S1600000x64_S1600000_d1 h_S_))) i
      = r i * ∑ c : Fin 64, x (ix2 (i 0) c) := by
  obtain ⟨e, d, rfl⟩ : ∃ (e : Fin 1600000) (d : Fin 3), i = ix2 e d := ⟨i 0, i 1, eq_ix2 i⟩
  show r (ix2 e d) * _ = r (ix2 e d) * ∑ c : Fin 64, x (ix2 e c)
  refine congrArg (r (ix2 e d) * ·) ?_
  rw [ofcol_apply, col_apply]
  exact rowsum_apply reducesTo_S1600000x64_S1600000_d1 h_S_ x e

/-- The scatter-add of the edges' vectors, the scatter written as a row scatter. -/
theorem v19_def : (res_main_v19 V0 : FVec Ideal S100000x3 .f32)
    = Host.scatterAdd (rowScatter 100000 1600000 3 wf3) (broadcastInDim S100000x3 ![] bcast_S_S100000x3 (constant S_ .f32 0x00000000#32))
        (broadcastInDim S1600000x1 ![0] bcast_S1600000_S1600000x1_0 (idxA V0))
        (mulf (rA V0) (broadcastInDim S1600000x3 ![0, 1] bcast_S1600000x1_S1600000x3_0_1 (broadcastInDim S1600000x1 ![0] bcast_S1600000_S1600000x1_0
          (Host.reduceAdd (res_main_v9 V0) (constant S_ .f32 0x00000000#32) reducesTo_S1600000x64_S1600000_d1 h_S_)))) := rfl

theorem v41_def : (res_main_v41 V0 : FVec Ideal S100000x3 .f32)
    = Host.scatterAdd (rowScatter 100000 1600000 3 wf3) (broadcastInDim S100000x3 ![] bcast_S_S100000x3 (constant S_ .f32 0x00000000#32))
        (broadcastInDim S1600000x1 ![0] bcast_S1600000_S1600000x1_0 (idxA V0))
        (mulf (rA V0) (broadcastInDim S1600000x3 ![0, 1] bcast_S1600000x1_S1600000x3_0_1 (broadcastInDim S1600000x1 ![0] bcast_S1600000_S1600000x1_0
          (Host.reduceAdd (res_main_v31 V0) (constant S_ .f32 0x00000000#32) reducesTo_S1600000x64_S1600000_d1 h_S_)))) := rfl

theorem v19_eq : (res_main_v19 V0 : FVec Ideal S100000x3 .f32) = Cert.EdgeSpec.vaccE_R (embA V0) (fA V0) (rA V0) (idxA V0) wf3 := by
  rw [v19_def, v9_eq]
  refine (scatterRows_eq wf3 bcast_S_S100000x3 bcast_S1600000_S1600000x1_0 (idxA V0) _).trans ?_
  exact congrArg (Cert.EdgeSpec.scatRows (idxA V0) wf3)
    (funext fun i => vec_apply (Cert.EdgeSpec.protoE (embA V0) (fA V0) (idxA V0)) (rA V0) i)

theorem v41_eq : (res_main_v41 V0 : FVec Ideal S100000x3 .f32) = Cert.EdgeSpec.vaccC_R (chgA V0) (fA V0) (rA V0) (idxA V0) wf3 := by
  rw [v41_def, v31_eq]
  refine (scatterRows_eq wf3 bcast_S_S100000x3 bcast_S1600000_S1600000x1_0 (idxA V0) _).trans ?_
  exact congrArg (Cert.EdgeSpec.scatRows (idxA V0) wf3)
    (funext fun i => vec_apply (Cert.EdgeSpec.protoC (chgA V0) (fA V0) (idxA V0)) (rA V0) i)

end Cert.ReferenceIdeal.RefPre

end
-- ==== Proof.RFinal.lean ====
/-
  The reference program's two result arrays as functions of its input arrays: the generated run's terms, read layer by
  layer (the dense layers) and stage by stage (the gathers, products, row sums and scatter-adds before them), are the
  final description applied to the reference's form of the four per-atom arrays.
-/
import proofs.«417935_j69415261438047_3_alg».proof.Proof.RValue
import proofs.«417935_j69415261438047_3_alg».proof.Proof.RPre
import proofs.«417935_j69415261438047_3_alg».proof.Proof.FinalSpec

set_option maxRecDepth 16384

noncomputable section

namespace Cert.ReferenceIdeal.RefValue

open Idealize.ShloMosaic Idealize.ShloMosaic.ValueIdx Idealize.SL.Sem Cert.ReferenceIdeal Cert.ReferenceIdeal.Gen
open Cert.ReferenceIdeal.Value Cert.ReferenceIdeal.RefPre Cert.EdgeSpec

variable (V0 : Valuation τ sig (Elt Ideal))

/-- The reference's four per-atom arrays are the reference's form of the edge description. -/
theorem msg_eq (n : Fin 100000) :
    refMsg V0 n = Cert.FinalSpec.msgOf (radE_R (embA V0) (fA V0) (idxA V0) RefPre.wf64)
      (vaccE_R (embA V0) (fA V0) (rA V0) (idxA V0) RefPre.wf3) (radC_R (chgA V0) (fA V0) (idxA V0) RefPre.wf64)
      (vaccC_R (chgA V0) (fA V0) (rA V0) (idxA V0) RefPre.wf3) n := by
  have h1 : radE V0 = radE_R (embA V0) (fA V0) (idxA V0) RefPre.wf64 := RefPre.radE_eq V0
  have h2 : (res_main_v19 V0 : FVec Ideal S100000x3 .f32) = vaccE_R (embA V0) (fA V0) (rA V0) (idxA V0) RefPre.wf3 := RefPre.v19_eq V0
  have h3 : radC V0 = radC_R (chgA V0) (fA V0) (idxA V0) RefPre.wf64 := RefPre.radC_eq V0
  have h4 : (res_main_v41 V0 : FVec Ideal S100000x3 .f32) = vaccC_R (chgA V0) (fA V0) (rA V0) (idxA V0) RefPre.wf3 := RefPre.v41_eq V0
  unfold Cert.FinalSpec.msgOf
  show Cert.Spec.msgRow (fun k => radE V0 (ix2 n k)) (Cert.Spec.vnorm fun d => (res_main_v19 V0 : FVec Ideal S100000x3 .f32) (ix2 n d))
      (fun k => radC V0 (ix2 n k)) (Cert.Spec.vnorm fun d => (res_main_v41 V0 : FVec Ideal S100000x3 .f32) (ix2 n d)) = _
  rw [h1, h2, h3, h4]

/-- THE EMBEDDING UPDATE the reference returns. -/
theorem outA_eq :
    outA V0 = Cert.FinalSpec.outA (radE_R (embA V0) (fA V0) (idxA V0) RefPre.wf64)
      (vaccE_R (embA V0) (fA V0) (rA V0) (idxA V0) RefPre.wf3) (radC_R (chgA V0) (fA V0) (idxA V0) RefPre.wf64)
      (vaccC_R (chgA V0) (fA V0) (rA V0) (idxA V0) RefPre.wf3)
      (argW1 V0) (argB1 V0) (argW2 V0) (argB2 V0) (argWa1 V0) (argBa1 V0) (argWa2 V0) (argBa2 V0) := by
  funext i
  obtain ⟨n, j, rfl⟩ : ∃ (n : Fin 100000) (j : Fin 64), i = ix2 n j := ⟨i 0, i 1, eq_ix2 i⟩
  rw [outA_apply, msg_eq]
  rfl

/-- THE CHARGE UPDATE the reference returns. -/
theorem outQ_eq :
    outQ V0 = Cert.FinalSpec.outQ (radE_R (embA V0) (fA V0) (idxA V0) RefPre.wf64)
      (vaccE_R (embA V0) (fA V0) (rA V0) (idxA V0) RefPre.wf3) (radC_R (chgA V0) (fA V0) (idxA V0) RefPre.wf64)
      (vaccC_R (chgA V0) (fA V0) (rA V0) (idxA V0) RefPre.wf3)
      (argW1 V0) (argB1 V0) (argW2 V0) (argB2 V0) (argWq1 V0) (argBq1 V0) (argWq2 V0) (argBq2 V0) := by
  funext i
  obtain ⟨n, j, rfl⟩ : ∃ (n : Fin 100000) (j : Fin 1), i = ix2 n j := ⟨i 0, i 1, eq_ix2 i⟩
  rw [outQ_apply, msg_eq]
  rfl

end Cert.ReferenceIdeal.RefValue

end
-- ==== Proof.Finite.lean ====
import proofs.«417935_j69415261438047_3_alg».proof.Pre_finite_inputs
import Idealize.ShloMosaic.PureOps.Ideal.Laws
import Idealize.ShloMosaic.Lib.ReduceAll
import Idealize.ShloMosaic.Lib.ValueIdx
import Mathlib.Data.EReal.Basic

namespace Cert.Finite
open Idealize.ShloMosaic Cert.Pre_finite_inputs

/-- The rank-0 shape has exactly one index. -/
instance : Subsingleton S_.Idx := ⟨fun a b => funext fun d => d.elim0⟩

/-- An extended real whose absolute value `max x (-x)` lies strictly below `+∞` is a real number:
    of the three kinds of extended real, `⊥` and `⊤` both have absolute value `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The bit pattern `0x7F800000` of the 32-bit format denotes `+∞`. -/
theorem ofBits_inf : Ideal.ofBits .f32 0x7F800000#32 = ⊤ := by simp [Ideal.ofBits, Ideal.ieee]

/-- One conjunct of the precondition, read back: if the reduction by `and` of the pointwise test
    `|x| < +∞` over all of an array is 1, every entry of the array is a real number. -/
theorem real_of_test {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf x) (broadcastInDim s ![] hb (constant (F := Ideal) S_ .f32 0x7F800000#32)))
          (constantI S_ 1 1#1) hr hu j = 1#1) :
    ∀ i, ∃ r : ℝ, x i = (r : EReal) := by
  intro i
  have hi := Host.reduce_andi_all _ _ hr hu j e i
  refine real_of_abs_lt_top (x i) ?_
  have hc : Ideal.cmp .olt (max (x i) (-(x i))) (Ideal.ofBits .f32 0x7F800000#32) = 1#1 := hi
  rw [ofBits_inf] at hc
  unfold Ideal.cmp at hc
  by_contra hlt
  simp [hlt] at hc

/-- A conjunction of two `i1` arrays that is 1 at an index has both conjuncts 1 there. -/
theorem andi_apply_eq_one {s : Shape} (a b : IVec s 1) (i : s.Idx) (h : andi a b i = 1#1) :
    a i = 1#1 ∧ b i = 1#1 := IntOp.andi_eq_one.1 h

/-- Under the precondition the atoms' embeddings, the atoms' charges and the edges' radial features are real numbers (the three arrays whose finiteness the equivalence uses). -/
theorem of_pre [Cert.Pre_finite_inputs.Facts]
    (a0 : FVec Ideal S100000x64 .f32) (a1 : FVec Ideal S100000x1 .f32) (a2 : IVec S2x1600000 32) (a3 : FVec Ideal S1600000x64 .f32)
    (a4 : FVec Ideal S1600000x3 .f32) (a5 : FVec Ideal S130x128 .f32) (a6 : FVec Ideal S128 .f32) (a7 : FVec Ideal S128x64 .f32)
    (a8 : FVec Ideal S64 .f32) (a9 : FVec Ideal S64x32 .f32) (a10 : FVec Ideal S32 .f32) (a11 : FVec Ideal S32x64 .f32)
    (a12 : FVec Ideal S64 .f32) (a13 : FVec Ideal S64x32 .f32) (a14 : FVec Ideal S32 .f32) (a15 : FVec Ideal S32x1 .f32) (a16 : FVec Ideal S1 .f32)
    (h : Cert.Pre_finite_inputs.fn (F := Ideal) a0 a1 a2 a3 a4 a5 a6 a7 a8 a9 a10 a11 a12 a13 a14 a15 a16 = fun _ => 1#1) :
    (∀ i, ∃ x : ℝ, a0 i = (x : EReal)) ∧ (∀ i, ∃ x : ℝ, a1 i = (x : EReal)) ∧ (∀ i, ∃ x : ℝ, a3 i = (x : EReal)) := by
  have h0 := congrFun h ValueIdx.ix0
  dsimp only [fn, fn_part1, fn_part2, fn_part3, fn_part4] at h0
  have p16 := (andi_apply_eq_one _ _ _ h0).1
  have p15 := (andi_apply_eq_one _ _ _ p16).1
  have p14 := (andi_apply_eq_one _ _ _ p15).1
  have p13 := (andi_apply_eq_one _ _ _ p14).1
  have p12 := (andi_apply_eq_one _ _ _ p13).1
  have p11 := (andi_apply_eq_one _ _ _ p12).1
  have p10 := (andi_apply_eq_one _ _ _ p11).1
  have p9 := (andi_apply_eq_one _ _ _ p10).1
  have p8 := (andi_apply_eq_one _ _ _ p9).1
  have p7 := (andi_apply_eq_one _ _ _ p8).1
  have p6 := (andi_apply_eq_one _ _ _ p7).1
  have p5 := (andi_apply_eq_one _ _ _ p6).1
  have p4 := (andi_apply_eq_one _ _ _ p5).1
  obtain ⟨p01, t3⟩ := andi_apply_eq_one _ _ _ p4
  obtain ⟨t0, t1⟩ := andi_apply_eq_one _ _ _ p01
  exact ⟨real_of_test a0 _ _ _ _ t0, real_of_test a1 _ _ _ _ t1, real_of_test a3 _ _ _ _ t3⟩

end Cert.Finite
-- ==== Proof.lean ====
/-
  A message-passing layer on a molecular graph: for every atom, sum over its edges the edge's radial features times
  the gathered embedding (and charge) of the edge's atom, sum the edges' direction vectors weighted by the same products,
  take the vectors' lengths, and pass the 130 numbers through two shared dense layers and two two-layer heads.

  The kernel program gathers and scatters with the same atom number, so it pulls the atom's own embedding (and charge)
  out of the sum over its edges: emb (n, c) · ∑ f (e, c) in place of ∑ f (e, c) · emb (n, c). The two agree because the
  embeddings, charges and radial features are real numbers under the precondition (on the extended reals the law fails
  at the infinities). An edge whose atom number is not a row number is dropped by every scatter-add of both programs, so
  what either program gathered for it is never read. The dense layers are the same row function in both programs: a
  matrix product into a zero accumulator is the host's dot_general, the narrowing to bf16 is the identity, and the
  activation's constants are the same binary32 words.
-/
import proofs.«417935_j69415261438047_3_alg».proof.Defs
import proofs.«417935_j69415261438047_3_alg».proof.Proof.Gen.Kernel
import proofs.«417935_j69415261438047_3_alg».proof.Proof.Gen.Kernel.Frame
import proofs.«417935_j69415261438047_3_alg».proof.Proof.Gen.KernelIdeal
import proofs.«417935_j69415261438047_3_alg».proof.Proof.Gen.KernelIdeal.Frame
import proofs.«417935_j69415261438047_3_alg».proof.Proof.Gen.ReferenceIdeal
import proofs.«417935_j69415261438047_3_alg».proof.Proof.Gen.Pre_finite_inputs
import proofs.«417935_j69415261438047_3_alg».proof.Proof.KValue
import proofs.«417935_j69415261438047_3_alg».proof.Proof.RFinal
import proofs.«417935_j69415261438047_3_alg».proof.Proof.Finite
import Idealize.ShloMosaic.Adequacy
import Idealize.ShloMosaic.Init

set_option maxRecDepth 16384

noncomputable section

namespace Cert.Proof

open Idealize.ShloMosaic Idealize.SL.Sem

/-- The word-level kernel program runs and leaves its arguments: the generated frame. -/
theorem frame_k : Cert.frame_Kernel := fun m ρ _ => Cert.Kernel.Gen.frame m ρ

/-- The idealized kernel program runs and leaves its arguments: the generated frame. -/
theorem frame_ki : Cert.frame_KernelIdeal := fun m ρ _ => Cert.KernelIdeal.Gen.frame m ρ

/-- The idealized reference runs and leaves its arguments: its generated run with the results dropped. -/
theorem frame_ri : Cert.frame_ReferenceIdeal := fun m ρ _ =>
  (θ_run Cert.ReferenceIdeal.defs _ _).mono (fun _ h c => (h c).2.2) (Cert.ReferenceIdeal.RefValue.run_named m ρ)

open Cert.KernelIdeal.Host Cert.ReferenceIdeal.RefValue Cert.ReferenceIdeal.RefPre in
/-- At the ideal values both programs end with the two updates at the final description of the reference's per-atom
    arrays: the kernel by its regions' values, the host scatters between them and the law that moves an atom's own factor
    across the sum over its edges; the reference by its run read layer by layer. -/
theorem algebraic : Cert.algebraic_KernelIdeal_ReferenceIdeal := by
  intro m ρ m' ρ' hpre hagree
  have hfin := fun c => Cert.Finite.of_pre _ _ _ _ _ _ _ _ _ _ _ _ _ _ _ _ _ (hpre c)
  have hemb : ∀ c i, ∃ x : ℝ, embM m c i = (x : EReal) := fun c => (hfin c).1
  have hchg : ∀ c i, ∃ x : ℝ, chgM m c i = (x : EReal) := fun c => (hfin c).2.1
  have hf : ∀ c i, ∃ x : ℝ, fM m c i = (x : EReal) := fun c => (hfin c).2.2
  refine ⟨_, _, (θ_run Cert.KernelIdeal.defs _ _).mono (fun r h c =>
      ⟨(h c).1.trans (result_A m ρ hemb hchg hf c), (h c).2.1.trans (result_Q m ρ hemb hchg hf c), (h c).2.2⟩)
      (Cert.KernelIdeal.Gen.run_results (F := Ideal) m ρ), ?_⟩
  refine (θ_run Cert.ReferenceIdeal.defs _ _).mono (fun r h c => ?_) (run_named m' ρ')
  obtain ⟨a0, a1, a2, a3, a4, a5, a6, a7, a8, a9, a10, a11, a12, a13, a14, a15, a16⟩ := hagree c
  have e0 : embA (StableHlo.launchContents m' c) = embM m c := a0
  have e1 : chgA (StableHlo.launchContents m' c) = chgM m c := a1
  have e3 : fA (StableHlo.launchContents m' c) = fM m c := a3
  have e4 : rA (StableHlo.launchContents m' c) = rM m c := a4
  have e2 : idxA (StableHlo.launchContents m' c) = idxM m c := by
    show Cert.ReferenceIdeal.Value.res_main_v1 (StableHlo.launchContents m' c) = _
    unfold Cert.ReferenceIdeal.Value.res_main_v1
    rw [show StableHlo.launchContents m' c (Proc.devRef .tc Cert.ReferenceIdeal.main_arg2)
      = m ((c.tc : Thread Cert.KernelIdeal.nD Cert.KernelIdeal.τ).loc Cert.KernelIdeal.main_arg2) from a2]
    rfl
  have e5 : argW1 (StableHlo.launchContents m' c) = w1M m c := a5
  have e6 : argB1 (StableHlo.launchContents m' c) = b1M m c := a6
  have e7 : argW2 (StableHlo.launchContents m' c) = w2M m c := a7
  have e8 : argB2 (StableHlo.launchContents m' c) = b2M m c := a8
  have e9 : argWa1 (StableHlo.launchContents m' c) = wa1M m c := a9
  have e10 : argBa1 (StableHlo.launchContents m' c) = ba1M m c := a10
  have e11 : argWa2 (StableHlo.launchContents m' c) = wa2M m c := a11
  have e12 : argBa2 (StableHlo.launchContents m' c) = ba2M m c := a12
  have e13 : argWq1 (StableHlo.launchContents m' c) = wq1M m c := a13
  have e14 : argBq1 (StableHlo.launchContents m' c) = bq1M m c := a14
  have e15 : argWq2 (StableHlo.launchContents m' c) = wq2M m c := a15
  have e16 : argBq2 (StableHlo.launchContents m' c) = bq2M m c := a16
  refine ⟨(h c).1.trans ?_, (h c).2.1.trans ?_, (h c).2.2⟩
  · rw [outA_eq, e0, e1, e2, e3, e4, e5, e6, e7, e8, e9, e10, e11, e12]
  · rw [outQ_eq, e0, e1, e2, e3, e4, e5, e6, e7, e8, e13, e14, e15, e16]

/-- The certificate's claim: the three frames, the idealization (the ideal pass rewrote nothing), the equivalence. -/
theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
